-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S4096x1024_S1024_d0 : S4096x1024.ReducesTo [0] S1024
  reducesTo_S1024_S_d0 : S1024.ReducesTo [0] S_

variable [Facts]

def fn_part2 {F : FTy → Type} [FloatOps F] (main_arg2 : FVec F S4096x1024 .f32) (main_v33 : IVec S_ 1) : IVec S_ 1 :=
  let main_cst_12 : FVec F S_ .f32 := constant S_ .f32 0x00000000#32
  let main_v34 : FVec F S4096x1024 .f32 := broadcastInDim S4096x1024 ![] bcast_S_S4096x1024 main_cst_12
  let main_v35 : IVec S4096x1024 1 := cmpf .une main_arg2 main_v34
  let main_c_13 : IVec S_ 1 := constantI S_ 1 0#1
  let main_v36 : IVec S1024 1 := (fun x v => Host.reduce IntOp.ori x v reducesTo_S4096x1024_S1024_d0 h_S_) main_v35 main_c_13
  let main_c_14 : IVec S_ 1 := constantI S_ 1 1#1
  let main_v37 : IVec S_ 1 := (fun x v => Host.reduce IntOp.andi x v reducesTo_S1024_S_d0 h_S_) main_v36 main_c_14
  let main_v38 : IVec S_ 1 := andi main_v33 main_v37
  main_v38

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S512x1024 : Shape := ⟨2, ![512, 1024]⟩
abbrev S2000x256 : Shape := ⟨2, ![2000, 256]⟩
abbrev S512x512 : Shape := ⟨2, ![512, 512]⟩
abbrev S1024x384 : Shape := ⟨2, ![1024, 384]⟩
abbrev S512 : Shape := ⟨1, ![512]⟩
abbrev S512x256 : Shape := ⟨2, ![512, 256]⟩
abbrev S512x1 : Shape := ⟨2, ![512, 1]⟩
abbrev S1024x128 : Shape := ⟨2, ![1024, 128]⟩
abbrev S2000x1024 : Shape := ⟨2, ![2000, 1024]⟩
abbrev S2000x384 : Shape := ⟨2, ![2000, 384]⟩
abbrev S2000x1 : Shape := ⟨2, ![2000, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S10000x256, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x384, .bf16⟩
  | .local _ .vmem, ⟨15, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![13], ![false]⟩

def k0_cond4 (i : grid0.Coords) : BitVec 1 :=
  let arg0 : BitVec 32 := BitVec.ofNat 32 (i 0).val
  let c8_i32_4 : BitVec 32 := 8#32
  let v11 : BitVec 1 := Scalar.cmpi .sge arg0 c8_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  inb_S512x1024_S512x512_0_0 : ∀ a, (![0, 0] : Fin 2 → Nat) a + S512x512.size a ≤ S512x1024.size a
  h_S512x512 : 0 < S512x512.numel
  bitsLt_bf16_f32 : FTy.bits .bf16 < FTy.bits .f32
  inb_S512x1024_S512x512_0_512 : ∀ a, (![0, 512] : Fin 2 → Nat) a + S512x512.size a ≤ S512x1024.size a
  inb_S512x512_S512x512_0_0 : ∀ a, (![0, 0] : Fin 2 → Nat) a + S512x512.size a ≤ S512x512.size a
  shapeCasts_S512x512_S512x512 : S512x512.ShapeCasts S512x512
  reduces_S512x512_S512 : S512x512.Reduces [0] S512
  reduces_S512x512_S512_2 : S512x512.Reduces [1] S512
  inb_S1024x256_S1024x256_0_0 : ∀ a, (![0, 0] : Fin 2 → Nat) a + S1024x256.size a ≤ S1024x256.size a
  h_S1024x256 : 0 < S1024x256.numel
  slices_S1024x256_o0_0_S512x256 : S1024x256.Slices ![0, 0] S512x256
  shapeCasts_S512_S512x1 : S512.ShapeCasts S512x1
  broadcasts_S512x1_S512x256 : S512x1.Broadcasts S512x256
  slices_S1024x256_o512_0_S512x256 : S1024x256.Slices ![512, 0] S512x256
  inb_S1024x384_S512x256_0_0 : ∀ a, (![0, 0] : Fin 2 → Nat) a + S512x256.size a ≤ S1024x384.size a
  h_S512x256 : 0 < S512x256.numel
  shapeCasts_S512x256_S512x256 : S512x256.ShapeCasts S512x256
  packedbf16_S1024x384_S512x256_0_0 : (Rect.unit (s := S1024x384) ![0, 0] S512x256.size inb_S1024x384_S512x256_0_0).PackedRows (EltTy.packing .bf16)
  inb_S1024x384_S512x256_512_0 : ∀ a, (![512, 0] : Fin 2 → Nat) a + S512x256.size a ≤ S1024x384.size a
  packedbf16_S1024x384_S512x256_512_0 : (Rect.unit (s := S1024x384) ![512, 0] S512x256.size inb_S1024x384_S512x256_512_0).PackedRows (EltTy.packing .bf16)
  inb_S1024x384_S1024x128_0_256 : ∀ a, (![0, 256] : Fin 2 → Nat) a + S1024x128.size a ≤ S1024x384.size a
  h_S1024x128 : 0 < S1024x128.numel
  shapeCasts_S1024x128_S1024x128 : S1024x128.ShapeCasts S1024x128
  packedbf16_S1024x384_S1024x128_0_256 : (Rect.unit (s := S1024x384) ![0, 256] S1024x128.size inb_S1024x384_S1024x128_0_256).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  inb_S1024x384_S1024x384_0_0 : ∀ a, (![0, 0] : Fin 2 → Nat) a + S1024x384.size a ≤ S1024x384.size a
  h_S1024x384 : 0 < S1024x384.numel
  slices_S2000x384_o0_0_S2000x256 : S2000x384.Slices ![0, 0] S2000x256
  slices_S2000x384_o0_256_S2000x1 : S2000x384.Slices ![0, 256] S2000x1
  broadcasts_S2000x1_S2000x256 : S2000x1.Broadcasts S2000x256
  dot_S512x512_S512x512_S512x512_0_0_1_1_n_n_wf : DotDims.WF S512x512 S512x512 S512x512 [0] [0] [1] [1] [] []
  dot_S512x512_S512x256_S512x256_1_0_0_1_n_n_wf : DotDims.WF S512x512 S512x256 S512x256 [1] [0] [0] [1] [] []
  dot_S512x512_S512x256_S512x256_0_0_1_1_n_n_wf : DotDims.WF S512x512 S512x256 S512x256 [0] [0] [1] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x384_S2000x384_1_0_0_1_n_n_wf : DotDims.WF S2000x1024 S1024x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S10000x256.size a
  hwx0_7 : ∀ i : grid0.Coords, EltTy.bits .f32 = 32 ∨ (Rect.block (s := S10000x256) S2000x256.size (cc0_transform_7 i) (hinb0_7 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x384_S2000x384_1_0_0_1_n_n : DotDims S2000x1024 S1024x384 S2000x384 where
  lhsContracting := [1]
  rhsContracting := [0]
  lhsNonContracting := [0]
  rhsNonContracting := [1]
  lhsBatch := []
  rhsBatch := []
  wf := dot_S2000x1024_S1024x384_S2000x384_1_0_0_1_n_n_wf

abbrev win0_0 : Pipeline.Window sig grid0 :=
  Pipeline.Window.ofSpec (Memref.whole main_arg2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.K.Vals.lean ====
/-
  The values the kernel's body computes and keeps, as pure functions of what it loads, and the conditions of its
  four guarded blocks. For every float instance.
-/
import proofs.«128930_g52209622450808_cont_9to1_m_767_27_alg».proof.Proof.Gen.Kernel.Skeleton
import proofs.«128930_g52209622450808_cont_9to1_m_767_27_alg».proof.Proof.Gen.Kernel.Frame
import Idealize.ShloMosaic.Lib.Pipeline.Value

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The four guards of the body, as functions of the grid point

The body is four guarded blocks. With `p` the point's one coordinate: the first runs at `p = 0` (the Gram
matrix's three quadrants are set from the first chunk of rows), the second at `0 < p < 8` (each later chunk is
added), the third at `p = 7` (square roots, column sums, the mixed matrix and the scaled keys are stored), the
fourth at `p ≥ 8` (one block of output rows). -/

abbrev a0 (i : grid0.Coords) : BitVec 32 := BitVec.ofNat 32 (i 0).val
abbrev c1 (i : grid0.Coords) : BitVec 1 := Scalar.cmpi .ne (Scalar.extui (Scalar.cmpi .eq (a0 i) 0#32) : BitVec 32) 0#32
abbrev c2 (i : grid0.Coords) : BitVec 1 :=
  Scalar.cmpi .ne (Scalar.extui (Scalar.andi (Scalar.cmpi .sgt (a0 i) 0#32) (Scalar.cmpi .slt (a0 i) 8#32)) : BitVec 32) 0#32
abbrev c3 (i : grid0.Coords) : BitVec 1 := Scalar.cmpi .ne (Scalar.extui (Scalar.cmpi .eq (a0 i) 7#32) : BitVec 32) 0#32

/-! ## Rectangles -/

/-- The left and right halves (columns `[0, 512)` and `[512, 1024)`) of a 512-row chunk of `fix`. -/
abbrev rL : Rect S512x1024 := Rect.unit (s := S512x1024) ![0, 0] S512x512.size inb_S512x1024_S512x512_0_0
abbrev rR : Rect S512x1024 := Rect.unit (s := S512x1024) ![0, 512] S512x512.size inb_S512x1024_S512x512_0_512
/-- All of a Gram quadrant. -/
abbrev rG : Rect S512x512 := Rect.unit (s := S512x512) ![0, 0] S512x512.size inb_S512x512_S512x512_0_0

theorem off0 : (![0, 0] : Fin 2 → ℕ) = fun _ => 0 := funext fun a => by fin_cases a <;> rfl

/-! ## What the scratch buffers hold, as functions of the blocks loaded

A Gram state is the three quadrants kept: rows and columns both in the left half, left rows against right
columns, both in the right half (the fourth quadrant is the second's transpose and is never stored). -/

abbrev G3 (F : FTy → Type) [FloatOps F] := Vec F S512x512 .f32 × Vec F S512x512 .f32 × Vec F S512x512 .f32

/-- The Gram state after the first chunk `x` of rows: each quadrant is a product of the chunk's halves, transposed
    on the left. -/
def gramInit (x : Vec F S512x1024 .f32) : G3 F :=
  (k0_pay3 (View.ld x rL), k0_pay4 (View.ld x rL) (View.ld x rR), k0_pay5 (View.ld x rR))

/-- A later chunk `x` adds its three products to the state `g`. -/
def gramStep (x : Vec F S512x1024 .f32) (g : G3 F) : G3 F :=
  (k0_pay8 (View.ld x rL) g.1, k0_pay9 (View.ld x rL) (View.ld x rR) g.2.1, k0_pay10 (View.ld x rR) g.2.2)

/-- The keys, projected, shifted by the bias and scaled by 1/16. -/
def ksVal (o : Vec F S1024x256 .f32) (wk : Vec F S256x256 .f32) (bk : Vec F S1x256 .f32) : Vec F S1024x256 .bf16 :=
  k0_pay13 o wk bk

/-- One block of output rows: the exponentials of the block's logits against the scaled keys, times the mixed
    matrix with its appended columns of ones, the first 256 columns divided by the 257th. -/
def outVal (mn : Vec F S2000x256 .f32) (wq : Vec F S256x256 .f32) (bq : Vec F S1x256 .f32)
    (ks : Vec F S1024x256 .bf16) (om : Vec F S1024x384 .bf16) : Vec F S2000x256 .f32 :=
  k0_pay14 mn wq bq ks om

/-- One store through all of a Gram quadrant covers it. -/
theorem cover_rG (w : Vec F S512x512 .f32) (y : S512x512.Idx) :
    ∃ pc ∈ ([⟨rG, w⟩] : List (View.Piece (Elt F) S512x512 .f32)), y ∈ pc.1.set :=
  View.cover_of_tiled [⟨rG, w⟩] S512x512.size (by rfl) y

/-! ## The mixed matrix with its appended columns -/

/-- The three rectangles that tile the 1024 × 384 buffer: columns `[256, 384)` of every row; rows `[512, 1024)`
    and rows `[0, 512)` of columns `[0, 256)`. -/
abbrev rOmR : Rect S1024x384 := Rect.unit (s := S1024x384) ![0, 256] S1024x128.size inb_S1024x384_S1024x128_0_256
abbrev rOmBL : Rect S1024x384 := Rect.unit (s := S1024x384) ![512, 0] S512x256.size inb_S1024x384_S512x256_512_0
abbrev rOmTL : Rect S1024x384 := Rect.unit (s := S1024x384) ![0, 0] S512x256.size inb_S1024x384_S512x256_0_0

/-- The mixed matrix from a Gram state `g` and `other`: the upper and lower halves of its 256 columns, and 128
    columns of ones beside them. -/
def omVal (g : G3 F) (o : Vec F S1024x256 .f32) : Vec F S1024x384 .bf16 :=
  View.canon [⟨rOmR, k0_pay12⟩, ⟨rOmBL, k0_pay11 (k0_pay21 g.1 g.2.1 g.2.2 o)⟩, ⟨rOmTL, k0_pay20 g.1 g.2.1 g.2.2 o⟩]

/-- The Gram state after chunks `0 … n` of a family of chunks. -/
def gramFold (f : ℕ → Vec F S512x1024 .f32) : ℕ → G3 F
  | 0 => gramInit (f 0)
  | n + 1 => gramStep (f (n + 1)) (gramFold f n)

/-- The three rectangles cover the buffer: an index is in the ones' columns, or else in the lower or the upper rows. -/
theorem cover_om (w1 : Vec F S1024x128 .bf16) (w2 w3 : Vec F S512x256 .bf16) (y : S1024x384.Idx) :
    ∃ pc ∈ ([⟨rOmR, w1⟩, ⟨rOmBL, w2⟩, ⟨rOmTL, w3⟩] : List (View.Piece (Elt F) S1024x384 .bf16)), y ∈ pc.1.set := by
  have hy0 : (y 0).val < 1024 := (y 0).isLt
  have hy1 : (y 1).val < 384 := (y 1).isLt
  by_cases h1 : 256 ≤ (y 1).val
  · refine ⟨_, List.mem_cons_self, ?_⟩
    rw [Rect.mem_set_unit]; intro a; fin_cases a
    · show 0 ≤ (y 0).val ∧ (y 0).val < 0 + 1024; omega
    · show 256 ≤ (y 1).val ∧ (y 1).val < 256 + 128; omega
  · by_cases h0 : 512 ≤ (y 0).val
    · refine ⟨_, List.mem_cons_of_mem _ List.mem_cons_self, ?_⟩
      rw [Rect.mem_set_unit]; intro a; fin_cases a
      · show 512 ≤ (y 0).val ∧ (y 0).val < 512 + 512; omega
      · show 0 ≤ (y 1).val ∧ (y 1).val < 0 + 256; omega
    · refine ⟨_, List.mem_cons_of_mem _ (List.mem_cons_of_mem _ List.mem_cons_self), ?_⟩
      rw [Rect.mem_set_unit]; intro a; fin_cases a
      · show 0 ≤ (y 0).val ∧ (y 0).val < 0 + 512; omega
      · show 0 ≤ (y 1).val ∧ (y 1).val < 0 + 256; omega

/-- All of the scaled keys' buffer. -/
abbrev rK : Rect S1024x256 := Rect.unit (s := S1024x256) ![0, 0] S1024x256.size inb_S1024x256_S1024x256_0_0

theorem cover_rK (w : Vec F S1024x256 .bf16) (y : S1024x256.Idx) :
    ∃ pc ∈ ([⟨rK, w⟩] : List (View.Piece (Elt F) S1024x256 .bf16)), y ∈ pc.1.set :=
  View.cover_of_tiled [⟨rK, w⟩] S1024x256.size (by rfl) y

end Cert.Proof.K

end
-- ==== Proof.K.Data.lean ====
/-
  The proof data of the one region: what every window's staging buffer holds after the body at each point, and
  what the five scratch buffers hold between points. Before point `t` with `1 ≤ t ≤ 8` the three Gram quadrants
  hold the products of chunks `0 … t - 1`; from point 8 on the mixed matrix and the scaled keys hold their values;
  otherwise a scratch buffer holds anything. For every float instance.
-/
import proofs.«128930_g52209622450808_cont_9to1_m_767_27_alg».proof.Proof.K.Vals

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

/-! ## Points and blocks -/

theorem N13 : cfg0.N = 13 := N_0

/-- Point number `n` (reduced modulo the thirteen points). -/
def pt (n : ℕ) : Fin cfg0.N := ⟨n % 13, by rw [N13]; exact Nat.mod_lt _ (by decide)⟩

theorem pt_val (t : Fin cfg0.N) : pt t.val = t :=
  Fin.ext (Nat.mod_eq_of_lt (Nat.lt_of_lt_of_eq t.isLt N13))

/-- The windows' blocks at a point, each at its literal type. -/
abbrev fixBlk (c : Dev nD) (t : Fin cfg0.N) : Vec F S512x1024 .f32 := iblk m c 0 t
abbrev otherBlk (c : Dev nD) (t : Fin cfg0.N) : Vec F S1024x256 .f32 := iblk m c 1 t
abbrev wkBlk (c : Dev nD) (t : Fin cfg0.N) : Vec F S256x256 .f32 := iblk m c 2 t
abbrev bkBlk (c : Dev nD) (t : Fin cfg0.N) : Vec F S1x256 .f32 := iblk m c 3 t
abbrev mainBlk (c : Dev nD) (t : Fin cfg0.N) : Vec F S2000x256 .f32 := iblk m c 4 t
abbrev wqBlk (c : Dev nD) (t : Fin cfg0.N) : Vec F S256x256 .f32 := iblk m c 5 t
abbrev bqBlk (c : Dev nD) (t : Fin cfg0.N) : Vec F S1x256 .f32 := iblk m c 6 t

/-- The chunk of `fix` point `n` works on. -/
def fxAt (c : Dev nD) (n : ℕ) : Vec F S512x1024 .f32 := fixBlk m c (pt n)

/-- The Gram state after points `0 … n`. -/
def gramAt (c : Dev nD) (n : ℕ) : G3 F := gramFold (fxAt m c) n

theorem gramAt_zero (c : Dev nD) : gramAt m c 0 = gramInit (fxAt m c 0) := rfl
theorem gramAt_succ (c : Dev nD) (n : ℕ) : gramAt m c (n + 1) = gramStep (fxAt m c (n + 1)) (gramAt m c n) := rfl

/-- The mixed matrix and the scaled keys, stored at point 7. -/
def omAt (c : Dev nD) : Vec F S1024x384 .bf16 := omVal (gramAt m c 7) (otherBlk m c (pt 7))
def ksAt (c : Dev nD) : Vec F S1024x256 .bf16 := ksVal (otherBlk m c (pt 7)) (wkBlk m c (pt 7)) (bkBlk m c (pt 7))

/-- The block of output rows point `t` stores. -/
def outAt (c : Dev nD) (t : Fin cfg0.N) : Vec F S2000x256 .f32 :=
  outVal (mainBlk m c t) (wqBlk m c t) (bqBlk m c t) (ksAt m c) (omAt m c)

/-! ## The scratch buffers between points -/

/-- Scratch 0 as the region's invariant holds it and as the body's run names it: one points-to. -/
theorem scr0_eq (c : Dev nD) (f : Buf (Elt F) ((c : Thread nD τ).loc cc0_scratch0)) :
    ((Memref.whole cc0_scratch0 : Memref sig .tc .vmem S512x512 .f32).view.loc (c : Thread nD τ)
        ↦[(Memref.whole cc0_scratch0 : Memref sig .tc .vmem S512x512 .f32).view.set]{fullShare} f : sProp 𝕄)
      = ((c : Thread nD τ).loc cc0_scratch0) ↦{fullShare} f := by
  simp only [Memref.view_whole, View.set_whole]

theorem scr0_intro (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0 : Memref sig .tc .vmem S512x512 .f32) fullShare d) := by
  unfold owns
  iintro ⟨%f, H⟩
  iexists _; iexists f; isplitr; · ipureintro; rfl
  rw [scr0_eq]; iexact H

theorem scr0_elim (c : Dev nD) (d : Vec F S512x512 .f32) :
    owns (c : Thread nD τ) (Memref.whole cc0_scratch0 : Memref sig .tc .vmem S512x512 .f32) fullShare d
      ⊢ (iprop(∃ f : Buf (Elt F) ((c : Thread nD τ).loc cc0_scratch0), ((c : Thread nD τ).loc cc0_scratch0) ↦{fullShare} f) : sProp 𝕄) := by
  unfold owns
  iintro ⟨%f, -, H⟩
  iexists f; rw [← scr0_eq]; iexact H

/-- Scratch 1 as the region's invariant holds it and as the body's run names it: one points-to. -/
theorem scr1_eq (c : Dev nD) (f : Buf (Elt F) ((c : Thread nD τ).loc cc0_scratch1)) :
    ((Memref.whole cc0_scratch1 : Memref sig .tc .vmem S512x512 .f32).view.loc (c : Thread nD τ)
        ↦[(Memref.whole cc0_scratch1 : Memref sig .tc .vmem S512x512 .f32).view.set]{fullShare} f : sProp 𝕄)
      = ((c : Thread nD τ).loc cc0_scratch1) ↦{fullShare} f := by
  simp only [Memref.view_whole, View.set_whole]

theorem scr1_intro (c : Dev nD) :
    (iprop(∃ f : Buf (Elt F) ((c : Thread nD τ).loc cc0_scratch1), ((c : Thread nD τ).loc cc0_scratch1) ↦{fullShare} f) : sProp 𝕄)
      ⊢ iprop(∃ d, owns (c : Thread nD τ) (Memref.whole cc0_scratch1 : Memref sig .tc .vmem S512x512 .f32) fullShare d) := by
  unfold owns
  iintro ⟨%f, H⟩
  iexists _; iexists f; isplitr; · ipureintro; rfl
  rw [scr1_eq]; iexact H

theorem scr1_elim (c : Dev nD) (d : Vec F S512x512 .f32) :
    owns (c : Thread nD τ) (Memref.whole cc0_scratch1 : Memref sig .tc .vmem S512x512 .f32) fullShare d
      ⊢ (iprop(∃ f : Buf (Elt F) ((c : Thread nD τ).loc cc0_scratch1), ((c : Thread nD τ).loc cc0_scratch1) ↦{fullShare} f) : sProp 𝕄) := by
  unfold owns
  iintro ⟨%f, -, H⟩
  iexists f; rw [← scr1_eq]; iexact H

/-- Scratch 2 as the region's invariant holds it and as the body's run names it: one points-to. -/
theorem scr2_eq (c : Dev nD) (f : Buf (Elt F) ((c : Thread nD τ).loc cc0_scratch2)) :
    ((Memref.whole cc0_scratch2 : Memref sig .tc .vmem S512x512 .f32).view.loc (c : Thread nD τ)
        ↦[(Memref.whole cc0_scratch2 : Memref sig .tc .vmem S512x512 .f32).view.set]{fullShare} f : sProp 𝕄)
      = ((c : Thread nD τ).loc cc0_scratch2) ↦{fullShare} f := by
  simp only [Memref.view_whole, View.set_whole]

theorem scr2_intro (c : Dev nD) :
    (iprop(∃ f : Buf (Elt F) ((c : Thread nD τ).loc cc0_scratch2), ((c : Thread nD τ).loc cc0_scratch2) ↦{fullShare} f) : sProp 𝕄)
      ⊢ iprop(∃ d, owns (c : Thread nD τ) (Memref.whole cc0_scratch2 : Memref sig .tc .vmem S512x512 .f32) fullShare d) := by
  unfold owns
  iintro ⟨%f, H⟩
  iexists _; iexists f; isplitr; · ipureintro; rfl
  rw [scr2_eq]; iexact H

theorem scr2_elim (c : Dev nD) (d : Vec F S512x512 .f32) :
    owns (c : Thread nD τ) (Memref.whole cc0_scratch2 : Memref sig .tc .vmem S512x512 .f32) fullShare d
      ⊢ (iprop(∃ f : Buf (Elt F) ((c : Thread nD τ).loc cc0_scratch2), ((c : Thread nD τ).loc cc0_scratch2) ↦{fullShare} f) : sProp 𝕄) := by
  unfold owns
  iintro ⟨%f, -, H⟩
  iexists f; rw [← scr2_eq]; iexact H

/-- Scratch 3 as the region's invariant holds it and as the body's run names it: one points-to. -/
theorem scr3_eq (c : Dev nD) (f : Buf (Elt F) ((c : Thread nD τ).loc cc0_scratch3)) :
    ((Memref.whole cc0_scratch3 : Memref sig .tc .vmem S1024x384 .bf16).view.loc (c : Thread nD τ)
        ↦[(Memref.whole cc0_scratch3 : Memref sig .tc .vmem S1024x384 .bf16).view.set]{fullShare} f : sProp 𝕄)
      = ((c : Thread nD τ).loc cc0_scratch3) ↦{fullShare} f := by
  simp only [Memref.view_whole, View.set_whole]

theorem scr3_intro (c : Dev nD) :
    (iprop(∃ f : Buf (Elt F) ((c : Thread nD τ).loc cc0_scratch3), ((c : Thread nD τ).loc cc0_scratch3) ↦{fullShare} f) : sProp 𝕄)
      ⊢ iprop(∃ d, owns (c : Thread nD τ) (Memref.whole cc0_scratch3 : Memref sig .tc .vmem S1024x384 .bf16) fullShare d) := by
  unfold owns
  iintro ⟨%f, H⟩
  iexists _; iexists f; isplitr; · ipureintro; rfl
  rw [scr3_eq]; iexact H

theorem scr3_elim (c : Dev nD) (d : Vec F S1024x384 .bf16) :
    owns (c : Thread nD τ) (Memref.whole cc0_scratch3 : Memref sig .tc .vmem S1024x384 .bf16) fullShare d
      ⊢ (iprop(∃ f : Buf (Elt F) ((c : Thread nD τ).loc cc0_scratch3), ((c : Thread nD τ).loc cc0_scratch3) ↦{fullShare} f) : sProp 𝕄) := by
  unfold owns
  iintro ⟨%f, -, H⟩
  iexists f; rw [← scr3_eq]; iexact H

/-- Scratch 4 as the region's invariant holds it and as the body's run names it: one points-to. -/
theorem scr4_eq (c : Dev nD) (f : Buf (Elt F) ((c : Thread nD τ).loc cc0_scratch4)) :
    ((Memref.whole cc0_scratch4 : Memref sig .tc .vmem S1024x256 .bf16).view.loc (c : Thread nD τ)
        ↦[(Memref.whole cc0_scratch4 : Memref sig .tc .vmem S1024x256 .bf16).view.set]{fullShare} f : sProp 𝕄)
      = ((c : Thread nD τ).loc cc0_scratch4) ↦{fullShare} f := by
  simp only [Memref.view_whole, View.set_whole]

theorem scr4_intro (c : Dev nD) :
    (iprop(∃ f : Buf (Elt F) ((c : Thread nD τ).loc cc0_scratch4), ((c : Thread nD τ).loc cc0_scratch4) ↦{fullShare} f) : sProp 𝕄)
      ⊢ iprop(∃ d, owns (c : Thread nD τ) (Memref.whole cc0_scratch4 : Memref sig .tc .vmem S1024x256 .bf16) fullShare d) := by
  unfold owns
  iintro ⟨%f, H⟩
  iexists _; iexists f; isplitr; · ipureintro; rfl
  rw [scr4_eq]; iexact H

theorem scr4_elim (c : Dev nD) (d : Vec F S1024x256 .bf16) :
    owns (c : Thread nD τ) (Memref.whole cc0_scratch4 : Memref sig .tc .vmem S1024x256 .bf16) fullShare d
      ⊢ (iprop(∃ f : Buf (Elt F) ((c : Thread nD τ).loc cc0_scratch4), ((c : Thread nD τ).loc cc0_scratch4) ↦{fullShare} f) : sProp 𝕄) := by
  unfold owns
  iintro ⟨%f, -, H⟩
  iexists f; rw [← scr4_eq]; iexact H

/-- What the scratch buffers hold before point `t`, and the generator register at some state. -/
def Φt (c : Dev nD) (t : ℕ) : sProp 𝕄 :=
  iprop((if 1 ≤ t ∧ t ≤ 8 then owns (c : Thread nD τ) (Memref.whole cc0_scratch0 : Memref sig .tc .vmem S512x512 .f32) fullShare (gramAt m c (t - 1)).1
          else iprop(∃ d, owns (c : Thread nD τ) (Memref.whole cc0_scratch0 : Memref sig .tc .vmem S512x512 .f32) fullShare d))
      ∗ (if 1 ≤ t ∧ t ≤ 8 then owns (c : Thread nD τ) (Memref.whole cc0_scratch1 : Memref sig .tc .vmem S512x512 .f32) fullShare (gramAt m c (t - 1)).2.1
          else iprop(∃ d, owns (c : Thread nD τ) (Memref.whole cc0_scratch1 : Memref sig .tc .vmem S512x512 .f32) fullShare d))
      ∗ (if 1 ≤ t ∧ t ≤ 8 then owns (c : Thread nD τ) (Memref.whole cc0_scratch2 : Memref sig .tc .vmem S512x512 .f32) fullShare (gramAt m c (t - 1)).2.2
          else iprop(∃ d, owns (c : Thread nD τ) (Memref.whole cc0_scratch2 : Memref sig .tc .vmem S512x512 .f32) fullShare d))
      ∗ (if 8 ≤ t then owns (c : Thread nD τ) (Memref.whole cc0_scratch3 : Memref sig .tc .vmem S1024x384 .bf16) fullShare (omAt m c)
          else iprop(∃ d, owns (c : Thread nD τ) (Memref.whole cc0_scratch3 : Memref sig .tc .vmem S1024x384 .bf16) fullShare d))
      ∗ (if 8 ≤ t then owns (c : Thread nD τ) (Memref.whole cc0_scratch4 : Memref sig .tc .vmem S1024x256 .bf16) fullShare (ksAt m c)
          else iprop(∃ d, owns (c : Thread nD τ) (Memref.whole cc0_scratch4 : Memref sig .tc .vmem S1024x256 .bf16) fullShare d))
      ∗ ∃ r, prngReg c r)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Φt m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Before the first point the scratch buffers hold anything. -/
theorem hin (c : Dev nD) : (ΦA spec0 c : sProp 𝕄) ⊢ (dats m 0 c).Φ 0 := by
  show _ ⊢ Φt m c 0
  unfold ΦA Φt
  rw [scopedRest0_eq]
  rw [if_neg (by decide), if_neg (by decide), if_neg (by decide), if_neg (by decide), if_neg (by decide)]
  iintro ⟨⟨H0, H1, H2, H3, H4⟩, HR⟩
  isplitl [H0]; · iapply (scr0_intro c); iexact H0
  isplitl [H1]; · iapply (scr1_intro c); iexact H1
  isplitl [H2]; · iapply (scr2_intro c); iexact H2
  isplitl [H3]; · iapply (scr3_intro c); iexact H3
  isplitl [H4]; · iapply (scr4_intro c); iexact H4
  iexact HR

/-- After the last point the scratch buffers are given back, their contents forgotten. -/
theorem hout (c : Dev nD) : (dats m 0 c).Φ (Fin.last cfg0.N) ⊢ (ΦA spec0 c : sProp 𝕄) := by
  show Φt m c (Fin.last cfg0.N).val ⊢ _
  rw [show (Fin.last cfg0.N).val = 13 from N13]
  unfold ΦA Φt
  rw [scopedRest0_eq]
  rw [if_neg (by decide), if_neg (by decide), if_neg (by decide), if_pos (by decide), if_pos (by decide)]
  iintro ⟨⟨%d0, H0⟩, ⟨%d1, H1⟩, ⟨%d2, H2⟩, H3, H4, HR⟩
  isplitr [HR]
  · isplitl [H0]; · iapply (scr0_elim c d0); iexact H0
    isplitl [H1]; · iapply (scr1_elim c d1); iexact H1
    isplitl [H2]; · iapply (scr2_elim c d2); iexact H2
    isplitl [H3]; · iapply (scr3_elim c _); iexact H3
    iapply (scr4_elim c _); iexact H4
  iexact HR

/-! ## Which guard holds at which point, and where the output window is idle or written back -/

theorem hc1 : ∀ t : Fin cfg0.N, c1 (cfg0.grid.coords t) = 1#1 ↔ t.val = 0 :=
  (by decide +kernel : ∀ t : Fin grid0.N, c1 (grid0.coords t) = 1#1 ↔ t.val = 0)
theorem hc2 : ∀ t : Fin cfg0.N, c2 (cfg0.grid.coords t) = 1#1 ↔ (0 < t.val ∧ t.val < 8) :=
  (by decide +kernel : ∀ t : Fin grid0.N, c2 (grid0.coords t) = 1#1 ↔ (0 < t.val ∧ t.val < 8))
theorem hc3 : ∀ t : Fin cfg0.N, c3 (cfg0.grid.coords t) = 1#1 ↔ t.val = 7 :=
  (by decide +kernel : ∀ t : Fin grid0.N, c3 (grid0.coords t) = 1#1 ↔ t.val = 7)
theorem hc4 : ∀ t : Fin cfg0.N, k0_cond4 (cfg0.grid.coords t) = 1#1 ↔ 8 ≤ t.val :=
  (by decide +kernel : ∀ t : Fin grid0.N, k0_cond4 (grid0.coords t) = 1#1 ↔ 8 ≤ t.val)
theorem idle7 : ∀ t : Fin cfg0.N, cfg0.idle 7 (cfg0.grid.coords t) = decide (t.val < 8) :=
  (by decide +kernel : ∀ t : Fin grid0.N, idle0 7 (grid0.coords t) = decide (t.val < 8))
theorem flush7 : ∀ t : Fin cfg0.N, (cfg0.win 7).flush t = decide (8 ≤ t.val) :=
  (by decide +kernel : ∀ t : Fin grid0.N, win0_7.flush t = decide (8 ≤ t.val))

end Cert.Proof.K

end
-- ==== Proof.K.RunA.lean ====
/-
  The body at the first point: the first chunk of `fix` is loaded in two halves and the three Gram quadrants are
  stored whole.
-/
import proofs.«128930_g52209622450808_cont_9to1_m_767_27_alg».proof.Proof.K.Vals

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

theorem sound_A (c : Dev nD) (i : grid0.Coords) (h1 : c1 i = 1#1) (h2 : ¬ c2 i = 1#1) (h3 : ¬ c3 i = 1#1) (h4 : ¬ k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x1 : Vec F S512x1024 .f32) (K : PUnit → sProp 𝕄) :
    iprop(owns (c : Thread nD τ) arg1 fullShare x1
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x1 ∗ owns (c : Thread nD τ) arg9 fullShare (gramInit x1).1
            ∗ owns (c : Thread nD τ) arg10 fullShare (gramInit x1).2.1 ∗ owns (c : Thread nD τ) arg11 fullShare (gramInit x1).2.2) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%d9, %g9, -, H9⟩, ⟨%d10, %g10, -, H10⟩, ⟨%d11, %g11, -, H11⟩, Hk⟩
  subst hf1
  simp only [dif_pos h1, dif_neg h2, dif_neg h3, dif_neg h4]
  sl_exec
  sl_step
  iapply Hk
  isplitl [H1]
  · iexists f1; isplitr; · ipureintro; rfl
    iexact H1
  isplitl [H9]
  · iexists _; isplitr
    swap; · iexact H9
    ipureintro
    rw [View.read_writes_eq_canon _ _ _ (cover_rG _), View.canon_unit_zero off0]; rfl
  isplitl [H10]
  · iexists _; isplitr
    swap; · iexact H10
    ipureintro
    rw [View.read_writes_eq_canon _ _ _ (cover_rG _), View.canon_unit_zero off0]; rfl
  · iexists _; isplitr
    swap; · iexact H11
    ipureintro
    rw [View.read_writes_eq_canon _ _ _ (cover_rG _), View.canon_unit_zero off0]; rfl

end Cert.Proof.K

end
-- ==== Proof.K.RunB.lean ====
/-
  The body at the points after the first and up to the eighth: one more chunk of `fix` is loaded in two halves, and
  each Gram quadrant is loaded, increased by the chunk's product, and stored back whole.
-/
import proofs.«128930_g52209622450808_cont_9to1_m_767_27_alg».proof.Proof.K.Vals

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

theorem sound_B (c : Dev nD) (i : grid0.Coords) (h1 : ¬ c1 i = 1#1) (h2 : c2 i = 1#1) (h3 : ¬ c3 i = 1#1) (h4 : ¬ k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x1 : Vec F S512x1024 .f32) (g00 g01 g11 : Vec F S512x512 .f32) (K : PUnit → sProp 𝕄) :
    iprop(owns (c : Thread nD τ) arg1 fullShare x1
        ∗ owns (c : Thread nD τ) arg9 fullShare g00 ∗ owns (c : Thread nD τ) arg10 fullShare g01 ∗ owns (c : Thread nD τ) arg11 fullShare g11
        ∗ (iprop(owns (c : Thread nD τ) arg1 fullShare x1 ∗ owns (c : Thread nD τ) arg9 fullShare (gramStep x1 (g00, g01, g11)).1
            ∗ owns (c : Thread nD τ) arg10 fullShare (gramStep x1 (g00, g01, g11)).2.1
            ∗ owns (c : Thread nD τ) arg11 fullShare (gramStep x1 (g00, g01, g11)).2.2) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f9, %hf9, H9⟩, ⟨%f10, %hf10, H10⟩, ⟨%f11, %hf11, H11⟩, Hk⟩
  subst hf1 hf9 hf10 hf11
  simp only [dif_neg h1, dif_pos h2, dif_neg h3, dif_neg h4]
  sl_exec
  sl_step
  iapply Hk
  isplitl [H1]
  · iexists f1; isplitr; · ipureintro; rfl
    iexact H1
  isplitl [H9]
  · iexists _; isplitr
    swap; · iexact H9
    ipureintro
    rw [View.read_writes_eq_canon _ _ _ (cover_rG _), View.canon_unit_zero off0]
    simp only [gramStep, View.readAt_eq_ld, View.ld_unit_zero (S := S512x512) off0]
  isplitl [H10]
  · iexists _; isplitr
    swap; · iexact H10
    ipureintro
    rw [View.read_writes_eq_canon _ _ _ (cover_rG _), View.canon_unit_zero off0]
    simp only [gramStep, View.readAt_eq_ld, View.ld_unit_zero (S := S512x512) off0]
  · iexists _; isplitr
    swap; · iexact H11
    ipureintro
    rw [View.read_writes_eq_canon _ _ _ (cover_rG _), View.canon_unit_zero off0]
    simp only [gramStep, View.readAt_eq_ld, View.ld_unit_zero (S := S512x512) off0]

end Cert.Proof.K

end
-- ==== Proof.K.RunC.lean ====
/-
  The body at the eighth point: the last chunk of `fix` is added to the Gram quadrants; then the quadrants and
  `other` are loaded, the mixed matrix is stored in three rectangles that tile its buffer, and the scaled keys are
  stored whole.
-/
import proofs.«128930_g52209622450808_cont_9to1_m_767_27_alg».proof.Proof.K.Vals

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

theorem sound_C (c : Dev nD) (i : grid0.Coords) (h1 : ¬ c1 i = 1#1) (h2 : c2 i = 1#1) (h3 : c3 i = 1#1) (h4 : ¬ k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x1 : Vec F S512x1024 .f32) (x2 : Vec F S1024x256 .f32) (x3 : Vec F S256x256 .f32) (x4 : Vec F S1x256 .f32)
    (g00 g01 g11 : Vec F S512x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg9 fullShare g00 ∗ owns (c : Thread nD τ) arg10 fullShare g01 ∗ owns (c : Thread nD τ) arg11 fullShare g11
        ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg9 fullShare (gramStep x1 (g00, g01, g11)).1
            ∗ owns (c : Thread nD τ) arg10 fullShare (gramStep x1 (g00, g01, g11)).2.1
            ∗ owns (c : Thread nD τ) arg11 fullShare (gramStep x1 (g00, g01, g11)).2.2
            ∗ owns (c : Thread nD τ) arg12 fullShare (omVal (gramStep x1 (g00, g01, g11)) x2)
            ∗ owns (c : Thread nD τ) arg13 fullShare (ksVal x2 x3 x4)) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f9, %hf9, H9⟩, ⟨%f10, %hf10, H10⟩, ⟨%f11, %hf11, H11⟩,
    ⟨%d12, %f12, -, H12⟩, ⟨%d13, %f13, -, H13⟩, Hk⟩
  subst hf1 hf2 hf3 hf4 hf9 hf10 hf11
  simp only [dif_neg h1, dif_pos h2, dif_pos h3, dif_neg h4, k0_part1_eq_skeleton]
  unfold k0_part1_skel
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H9]
  · iexists _; isplitr
    swap; · iexact H9
    ipureintro
    sl_unfold_words
    rw [View.read_writes_eq_canon _ _ _ (cover_rG _), View.canon_unit_zero off0]
    simp only [gramStep, View.readAt_eq_ld, View.ld_unit_zero (S := S512x512) off0]
  isplitl [H10]
  · iexists _; isplitr
    swap; · iexact H10
    ipureintro
    sl_unfold_words
    rw [View.read_writes_eq_canon _ _ _ (cover_rG _), View.canon_unit_zero off0]
    simp only [gramStep, View.readAt_eq_ld, View.ld_unit_zero (S := S512x512) off0]
  isplitl [H11]
  · iexists _; isplitr
    swap; · iexact H11
    ipureintro
    sl_unfold_words
    rw [View.read_writes_eq_canon _ _ _ (cover_rG _), View.canon_unit_zero off0]
    simp only [gramStep, View.readAt_eq_ld, View.ld_unit_zero (S := S512x512) off0]
  isplitl [H12]
  · iexists _; isplitr
    swap; · iexact H12
    ipureintro
    sl_unfold_words
    rw [View.read_writes_eq_canon _ _ _ (cover_om _ _ _)]
    simp only [omVal, gramStep, View.readAt_eq_ld, View.readCov_unit_zero (S := S512x512) _ off0,
      View.ld_unit_zero (S := S512x512) off0, View.ld_unit_zero (S := S1024x256) off0]
  · iexists _; isplitr
    swap; · iexact H13
    ipureintro
    sl_unfold_words
    rw [View.read_writes_eq_canon _ _ _ (cover_rK _), View.canon_unit_zero off0]
    simp only [ksVal, View.readAt_eq_ld, View.ld_unit_zero (S := S1024x256) off0, View.ld_unit_zero (S := S256x256) off0,
      View.ld_unit_zero (S := S1x256) off0]

end Cert.Proof.K

end
-- ==== Proof.K.RunD.lean ====
/-
  The body at the last five points: a block of rows of `main`, the query weights and bias, the scaled keys and the
  mixed matrix are loaded whole, and the block of output rows is stored whole.
-/
import proofs.«128930_g52209622450808_cont_9to1_m_767_27_alg».proof.Proof.K.Vals

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

/-- All of the output block. -/
abbrev rO : Rect S2000x256 := Rect.unit (s := S2000x256) ![0, 0] S2000x256.size inb_S2000x256_S2000x256_0_0

theorem cover_rO (w : Vec F S2000x256 .f32) (y : S2000x256.Idx) :
    ∃ pc ∈ ([⟨rO, w⟩] : List (View.Piece (Elt F) S2000x256 .f32)), y ∈ pc.1.set :=
  View.cover_of_tiled [⟨rO, w⟩] S2000x256.size (by rfl) y

theorem sound_D (c : Dev nD) (i : grid0.Coords) (h1 : ¬ c1 i = 1#1) (h2 : ¬ c2 i = 1#1) (h3 : ¬ c3 i = 1#1) (h4 : k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x5 : Vec F S2000x256 .f32) (x6 : Vec F S256x256 .f32) (x7 : Vec F S1x256 .f32)
    (om : Vec F S1024x384 .bf16) (ks : Vec F S1024x256 .bf16) (K : PUnit → sProp 𝕄) :
    iprop(owns (c : Thread nD τ) arg5 fullShare x5 ∗ owns (c : Thread nD τ) arg6 fullShare x6 ∗ owns (c : Thread nD τ) arg7 fullShare x7
        ∗ (∃ d, owns (c : Thread nD τ) arg8 fullShare d)
        ∗ owns (c : Thread nD τ) arg12 fullShare om ∗ owns (c : Thread nD τ) arg13 fullShare ks
        ∗ (iprop(owns (c : Thread nD τ) arg5 fullShare x5 ∗ owns (c : Thread nD τ) arg6 fullShare x6 ∗ owns (c : Thread nD τ) arg7 fullShare x7
            ∗ owns (c : Thread nD τ) arg8 fullShare (outVal x5 x6 x7 ks om)
            ∗ owns (c : Thread nD τ) arg12 fullShare om ∗ owns (c : Thread nD τ) arg13 fullShare ks) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f5, %hf5, H5⟩, ⟨%f6, %hf6, H6⟩, ⟨%f7, %hf7, H7⟩, ⟨%d8, %f8, -, H8⟩, ⟨%f12, %hf12, H12⟩, ⟨%f13, %hf13, H13⟩, Hk⟩
  subst hf5 hf6 hf7 hf12 hf13
  simp only [dif_neg h1, dif_neg h2, dif_neg h3, dif_pos h4]
  sl_exec
  sl_step
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_rO _), View.canon_unit_zero off0]
    simp only [outVal, View.readAt_eq_ld, View.ld_unit_zero (S := S2000x256) off0, View.ld_unit_zero (S := S256x256) off0,
      View.ld_unit_zero (S := S1x256) off0, View.ld_unit_zero (S := S1024x256) off0, View.ld_unit_zero (S := S1024x384) off0]
  isplitl [H12]
  · iexists f12; isplitr; · ipureintro; rfl
    iexact H12
  · iexists f13; isplitr; · ipureintro; rfl
    iexact H13

end Cert.Proof.K

end
-- ==== Proof.K.Body.lean ====
/-
  The body obligation, the run of the program and its frame. At each point the body is one of four cases
  (the first chunk; a later chunk; the last chunk followed by the preamble's stores; a block of output rows), decided
  by the point's number; each case's run takes the scratch buffers from what the invariant says before the point to
  what it says after it, leaves every input block in place, and at the first eight points hands the output's buffer
  back as it found it. For every float instance.
-/
import proofs.«128930_g52209622450808_cont_9to1_m_767_27_alg».proof.Proof.K.Data
import proofs.«128930_g52209622450808_cont_9to1_m_767_27_alg».proof.Proof.K.RunA
import proofs.«128930_g52209622450808_cont_9to1_m_767_27_alg».proof.Proof.K.RunB
import proofs.«128930_g52209622450808_cont_9to1_m_767_27_alg».proof.Proof.K.RunC
import proofs.«128930_g52209622450808_cont_9to1_m_767_27_alg».proof.Proof.K.RunD

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The body has no counted loop: no variant is needed. -/
abbrev 𝒱₀ : Variants := Variants.none

variable (m : (ℓ : Loc nD τ sig) → Buf (Elt F) ℓ) (ρ : Dev nD → PrngReg)

/-- What the body returns of the output's buffer: where the window is idle and not written back, the buffer as it
    was handed it; else the block of output rows. -/
def post7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ post7 m c t)

/-- The first point: the Gram quadrants, at anything, are set from the first chunk. -/
theorem sound_body_A (c : Dev nD) (t : Fin cfg0.N) (ht : t.val = 0) :
    bodyPre m c t ⊢ wp frame (wpE (defs₀ (F := F)) 𝒱₀ c none) Set.univ (bodyAt0 t) (fun _ => bodyPost m c t) := by
  have h1 : c1 (cfg0.grid.coords t) = 1#1 := (hc1 t).mpr ht
  have h2 : ¬ c2 (cfg0.grid.coords t) = 1#1 := fun h => by have := (hc2 t).mp h; omega
  have h3 : ¬ c3 (cfg0.grid.coords t) = 1#1 := fun h => by have := (hc3 t).mp h; omega
  have h4 : ¬ k0_cond4 (cfg0.grid.coords t) = 1#1 := fun h => by have := (hc4 t).mp h; omega
  have hp : pt 0 = t := by rw [← ht]; exact pt_val t
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_true (show t.val < 8 by omega), decide_eq_false (show ¬ 8 ≤ t.val by omega)]
  simp only [if_neg (show ¬ (1 ≤ t.val ∧ t.val ≤ 8) by omega), if_neg (show ¬ 8 ≤ t.val by omega),
    if_pos (show 1 ≤ t.val + 1 ∧ t.val + 1 ≤ 8 by omega), if_neg (show ¬ 8 ≤ t.val + 1 by omega)]
  rw [show t.val + 1 - 1 = 0 by omega, gramAt_zero, show fxAt m c 0 = fixBlk m c t by unfold fxAt; rw [hp]]
  iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
  iapply (sound_A 𝒱₀ c (cfg0.grid.coords t) h1 h2 h3 h4 _ _ _ _ _ _ _ _ _ _ _ _ _ _ _ _ _ _ _ _ _ _ _ _ _ _ (fixBlk m c t) _)
  isplitl [H0]; · iexact H0
  isplitl [S0]; · iexact S0
  isplitl [S1]; · iexact S1
  isplitl [S2]; · iexact S2
  iintro ⟨H0, S0, S1, S2⟩
  isplitl [S0 S1 S2 S3 S4 HR]
  · isplitl [S0]; · iexact S0
    isplitl [S1]; · iexact S1
    isplitl [S2]; · iexact S2
    isplitl [S3]; · iexact S3
    isplitl [S4]; · iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A later chunk, before the last: each Gram quadrant takes one more product. -/
theorem sound_body_B (c : Dev nD) (t : Fin cfg0.N) (ht : 0 < t.val ∧ t.val < 7) :
    bodyPre m c t ⊢ wp frame (wpE (defs₀ (F := F)) 𝒱₀ c none) Set.univ (bodyAt0 t) (fun _ => bodyPost m c t) := by
  have h1 : ¬ c1 (cfg0.grid.coords t) = 1#1 := fun h => by have := (hc1 t).mp h; omega
  have h2 : c2 (cfg0.grid.coords t) = 1#1 := (hc2 t).mpr (by omega)
  have h3 : ¬ c3 (cfg0.grid.coords t) = 1#1 := fun h => by have := (hc3 t).mp h; omega
  have h4 : ¬ k0_cond4 (cfg0.grid.coords t) = 1#1 := fun h => by have := (hc4 t).mp h; omega
  obtain ⟨n, hn⟩ : ∃ n, t.val = n + 1 := ⟨t.val - 1, by omega⟩
  have hp : pt (n + 1) = t := by rw [← hn]; exact pt_val t
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_true (show t.val < 8 by omega), decide_eq_false (show ¬ 8 ≤ t.val by omega)]
  simp only [if_pos (show 1 ≤ t.val ∧ t.val ≤ 8 by omega), if_neg (show ¬ 8 ≤ t.val by omega),
    if_pos (show 1 ≤ t.val + 1 ∧ t.val + 1 ≤ 8 by omega), if_neg (show ¬ 8 ≤ t.val + 1 by omega)]
  rw [show t.val + 1 - 1 = n + 1 by omega, show t.val - 1 = n by omega, gramAt_succ,
    show fxAt m c (n + 1) = fixBlk m c t by unfold fxAt; rw [hp]]
  iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
  iapply (sound_B 𝒱₀ c (cfg0.grid.coords t) h1 h2 h3 h4 _ _ _ _ _ _ _ _ _ _ _ _ _ _ _ _ _ _ _ _ _ _ _ _ _ _ (fixBlk m c t) (gramAt m c n).1 (gramAt m c n).2.1 (gramAt m c n).2.2 _)
  isplitl [H0]; · iexact H0
  isplitl [S0]; · iexact S0
  isplitl [S1]; · iexact S1
  isplitl [S2]; · iexact S2
  iintro ⟨H0, S0, S1, S2⟩
  isplitl [S0 S1 S2 S3 S4 HR]
  · isplitl [S0]; · iexact S0
    isplitl [S1]; · iexact S1
    isplitl [S2]; · iexact S2
    isplitl [S3]; · iexact S3
    isplitl [S4]; · iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The eighth point: the last chunk is added, then the mixed matrix and the scaled keys are stored. -/
theorem sound_body_C (c : Dev nD) (t : Fin cfg0.N) (ht : t.val = 7) :
    bodyPre m c t ⊢ wp frame (wpE (defs₀ (F := F)) 𝒱₀ c none) Set.univ (bodyAt0 t) (fun _ => bodyPost m c t) := by
  have h1 : ¬ c1 (cfg0.grid.coords t) = 1#1 := fun h => by have := (hc1 t).mp h; omega
  have h2 : c2 (cfg0.grid.coords t) = 1#1 := (hc2 t).mpr (by omega)
  have h3 : c3 (cfg0.grid.coords t) = 1#1 := (hc3 t).mpr ht
  have h4 : ¬ k0_cond4 (cfg0.grid.coords t) = 1#1 := fun h => by have := (hc4 t).mp h; omega
  have hp : pt 7 = t := by rw [← ht]; exact pt_val t
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_true (show t.val < 8 by omega), decide_eq_false (show ¬ 8 ≤ t.val by omega)]
  simp only [if_pos (show 1 ≤ t.val ∧ t.val ≤ 8 by omega), if_neg (show ¬ 8 ≤ t.val by omega),
    if_pos (show 1 ≤ t.val + 1 ∧ t.val + 1 ≤ 8 by omega), if_pos (show 8 ≤ t.val + 1 by omega)]
  have hfx : fxAt m c 7 = fixBlk m c t := by unfold fxAt; rw [hp]
  have e7 : gramAt m c 7 = gramStep (fixBlk m c t) (gramAt m c 6) := by
    show gramStep (fxAt m c 7) (gramAt m c 6) = _
    rw [hfx]
  rw [show t.val + 1 - 1 = 7 by omega, show t.val - 1 = 6 by omega]
  unfold omAt ksAt
  rw [e7, hp]
  iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
  iapply (sound_C 𝒱₀ c (cfg0.grid.coords t) h1 h2 h3 h4 _ _ _ _ _ _ _ _ _ _ _ _ _ _ _ _ _ _ _ _ _ _ _ _ _ _ (fixBlk m c t) (otherBlk m c t) (wkBlk m c t) (bkBlk m c t)
    (gramAt m c 6).1 (gramAt m c 6).2.1 (gramAt m c 6).2.2 _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  iintro ⟨H0, H1, H2, H3, S0, S1, S2, S3, S4⟩
  isplitl [S0 S1 S2 S3 S4 HR]
  · isplitl [S0]; · iexact S0
    isplitl [S1]; · iexact S1
    isplitl [S2]; · iexact S2
    isplitl [S3]; · iexact S3
    isplitl [S4]; · iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The last five points: a block of output rows is stored; the scratch buffers are only read. -/
theorem sound_body_D (c : Dev nD) (t : Fin cfg0.N) (ht : 8 ≤ t.val) :
    bodyPre m c t ⊢ wp frame (wpE (defs₀ (F := F)) 𝒱₀ c none) Set.univ (bodyAt0 t) (fun _ => bodyPost m c t) := by
  have h1 : ¬ c1 (cfg0.grid.coords t) = 1#1 := fun h => by have := (hc1 t).mp h; omega
  have h2 : ¬ c2 (cfg0.grid.coords t) = 1#1 := fun h => by have := (hc2 t).mp h; omega
  have h3 : ¬ c3 (cfg0.grid.coords t) = 1#1 := fun h => by have := (hc3 t).mp h; omega
  have h4 : k0_cond4 (cfg0.grid.coords t) = 1#1 := (hc4 t).mpr ht
  have hlt : t.val < 13 := Nat.lt_of_lt_of_eq t.isLt N13
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_false (show ¬ t.val < 8 by omega)]
  simp only [if_pos (show 8 ≤ t.val by omega), if_pos (show 8 ≤ t.val + 1 by omega)]
  by_cases h8 : t.val = 8
  · simp only [if_pos (show 1 ≤ t.val ∧ t.val ≤ 8 by omega), if_neg (show ¬ (1 ≤ t.val + 1 ∧ t.val + 1 ≤ 8) by omega)]
    iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
    iapply (sound_D 𝒱₀ c (cfg0.grid.coords t) h1 h2 h3 h4 _ _ _ _ _ _ _ _ _ _ _ _ _ _ _ _ _ _ _ _ _ _ _ _ _ _ (mainBlk m c t) (wqBlk m c t) (bqBlk m c t) (omAt m c) (ksAt m c) _)
    isplitl [H4]; · iexact H4
    isplitl [H5]; · iexact H5
    isplitl [H6]; · iexact H6
    isplitl [H7]; · icases H7 with ⟨%d7, H7⟩; iexists _; iexact H7
    isplitl [S3]; · iexact S3
    isplitl [S4]; · iexact S4
    iintro ⟨H4, H5, H6, H7, S3, S4⟩
    isplitl [S0 S1 S2 S3 S4 HR]
    · isplitl [S0]; · iexists _; iexact S0
      isplitl [S1]; · iexists _; iexact S1
      isplitl [S2]; · iexists _; iexact S2
      isplitl [S3]; · iexact S3
      isplitl [S4]; · iexact S4
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [if_neg (show ¬ (1 ≤ t.val ∧ t.val ≤ 8) by omega), if_neg (show ¬ (1 ≤ t.val + 1 ∧ t.val + 1 ≤ 8) by omega)]
    iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
    iapply (sound_D 𝒱₀ c (cfg0.grid.coords t) h1 h2 h3 h4 _ _ _ _ _ _ _ _ _ _ _ _ _ _ _ _ _ _ _ _ _ _ _ _ _ _ (mainBlk m c t) (wqBlk m c t) (bqBlk m c t) (omAt m c) (ksAt m c) _)
    isplitl [H4]; · iexact H4
    isplitl [H5]; · iexact H5
    isplitl [H6]; · iexact H6
    isplitl [H7]; · icases H7 with ⟨%d7, H7⟩; iexists _; iexact H7
    isplitl [S3]; · iexact S3
    isplitl [S4]; · iexact S4
    iintro ⟨H4, H5, H6, H7, S3, S4⟩
    isplitl [S0 S1 S2 S3 S4 HR]
    · isplitl [S0]; · iexact S0
      isplitl [S1]; · iexact S1
      isplitl [S2]; · iexact S2
      isplitl [S3]; · iexact S3
      isplitl [S4]; · iexact S4
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body at any point. -/
theorem sound_body (c : Dev nD) (t : Fin cfg0.N) :
    bodyPre m c t ⊢ wp frame (wpE (defs₀ (F := F)) 𝒱₀ c none) Set.univ (bodyAt0 t) (fun _ => bodyPost m c t) := by
  by_cases h0 : t.val = 0
  · exact sound_body_A m c t h0
  by_cases h7 : t.val = 7
  · exact sound_body_C m c t h7
  by_cases h8 : 8 ≤ t.val
  · exact sound_body_D m c t h8
  · exact sound_body_B m c t (by omega)

/-- The library's body obligation, at every point. -/
theorem body_obligation (c : Dev nD) : BodyObligation (dats (F := F) m 0 c) (defs₀ (F := F)) 𝒱₀ () Set.univ := fun t => by
  rw [bigSep_W0, bigSep_W0]
  exact sound_body m c t

set_option backward.isDefEq.respectTransparency.types false in
/-- Every weakly fair execution of the program terminates, faulting nowhere, with every array of the region at
    what the proof data computes and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := hin m) (hout := hout m)

end Cert.Proof.K

end
-- ==== Proof.KI.Vals.lean ====
/-
  The values the kernel's body computes and keeps, as pure functions of what it loads, and the conditions of its
  four guarded blocks. For every float instance.
-/
import proofs.«128930_g52209622450808_cont_9to1_m_767_27_alg».proof.Proof.Gen.KernelIdeal.Skeleton
import proofs.«128930_g52209622450808_cont_9to1_m_767_27_alg».proof.Proof.Gen.KernelIdeal.Frame
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The four guards of the body, as functions of the grid point

The body is four guarded blocks. With `p` the point's one coordinate: the first runs at `p = 0` (the Gram
matrix's three quadrants are set from the first chunk of rows), the second at `0 < p < 8` (each later chunk is
added), the third at `p = 7` (square roots, column sums, the mixed matrix and the scaled keys are stored), the
fourth at `p ≥ 8` (one block of output rows). -/

abbrev a0 (i : grid0.Coords) : BitVec 32 := BitVec.ofNat 32 (i 0).val
abbrev c1 (i : grid0.Coords) : BitVec 1 := Scalar.cmpi .ne (Scalar.extui (Scalar.cmpi .eq (a0 i) 0#32) : BitVec 32) 0#32
abbrev c2 (i : grid0.Coords) : BitVec 1 :=
  Scalar.cmpi .ne (Scalar.extui (Scalar.andi (Scalar.cmpi .sgt (a0 i) 0#32) (Scalar.cmpi .slt (a0 i) 8#32)) : BitVec 32) 0#32
abbrev c3 (i : grid0.Coords) : BitVec 1 := Scalar.cmpi .ne (Scalar.extui (Scalar.cmpi .eq (a0 i) 7#32) : BitVec 32) 0#32

/-! ## Rectangles -/

/-- The left and right halves (columns `[0, 512)` and `[512, 1024)`) of a 512-row chunk of `fix`. -/
abbrev rL : Rect S512x1024 := Rect.unit (s := S512x1024) ![0, 0] S512x512.size inb_S512x1024_S512x512_0_0
abbrev rR : Rect S512x1024 := Rect.unit (s := S512x1024) ![0, 512] S512x512.size inb_S512x1024_S512x512_0_512
/-- All of a Gram quadrant. -/
abbrev rG : Rect S512x512 := Rect.unit (s := S512x512) ![0, 0] S512x512.size inb_S512x512_S512x512_0_0

theorem off0 : (![0, 0] : Fin 2 → ℕ) = fun _ => 0 := funext fun a => by fin_cases a <;> rfl

/-! ## What the scratch buffers hold, as functions of the blocks loaded

A Gram state is the three quadrants kept: rows and columns both in the left half, left rows against right
columns, both in the right half (the fourth quadrant is the second's transpose and is never stored). -/

abbrev G3 (F : FTy → Type) [FloatOps F] := Vec F S512x512 .f32 × Vec F S512x512 .f32 × Vec F S512x512 .f32

/-- The Gram state after the first chunk `x` of rows: each quadrant is a product of the chunk's halves, transposed
    on the left. -/
def gramInit (x : Vec F S512x1024 .f32) : G3 F :=
  (k0_pay3 (View.ld x rL), k0_pay4 (View.ld x rL) (View.ld x rR), k0_pay5 (View.ld x rR))

/-- A later chunk `x` adds its three products to the state `g`. -/
def gramStep (x : Vec F S512x1024 .f32) (g : G3 F) : G3 F :=
  (k0_pay8 (View.ld x rL) g.1, k0_pay9 (View.ld x rL) (View.ld x rR) g.2.1, k0_pay10 (View.ld x rR) g.2.2)

/-- The keys, projected, shifted by the bias and scaled by 1/16. -/
def ksVal (o : Vec F S1024x256 .f32) (wk : Vec F S256x256 .f32) (bk : Vec F S1x256 .f32) : Vec F S1024x256 .bf16 :=
  k0_pay13 o wk bk

/-- One block of output rows: the exponentials of the block's logits against the scaled keys, times the mixed
    matrix with its appended columns of ones, the first 256 columns divided by the 257th. -/
def outVal (mn : Vec F S2000x256 .f32) (wq : Vec F S256x256 .f32) (bq : Vec F S1x256 .f32)
    (ks : Vec F S1024x256 .bf16) (om : Vec F S1024x384 .bf16) : Vec F S2000x256 .f32 :=
  k0_pay14 mn wq bq ks om

/-- One store through all of a Gram quadrant covers it. -/
theorem cover_rG (w : Vec F S512x512 .f32) (y : S512x512.Idx) :
    ∃ pc ∈ ([⟨rG, w⟩] : List (View.Piece (Elt F) S512x512 .f32)), y ∈ pc.1.set :=
  View.cover_of_tiled [⟨rG, w⟩] S512x512.size (by rfl) y

/-! ## The mixed matrix with its appended columns -/

/-- The three rectangles that tile the 1024 × 384 buffer: columns `[256, 384)` of every row; rows `[512, 1024)`
    and rows `[0, 512)` of columns `[0, 256)`. -/
abbrev rOmR : Rect S1024x384 := Rect.unit (s := S1024x384) ![0, 256] S1024x128.size inb_S1024x384_S1024x128_0_256
abbrev rOmBL : Rect S1024x384 := Rect.unit (s := S1024x384) ![512, 0] S512x256.size inb_S1024x384_S512x256_512_0
abbrev rOmTL : Rect S1024x384 := Rect.unit (s := S1024x384) ![0, 0] S512x256.size inb_S1024x384_S512x256_0_0

/-- The mixed matrix from a Gram state `g` and `other`: the upper and lower halves of its 256 columns, and 128
    columns of ones beside them. -/
def omVal (g : G3 F) (o : Vec F S1024x256 .f32) : Vec F S1024x384 .bf16 :=
  View.canon [⟨rOmR, k0_pay12⟩, ⟨rOmBL, k0_pay11 (k0_pay21 g.1 g.2.1 g.2.2 o)⟩, ⟨rOmTL, k0_pay20 g.1 g.2.1 g.2.2 o⟩]

/-- The Gram state after chunks `0 … n` of a family of chunks. -/
def gramFold (f : ℕ → Vec F S512x1024 .f32) : ℕ → G3 F
  | 0 => gramInit (f 0)
  | n + 1 => gramStep (f (n + 1)) (gramFold f n)

/-- The three rectangles cover the buffer: an index is in the ones' columns, or else in the lower or the upper rows. -/
theorem cover_om (w1 : Vec F S1024x128 .bf16) (w2 w3 : Vec F S512x256 .bf16) (y : S1024x384.Idx) :
    ∃ pc ∈ ([⟨rOmR, w1⟩, ⟨rOmBL, w2⟩, ⟨rOmTL, w3⟩] : List (View.Piece (Elt F) S1024x384 .bf16)), y ∈ pc.1.set := by
  have hy0 : (y 0).val < 1024 := (y 0).isLt
  have hy1 : (y 1).val < 384 := (y 1).isLt
  by_cases h1 : 256 ≤ (y 1).val
  · refine ⟨_, List.mem_cons_self, ?_⟩
    rw [Rect.mem_set_unit]; intro a; fin_cases a
    · show 0 ≤ (y 0).val ∧ (y 0).val < 0 + 1024; omega
    · show 256 ≤ (y 1).val ∧ (y 1).val < 256 + 128; omega
  · by_cases h0 : 512 ≤ (y 0).val
    · refine ⟨_, List.mem_cons_of_mem _ List.mem_cons_self, ?_⟩
      rw [Rect.mem_set_unit]; intro a; fin_cases a
      · show 512 ≤ (y 0).val ∧ (y 0).val < 512 + 512; omega
      · show 0 ≤ (y 1).val ∧ (y 1).val < 0 + 256; omega
    · refine ⟨_, List.mem_cons_of_mem _ (List.mem_cons_of_mem _ List.mem_cons_self), ?_⟩
      rw [Rect.mem_set_unit]; intro a; fin_cases a
      · show 0 ≤ (y 0).val ∧ (y 0).val < 0 + 512; omega
      · show 0 ≤ (y 1).val ∧ (y 1).val < 0 + 256; omega

/-- All of the scaled keys' buffer. -/
abbrev rK : Rect S1024x256 := Rect.unit (s := S1024x256) ![0, 0] S1024x256.size inb_S1024x256_S1024x256_0_0

theorem cover_rK (w : Vec F S1024x256 .bf16) (y : S1024x256.Idx) :
    ∃ pc ∈ ([⟨rK, w⟩] : List (View.Piece (Elt F) S1024x256 .bf16)), y ∈ pc.1.set :=
  View.cover_of_tiled [⟨rK, w⟩] S1024x256.size (by rfl) y

end Cert.Proof.KI

end
-- ==== Proof.KI.Data.lean ====
/-
  The proof data of the one region: what every window's staging buffer holds after the body at each point, and
  what the five scratch buffers hold between points. Before point `t` with `1 ≤ t ≤ 8` the three Gram quadrants
  hold the products of chunks `0 … t - 1`; from point 8 on the mixed matrix and the scaled keys hold their values;
  otherwise a scratch buffer holds anything. For every float instance.
-/
import proofs.«128930_g52209622450808_cont_9to1_m_767_27_alg».proof.Proof.KI.Vals

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ)

/-! ## Points and blocks -/

theorem N13 : cfg0.N = 13 := N_0

/-- Point number `n` (reduced modulo the thirteen points). -/
def pt (n : ℕ) : Fin cfg0.N := ⟨n % 13, by rw [N13]; exact Nat.mod_lt _ (by decide)⟩

theorem pt_val (t : Fin cfg0.N) : pt t.val = t :=
  Fin.ext (Nat.mod_eq_of_lt (Nat.lt_of_lt_of_eq t.isLt N13))

/-- The windows' blocks at a point, each at its literal type. -/
abbrev fixBlk (c : Dev nD) (t : Fin cfg0.N) : Vec F S512x1024 .f32 := iblk m c 0 t
abbrev otherBlk (c : Dev nD) (t : Fin cfg0.N) : Vec F S1024x256 .f32 := iblk m c 1 t
abbrev wkBlk (c : Dev nD) (t : Fin cfg0.N) : Vec F S256x256 .f32 := iblk m c 2 t
abbrev bkBlk (c : Dev nD) (t : Fin cfg0.N) : Vec F S1x256 .f32 := iblk m c 3 t
abbrev mainBlk (c : Dev nD) (t : Fin cfg0.N) : Vec F S2000x256 .f32 := iblk m c 4 t
abbrev wqBlk (c : Dev nD) (t : Fin cfg0.N) : Vec F S256x256 .f32 := iblk m c 5 t
abbrev bqBlk (c : Dev nD) (t : Fin cfg0.N) : Vec F S1x256 .f32 := iblk m c 6 t

/-- The chunk of `fix` point `n` works on. -/
def fxAt (c : Dev nD) (n : ℕ) : Vec F S512x1024 .f32 := fixBlk m c (pt n)

/-- The Gram state after points `0 … n`. -/
def gramAt (c : Dev nD) (n : ℕ) : G3 F := gramFold (fxAt m c) n

theorem gramAt_zero (c : Dev nD) : gramAt m c 0 = gramInit (fxAt m c 0) := rfl
theorem gramAt_succ (c : Dev nD) (n : ℕ) : gramAt m c (n + 1) = gramStep (fxAt m c (n + 1)) (gramAt m c n) := rfl

/-- The mixed matrix and the scaled keys, stored at point 7. -/
def omAt (c : Dev nD) : Vec F S1024x384 .bf16 := omVal (gramAt m c 7) (otherBlk m c (pt 7))
def ksAt (c : Dev nD) : Vec F S1024x256 .bf16 := ksVal (otherBlk m c (pt 7)) (wkBlk m c (pt 7)) (bkBlk m c (pt 7))

/-- The block of output rows point `t` stores. -/
def outAt (c : Dev nD) (t : Fin cfg0.N) : Vec F S2000x256 .f32 :=
  outVal (mainBlk m c t) (wqBlk m c t) (bqBlk m c t) (ksAt m c) (omAt m c)

/-! ## The scratch buffers between points -/

/-- Scratch 0 as the region's invariant holds it and as the body's run names it: one points-to. -/
theorem scr0_eq (c : Dev nD) (f : Buf (Elt F) ((c : Thread nD τ).loc cc0_scratch0)) :
    ((Memref.whole cc0_scratch0 : Memref sig .tc .vmem S512x512 .f32).view.loc (c : Thread nD τ)
        ↦[(Memref.whole cc0_scratch0 : Memref sig .tc .vmem S512x512 .f32).view.set]{fullShare} f : sProp 𝕄)
      = ((c : Thread nD τ).loc cc0_scratch0) ↦{fullShare} f := by
  simp only [Memref.view_whole, View.set_whole]

theorem scr0_intro (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0 : Memref sig .tc .vmem S512x512 .f32) fullShare d) := by
  unfold owns
  iintro ⟨%f, H⟩
  iexists _; iexists f; isplitr; · ipureintro; rfl
  rw [scr0_eq]; iexact H

theorem scr0_elim (c : Dev nD) (d : Vec F S512x512 .f32) :
    owns (c : Thread nD τ) (Memref.whole cc0_scratch0 : Memref sig .tc .vmem S512x512 .f32) fullShare d
      ⊢ (iprop(∃ f : Buf (Elt F) ((c : Thread nD τ).loc cc0_scratch0), ((c : Thread nD τ).loc cc0_scratch0) ↦{fullShare} f) : sProp 𝕄) := by
  unfold owns
  iintro ⟨%f, -, H⟩
  iexists f; rw [← scr0_eq]; iexact H

/-- Scratch 1 as the region's invariant holds it and as the body's run names it: one points-to. -/
theorem scr1_eq (c : Dev nD) (f : Buf (Elt F) ((c : Thread nD τ).loc cc0_scratch1)) :
    ((Memref.whole cc0_scratch1 : Memref sig .tc .vmem S512x512 .f32).view.loc (c : Thread nD τ)
        ↦[(Memref.whole cc0_scratch1 : Memref sig .tc .vmem S512x512 .f32).view.set]{fullShare} f : sProp 𝕄)
      = ((c : Thread nD τ).loc cc0_scratch1) ↦{fullShare} f := by
  simp only [Memref.view_whole, View.set_whole]

theorem scr1_intro (c : Dev nD) :
    (iprop(∃ f : Buf (Elt F) ((c : Thread nD τ).loc cc0_scratch1), ((c : Thread nD τ).loc cc0_scratch1) ↦{fullShare} f) : sProp 𝕄)
      ⊢ iprop(∃ d, owns (c : Thread nD τ) (Memref.whole cc0_scratch1 : Memref sig .tc .vmem S512x512 .f32) fullShare d) := by
  unfold owns
  iintro ⟨%f, H⟩
  iexists _; iexists f; isplitr; · ipureintro; rfl
  rw [scr1_eq]; iexact H

theorem scr1_elim (c : Dev nD) (d : Vec F S512x512 .f32) :
    owns (c : Thread nD τ) (Memref.whole cc0_scratch1 : Memref sig .tc .vmem S512x512 .f32) fullShare d
      ⊢ (iprop(∃ f : Buf (Elt F) ((c : Thread nD τ).loc cc0_scratch1), ((c : Thread nD τ).loc cc0_scratch1) ↦{fullShare} f) : sProp 𝕄) := by
  unfold owns
  iintro ⟨%f, -, H⟩
  iexists f; rw [← scr1_eq]; iexact H

/-- Scratch 2 as the region's invariant holds it and as the body's run names it: one points-to. -/
theorem scr2_eq (c : Dev nD) (f : Buf (Elt F) ((c : Thread nD τ).loc cc0_scratch2)) :
    ((Memref.whole cc0_scratch2 : Memref sig .tc .vmem S512x512 .f32).view.loc (c : Thread nD τ)
        ↦[(Memref.whole cc0_scratch2 : Memref sig .tc .vmem S512x512 .f32).view.set]{fullShare} f : sProp 𝕄)
      = ((c : Thread nD τ).loc cc0_scratch2) ↦{fullShare} f := by
  simp only [Memref.view_whole, View.set_whole]

theorem scr2_intro (c : Dev nD) :
    (iprop(∃ f : Buf (Elt F) ((c : Thread nD τ).loc cc0_scratch2), ((c : Thread nD τ).loc cc0_scratch2) ↦{fullShare} f) : sProp 𝕄)
      ⊢ iprop(∃ d, owns (c : Thread nD τ) (Memref.whole cc0_scratch2 : Memref sig .tc .vmem S512x512 .f32) fullShare d) := by
  unfold owns
  iintro ⟨%f, H⟩
  iexists _; iexists f; isplitr; · ipureintro; rfl
  rw [scr2_eq]; iexact H

theorem scr2_elim (c : Dev nD) (d : Vec F S512x512 .f32) :
    owns (c : Thread nD τ) (Memref.whole cc0_scratch2 : Memref sig .tc .vmem S512x512 .f32) fullShare d
      ⊢ (iprop(∃ f : Buf (Elt F) ((c : Thread nD τ).loc cc0_scratch2), ((c : Thread nD τ).loc cc0_scratch2) ↦{fullShare} f) : sProp 𝕄) := by
  unfold owns
  iintro ⟨%f, -, H⟩
  iexists f; rw [← scr2_eq]; iexact H

/-- Scratch 3 as the region's invariant holds it and as the body's run names it: one points-to. -/
theorem scr3_eq (c : Dev nD) (f : Buf (Elt F) ((c : Thread nD τ).loc cc0_scratch3)) :
    ((Memref.whole cc0_scratch3 : Memref sig .tc .vmem S1024x384 .bf16).view.loc (c : Thread nD τ)
        ↦[(Memref.whole cc0_scratch3 : Memref sig .tc .vmem S1024x384 .bf16).view.set]{fullShare} f : sProp 𝕄)
      = ((c : Thread nD τ).loc cc0_scratch3) ↦{fullShare} f := by
  simp only [Memref.view_whole, View.set_whole]

theorem scr3_intro (c : Dev nD) :
    (iprop(∃ f : Buf (Elt F) ((c : Thread nD τ).loc cc0_scratch3), ((c : Thread nD τ).loc cc0_scratch3) ↦{fullShare} f) : sProp 𝕄)
      ⊢ iprop(∃ d, owns (c : Thread nD τ) (Memref.whole cc0_scratch3 : Memref sig .tc .vmem S1024x384 .bf16) fullShare d) := by
  unfold owns
  iintro ⟨%f, H⟩
  iexists _; iexists f; isplitr; · ipureintro; rfl
  rw [scr3_eq]; iexact H

theorem scr3_elim (c : Dev nD) (d : Vec F S1024x384 .bf16) :
    owns (c : Thread nD τ) (Memref.whole cc0_scratch3 : Memref sig .tc .vmem S1024x384 .bf16) fullShare d
      ⊢ (iprop(∃ f : Buf (Elt F) ((c : Thread nD τ).loc cc0_scratch3), ((c : Thread nD τ).loc cc0_scratch3) ↦{fullShare} f) : sProp 𝕄) := by
  unfold owns
  iintro ⟨%f, -, H⟩
  iexists f; rw [← scr3_eq]; iexact H

/-- Scratch 4 as the region's invariant holds it and as the body's run names it: one points-to. -/
theorem scr4_eq (c : Dev nD) (f : Buf (Elt F) ((c : Thread nD τ).loc cc0_scratch4)) :
    ((Memref.whole cc0_scratch4 : Memref sig .tc .vmem S1024x256 .bf16).view.loc (c : Thread nD τ)
        ↦[(Memref.whole cc0_scratch4 : Memref sig .tc .vmem S1024x256 .bf16).view.set]{fullShare} f : sProp 𝕄)
      = ((c : Thread nD τ).loc cc0_scratch4) ↦{fullShare} f := by
  simp only [Memref.view_whole, View.set_whole]

theorem scr4_intro (c : Dev nD) :
    (iprop(∃ f : Buf (Elt F) ((c : Thread nD τ).loc cc0_scratch4), ((c : Thread nD τ).loc cc0_scratch4) ↦{fullShare} f) : sProp 𝕄)
      ⊢ iprop(∃ d, owns (c : Thread nD τ) (Memref.whole cc0_scratch4 : Memref sig .tc .vmem S1024x256 .bf16) fullShare d) := by
  unfold owns
  iintro ⟨%f, H⟩
  iexists _; iexists f; isplitr; · ipureintro; rfl
  rw [scr4_eq]; iexact H

theorem scr4_elim (c : Dev nD) (d : Vec F S1024x256 .bf16) :
    owns (c : Thread nD τ) (Memref.whole cc0_scratch4 : Memref sig .tc .vmem S1024x256 .bf16) fullShare d
      ⊢ (iprop(∃ f : Buf (Elt F) ((c : Thread nD τ).loc cc0_scratch4), ((c : Thread nD τ).loc cc0_scratch4) ↦{fullShare} f) : sProp 𝕄) := by
  unfold owns
  iintro ⟨%f, -, H⟩
  iexists f; rw [← scr4_eq]; iexact H

/-- What the scratch buffers hold before point `t`, and the generator register at some state. -/
def Φt (c : Dev nD) (t : ℕ) : sProp 𝕄 :=
  iprop((if 1 ≤ t ∧ t ≤ 8 then owns (c : Thread nD τ) (Memref.whole cc0_scratch0 : Memref sig .tc .vmem S512x512 .f32) fullShare (gramAt m c (t - 1)).1
          else iprop(∃ d, owns (c : Thread nD τ) (Memref.whole cc0_scratch0 : Memref sig .tc .vmem S512x512 .f32) fullShare d))
      ∗ (if 1 ≤ t ∧ t ≤ 8 then owns (c : Thread nD τ) (Memref.whole cc0_scratch1 : Memref sig .tc .vmem S512x512 .f32) fullShare (gramAt m c (t - 1)).2.1
          else iprop(∃ d, owns (c : Thread nD τ) (Memref.whole cc0_scratch1 : Memref sig .tc .vmem S512x512 .f32) fullShare d))
      ∗ (if 1 ≤ t ∧ t ≤ 8 then owns (c : Thread nD τ) (Memref.whole cc0_scratch2 : Memref sig .tc .vmem S512x512 .f32) fullShare (gramAt m c (t - 1)).2.2
          else iprop(∃ d, owns (c : Thread nD τ) (Memref.whole cc0_scratch2 : Memref sig .tc .vmem S512x512 .f32) fullShare d))
      ∗ (if 8 ≤ t then owns (c : Thread nD τ) (Memref.whole cc0_scratch3 : Memref sig .tc .vmem S1024x384 .bf16) fullShare (omAt m c)
          else iprop(∃ d, owns (c : Thread nD τ) (Memref.whole cc0_scratch3 : Memref sig .tc .vmem S1024x384 .bf16) fullShare d))
      ∗ (if 8 ≤ t then owns (c : Thread nD τ) (Memref.whole cc0_scratch4 : Memref sig .tc .vmem S1024x256 .bf16) fullShare (ksAt m c)
          else iprop(∃ d, owns (c : Thread nD τ) (Memref.whole cc0_scratch4 : Memref sig .tc .vmem S1024x256 .bf16) fullShare d))
      ∗ ∃ r, prngReg c r)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Φt m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Before the first point the scratch buffers hold anything. -/
theorem hin (c : Dev nD) : (ΦA spec0 c : sProp 𝕄) ⊢ (dats m 0 c).Φ 0 := by
  show _ ⊢ Φt m c 0
  unfold ΦA Φt
  rw [scopedRest0_eq]
  rw [if_neg (by decide), if_neg (by decide), if_neg (by decide), if_neg (by decide), if_neg (by decide)]
  iintro ⟨⟨H0, H1, H2, H3, H4⟩, HR⟩
  isplitl [H0]; · iapply (scr0_intro c); iexact H0
  isplitl [H1]; · iapply (scr1_intro c); iexact H1
  isplitl [H2]; · iapply (scr2_intro c); iexact H2
  isplitl [H3]; · iapply (scr3_intro c); iexact H3
  isplitl [H4]; · iapply (scr4_intro c); iexact H4
  iexact HR

/-- After the last point the scratch buffers are given back, their contents forgotten. -/
theorem hout (c : Dev nD) : (dats m 0 c).Φ (Fin.last cfg0.N) ⊢ (ΦA spec0 c : sProp 𝕄) := by
  show Φt m c (Fin.last cfg0.N).val ⊢ _
  rw [show (Fin.last cfg0.N).val = 13 from N13]
  unfold ΦA Φt
  rw [scopedRest0_eq]
  rw [if_neg (by decide), if_neg (by decide), if_neg (by decide), if_pos (by decide), if_pos (by decide)]
  iintro ⟨⟨%d0, H0⟩, ⟨%d1, H1⟩, ⟨%d2, H2⟩, H3, H4, HR⟩
  isplitr [HR]
  · isplitl [H0]; · iapply (scr0_elim c d0); iexact H0
    isplitl [H1]; · iapply (scr1_elim c d1); iexact H1
    isplitl [H2]; · iapply (scr2_elim c d2); iexact H2
    isplitl [H3]; · iapply (scr3_elim c _); iexact H3
    iapply (scr4_elim c _); iexact H4
  iexact HR

/-! ## Which guard holds at which point, and where the output window is idle or written back -/

theorem hc1 : ∀ t : Fin cfg0.N, c1 (cfg0.grid.coords t) = 1#1 ↔ t.val = 0 :=
  (by decide +kernel : ∀ t : Fin grid0.N, c1 (grid0.coords t) = 1#1 ↔ t.val = 0)
theorem hc2 : ∀ t : Fin cfg0.N, c2 (cfg0.grid.coords t) = 1#1 ↔ (0 < t.val ∧ t.val < 8) :=
  (by decide +kernel : ∀ t : Fin grid0.N, c2 (grid0.coords t) = 1#1 ↔ (0 < t.val ∧ t.val < 8))
theorem hc3 : ∀ t : Fin cfg0.N, c3 (cfg0.grid.coords t) = 1#1 ↔ t.val = 7 :=
  (by decide +kernel : ∀ t : Fin grid0.N, c3 (grid0.coords t) = 1#1 ↔ t.val = 7)
theorem hc4 : ∀ t : Fin cfg0.N, k0_cond4 (cfg0.grid.coords t) = 1#1 ↔ 8 ≤ t.val :=
  (by decide +kernel : ∀ t : Fin grid0.N, k0_cond4 (grid0.coords t) = 1#1 ↔ 8 ≤ t.val)
theorem idle7 : ∀ t : Fin cfg0.N, cfg0.idle 7 (cfg0.grid.coords t) = decide (t.val < 8) :=
  (by decide +kernel : ∀ t : Fin grid0.N, idle0 7 (grid0.coords t) = decide (t.val < 8))
theorem flush7 : ∀ t : Fin cfg0.N, (cfg0.win 7).flush t = decide (8 ≤ t.val) :=
  (by decide +kernel : ∀ t : Fin grid0.N, win0_7.flush t = decide (8 ≤ t.val))

end Cert.Proof.KI

end
-- ==== Proof.KI.RunA.lean ====
/-
  The body at the first point: the first chunk of `fix` is loaded in two halves and the three Gram quadrants are
  stored whole.
-/
import proofs.«128930_g52209622450808_cont_9to1_m_767_27_alg».proof.Proof.KI.Vals

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

theorem sound_A (c : Dev nD) (i : grid0.Coords) (h1 : c1 i = 1#1) (h2 : ¬ c2 i = 1#1) (h3 : ¬ c3 i = 1#1) (h4 : ¬ k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x1 : Vec F S512x1024 .f32) (K : PUnit → sProp 𝕄) :
    iprop(owns (c : Thread nD τ) arg1 fullShare x1
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg1 fullShare x1 ∗ owns (c : Thread nD τ) arg9 fullShare (gramInit x1).1
            ∗ owns (c : Thread nD τ) arg10 fullShare (gramInit x1).2.1 ∗ owns (c : Thread nD τ) arg11 fullShare (gramInit x1).2.2) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%d9, %g9, -, H9⟩, ⟨%d10, %g10, -, H10⟩, ⟨%d11, %g11, -, H11⟩, Hk⟩
  subst hf1
  simp only [dif_pos h1, dif_neg h2, dif_neg h3, dif_neg h4]
  sl_exec
  sl_step
  iapply Hk
  isplitl [H1]
  · iexists f1; isplitr; · ipureintro; rfl
    iexact H1
  isplitl [H9]
  · iexists _; isplitr
    swap; · iexact H9
    ipureintro
    rw [View.read_writes_eq_canon _ _ _ (cover_rG _), View.canon_unit_zero off0]; rfl
  isplitl [H10]
  · iexists _; isplitr
    swap; · iexact H10
    ipureintro
    rw [View.read_writes_eq_canon _ _ _ (cover_rG _), View.canon_unit_zero off0]; rfl
  · iexists _; isplitr
    swap; · iexact H11
    ipureintro
    rw [View.read_writes_eq_canon _ _ _ (cover_rG _), View.canon_unit_zero off0]; rfl

end Cert.Proof.KI

end
-- ==== Proof.KI.RunB.lean ====
/-
  The body at the points after the first and up to the eighth: one more chunk of `fix` is loaded in two halves, and
  each Gram quadrant is loaded, increased by the chunk's product, and stored back whole.
-/
import proofs.«128930_g52209622450808_cont_9to1_m_767_27_alg».proof.Proof.KI.Vals

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

theorem sound_B (c : Dev nD) (i : grid0.Coords) (h1 : ¬ c1 i = 1#1) (h2 : c2 i = 1#1) (h3 : ¬ c3 i = 1#1) (h4 : ¬ k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x1 : Vec F S512x1024 .f32) (g00 g01 g11 : Vec F S512x512 .f32) (K : PUnit → sProp 𝕄) :
    iprop(owns (c : Thread nD τ) arg1 fullShare x1
        ∗ owns (c : Thread nD τ) arg9 fullShare g00 ∗ owns (c : Thread nD τ) arg10 fullShare g01 ∗ owns (c : Thread nD τ) arg11 fullShare g11
        ∗ (iprop(owns (c : Thread nD τ) arg1 fullShare x1 ∗ owns (c : Thread nD τ) arg9 fullShare (gramStep x1 (g00, g01, g11)).1
            ∗ owns (c : Thread nD τ) arg10 fullShare (gramStep x1 (g00, g01, g11)).2.1
            ∗ owns (c : Thread nD τ) arg11 fullShare (gramStep x1 (g00, g01, g11)).2.2) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f9, %hf9, H9⟩, ⟨%f10, %hf10, H10⟩, ⟨%f11, %hf11, H11⟩, Hk⟩
  subst hf1 hf9 hf10 hf11
  simp only [dif_neg h1, dif_pos h2, dif_neg h3, dif_neg h4]
  sl_exec
  sl_step
  iapply Hk
  isplitl [H1]
  · iexists f1; isplitr; · ipureintro; rfl
    iexact H1
  isplitl [H9]
  · iexists _; isplitr
    swap; · iexact H9
    ipureintro
    rw [View.read_writes_eq_canon _ _ _ (cover_rG _), View.canon_unit_zero off0]
    simp only [gramStep, View.readAt_eq_ld, View.ld_unit_zero (S := S512x512) off0]
  isplitl [H10]
  · iexists _; isplitr
    swap; · iexact H10
    ipureintro
    rw [View.read_writes_eq_canon _ _ _ (cover_rG _), View.canon_unit_zero off0]
    simp only [gramStep, View.readAt_eq_ld, View.ld_unit_zero (S := S512x512) off0]
  · iexists _; isplitr
    swap; · iexact H11
    ipureintro
    rw [View.read_writes_eq_canon _ _ _ (cover_rG _), View.canon_unit_zero off0]
    simp only [gramStep, View.readAt_eq_ld, View.ld_unit_zero (S := S512x512) off0]

end Cert.Proof.KI

end
-- ==== Proof.KI.RunC.lean ====
/-
  The body at the eighth point: the last chunk of `fix` is added to the Gram quadrants; then the quadrants and
  `other` are loaded, the mixed matrix is stored in three rectangles that tile its buffer, and the scaled keys are
  stored whole.
-/
import proofs.«128930_g52209622450808_cont_9to1_m_767_27_alg».proof.Proof.KI.Vals

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

theorem sound_C (c : Dev nD) (i : grid0.Coords) (h1 : ¬ c1 i = 1#1) (h2 : c2 i = 1#1) (h3 : c3 i = 1#1) (h4 : ¬ k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x1 : Vec F S512x1024 .f32) (x2 : Vec F S1024x256 .f32) (x3 : Vec F S256x256 .f32) (x4 : Vec F S1x256 .f32)
    (g00 g01 g11 : Vec F S512x512 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4
        ∗ owns (c : Thread nD τ) arg9 fullShare g00 ∗ owns (c : Thread nD τ) arg10 fullShare g01 ∗ owns (c : Thread nD τ) arg11 fullShare g11
        ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg9 fullShare (gramStep x1 (g00, g01, g11)).1
            ∗ owns (c : Thread nD τ) arg10 fullShare (gramStep x1 (g00, g01, g11)).2.1
            ∗ owns (c : Thread nD τ) arg11 fullShare (gramStep x1 (g00, g01, g11)).2.2
            ∗ owns (c : Thread nD τ) arg12 fullShare (omVal (gramStep x1 (g00, g01, g11)) x2)
            ∗ owns (c : Thread nD τ) arg13 fullShare (ksVal x2 x3 x4)) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f9, %hf9, H9⟩, ⟨%f10, %hf10, H10⟩, ⟨%f11, %hf11, H11⟩,
    ⟨%d12, %f12, -, H12⟩, ⟨%d13, %f13, -, H13⟩, Hk⟩
  subst hf1 hf2 hf3 hf4 hf9 hf10 hf11
  simp only [dif_neg h1, dif_pos h2, dif_pos h3, dif_neg h4, k0_part1_eq_skeleton]
  unfold k0_part1_skel
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H9]
  · iexists _; isplitr
    swap; · iexact H9
    ipureintro
    sl_unfold_words
    rw [View.read_writes_eq_canon _ _ _ (cover_rG _), View.canon_unit_zero off0]
    simp only [gramStep, View.readAt_eq_ld, View.ld_unit_zero (S := S512x512) off0]
  isplitl [H10]
  · iexists _; isplitr
    swap; · iexact H10
    ipureintro
    sl_unfold_words
    rw [View.read_writes_eq_canon _ _ _ (cover_rG _), View.canon_unit_zero off0]
    simp only [gramStep, View.readAt_eq_ld, View.ld_unit_zero (S := S512x512) off0]
  isplitl [H11]
  · iexists _; isplitr
    swap; · iexact H11
    ipureintro
    sl_unfold_words
    rw [View.read_writes_eq_canon _ _ _ (cover_rG _), View.canon_unit_zero off0]
    simp only [gramStep, View.readAt_eq_ld, View.ld_unit_zero (S := S512x512) off0]
  isplitl [H12]
  · iexists _; isplitr
    swap; · iexact H12
    ipureintro
    sl_unfold_words
    rw [View.read_writes_eq_canon _ _ _ (cover_om _ _ _)]
    simp only [omVal, gramStep, View.readAt_eq_ld, View.readCov_unit_zero (S := S512x512) _ off0,
      View.ld_unit_zero (S := S512x512) off0, View.ld_unit_zero (S := S1024x256) off0]
  · iexists _; isplitr
    swap; · iexact H13
    ipureintro
    sl_unfold_words
    rw [View.read_writes_eq_canon _ _ _ (cover_rK _), View.canon_unit_zero off0]
    simp only [ksVal, View.readAt_eq_ld, View.ld_unit_zero (S := S1024x256) off0, View.ld_unit_zero (S := S256x256) off0,
      View.ld_unit_zero (S := S1x256) off0]

end Cert.Proof.KI

end
-- ==== Proof.KI.RunD.lean ====
/-
  The body at the last five points: a block of rows of `main`, the query weights and bias, the scaled keys and the
  mixed matrix are loaded whole, and the block of output rows is stored whole.
-/
import proofs.«128930_g52209622450808_cont_9to1_m_767_27_alg».proof.Proof.KI.Vals

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (𝒱₀ : Variants)

/-- All of the output block. -/
abbrev rO : Rect S2000x256 := Rect.unit (s := S2000x256) ![0, 0] S2000x256.size inb_S2000x256_S2000x256_0_0

theorem cover_rO (w : Vec F S2000x256 .f32) (y : S2000x256.Idx) :
    ∃ pc ∈ ([⟨rO, w⟩] : List (View.Piece (Elt F) S2000x256 .f32)), y ∈ pc.1.set :=
  View.cover_of_tiled [⟨rO, w⟩] S2000x256.size (by rfl) y

theorem sound_D (c : Dev nD) (i : grid0.Coords) (h1 : ¬ c1 i = 1#1) (h2 : ¬ c2 i = 1#1) (h3 : ¬ c3 i = 1#1) (h4 : k0_cond4 i = 1#1)
    (arg1 : Memref sig .tc .vmem S512x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1024x384 .bf16) (harg12 : arg12.IsWhole) (arg13 : Memref sig .tc .vmem S1024x256 .bf16) (harg13 : arg13.IsWhole)
    (x5 : Vec F S2000x256 .f32) (x6 : Vec F S256x256 .f32) (x7 : Vec F S1x256 .f32)
    (om : Vec F S1024x384 .bf16) (ks : Vec F S1024x256 .bf16) (K : PUnit → sProp 𝕄) :
    iprop(owns (c : Thread nD τ) arg5 fullShare x5 ∗ owns (c : Thread nD τ) arg6 fullShare x6 ∗ owns (c : Thread nD τ) arg7 fullShare x7
        ∗ (∃ d, owns (c : Thread nD τ) arg8 fullShare d)
        ∗ owns (c : Thread nD τ) arg12 fullShare om ∗ owns (c : Thread nD τ) arg13 fullShare ks
        ∗ (iprop(owns (c : Thread nD τ) arg5 fullShare x5 ∗ owns (c : Thread nD τ) arg6 fullShare x6 ∗ owns (c : Thread nD τ) arg7 fullShare x7
            ∗ owns (c : Thread nD τ) arg8 fullShare (outVal x5 x6 x7 ks om)
            ∗ owns (c : Thread nD τ) arg12 fullShare om ∗ owns (c : Thread nD τ) arg13 fullShare ks) -∗ K ⟨⟩))
      ⊢ wp frame (wpE (defs₀ (F := F)) 𝒱₀ c none) Set.univ (cc0__fused_kernel i arg1 harg1 arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f5, %hf5, H5⟩, ⟨%f6, %hf6, H6⟩, ⟨%f7, %hf7, H7⟩, ⟨%d8, %f8, -, H8⟩, ⟨%f12, %hf12, H12⟩, ⟨%f13, %hf13, H13⟩, Hk⟩
  subst hf5 hf6 hf7 hf12 hf13
  simp only [dif_neg h1, dif_neg h2, dif_neg h3, dif_pos h4]
  sl_exec
  sl_step
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_rO _), View.canon_unit_zero off0]
    simp only [outVal, View.readAt_eq_ld, View.ld_unit_zero (S := S2000x256) off0, View.ld_unit_zero (S := S256x256) off0,
      View.ld_unit_zero (S := S1x256) off0, View.ld_unit_zero (S := S1024x256) off0, View.ld_unit_zero (S := S1024x384) off0]
  isplitl [H12]
  · iexists f12; isplitr; · ipureintro; rfl
    iexact H12
  · iexists f13; isplitr; · ipureintro; rfl
    iexact H13

end Cert.Proof.KI

end
-- ==== Proof.KI.Body.lean ====
/-
  The body obligation, the run of the program and its frame. At each point the body is one of four cases
  (the first chunk; a later chunk; the last chunk followed by the preamble's stores; a block of output rows), decided
  by the point's number; each case's run takes the scratch buffers from what the invariant says before the point to
  what it says after it, leaves every input block in place, and at the first eight points hands the output's buffer
  back as it found it. For every float instance.
-/
import proofs.«128930_g52209622450808_cont_9to1_m_767_27_alg».proof.Proof.KI.Data
import proofs.«128930_g52209622450808_cont_9to1_m_767_27_alg».proof.Proof.KI.RunA
import proofs.«128930_g52209622450808_cont_9to1_m_767_27_alg».proof.Proof.KI.RunB
import proofs.«128930_g52209622450808_cont_9to1_m_767_27_alg».proof.Proof.KI.RunC
import proofs.«128930_g52209622450808_cont_9to1_m_767_27_alg».proof.Proof.KI.RunD

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The body has no counted loop: no variant is needed. -/
abbrev 𝒱₀ : Variants := Variants.none

variable (m : (ℓ : Loc nD τ sig) → Buf (Elt F) ℓ) (ρ : Dev nD → PrngReg)

/-- What the body returns of the output's buffer: where the window is idle and not written back, the buffer as it
    was handed it; else the block of output rows. -/
def post7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ post7 m c t)

/-- The first point: the Gram quadrants, at anything, are set from the first chunk. -/
theorem sound_body_A (c : Dev nD) (t : Fin cfg0.N) (ht : t.val = 0) :
    bodyPre m c t ⊢ wp frame (wpE (defs₀ (F := F)) 𝒱₀ c none) Set.univ (bodyAt0 t) (fun _ => bodyPost m c t) := by
  have h1 : c1 (cfg0.grid.coords t) = 1#1 := (hc1 t).mpr ht
  have h2 : ¬ c2 (cfg0.grid.coords t) = 1#1 := fun h => by have := (hc2 t).mp h; omega
  have h3 : ¬ c3 (cfg0.grid.coords t) = 1#1 := fun h => by have := (hc3 t).mp h; omega
  have h4 : ¬ k0_cond4 (cfg0.grid.coords t) = 1#1 := fun h => by have := (hc4 t).mp h; omega
  have hp : pt 0 = t := by rw [← ht]; exact pt_val t
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_true (show t.val < 8 by omega), decide_eq_false (show ¬ 8 ≤ t.val by omega)]
  simp only [if_neg (show ¬ (1 ≤ t.val ∧ t.val ≤ 8) by omega), if_neg (show ¬ 8 ≤ t.val by omega),
    if_pos (show 1 ≤ t.val + 1 ∧ t.val + 1 ≤ 8 by omega), if_neg (show ¬ 8 ≤ t.val + 1 by omega)]
  rw [show t.val + 1 - 1 = 0 by omega, gramAt_zero, show fxAt m c 0 = fixBlk m c t by unfold fxAt; rw [hp]]
  iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
  iapply (sound_A 𝒱₀ c (cfg0.grid.coords t) h1 h2 h3 h4 _ _ _ _ _ _ _ _ _ _ _ _ _ _ _ _ _ _ _ _ _ _ _ _ _ _ (fixBlk m c t) _)
  isplitl [H0]; · iexact H0
  isplitl [S0]; · iexact S0
  isplitl [S1]; · iexact S1
  isplitl [S2]; · iexact S2
  iintro ⟨H0, S0, S1, S2⟩
  isplitl [S0 S1 S2 S3 S4 HR]
  · isplitl [S0]; · iexact S0
    isplitl [S1]; · iexact S1
    isplitl [S2]; · iexact S2
    isplitl [S3]; · iexact S3
    isplitl [S4]; · iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A later chunk, before the last: each Gram quadrant takes one more product. -/
theorem sound_body_B (c : Dev nD) (t : Fin cfg0.N) (ht : 0 < t.val ∧ t.val < 7) :
    bodyPre m c t ⊢ wp frame (wpE (defs₀ (F := F)) 𝒱₀ c none) Set.univ (bodyAt0 t) (fun _ => bodyPost m c t) := by
  have h1 : ¬ c1 (cfg0.grid.coords t) = 1#1 := fun h => by have := (hc1 t).mp h; omega
  have h2 : c2 (cfg0.grid.coords t) = 1#1 := (hc2 t).mpr (by omega)
  have h3 : ¬ c3 (cfg0.grid.coords t) = 1#1 := fun h => by have := (hc3 t).mp h; omega
  have h4 : ¬ k0_cond4 (cfg0.grid.coords t) = 1#1 := fun h => by have := (hc4 t).mp h; omega
  obtain ⟨n, hn⟩ : ∃ n, t.val = n + 1 := ⟨t.val - 1, by omega⟩
  have hp : pt (n + 1) = t := by rw [← hn]; exact pt_val t
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_true (show t.val < 8 by omega), decide_eq_false (show ¬ 8 ≤ t.val by omega)]
  simp only [if_pos (show 1 ≤ t.val ∧ t.val ≤ 8 by omega), if_neg (show ¬ 8 ≤ t.val by omega),
    if_pos (show 1 ≤ t.val + 1 ∧ t.val + 1 ≤ 8 by omega), if_neg (show ¬ 8 ≤ t.val + 1 by omega)]
  rw [show t.val + 1 - 1 = n + 1 by omega, show t.val - 1 = n by omega, gramAt_succ,
    show fxAt m c (n + 1) = fixBlk m c t by unfold fxAt; rw [hp]]
  iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
  iapply (sound_B 𝒱₀ c (cfg0.grid.coords t) h1 h2 h3 h4 _ _ _ _ _ _ _ _ _ _ _ _ _ _ _ _ _ _ _ _ _ _ _ _ _ _ (fixBlk m c t) (gramAt m c n).1 (gramAt m c n).2.1 (gramAt m c n).2.2 _)
  isplitl [H0]; · iexact H0
  isplitl [S0]; · iexact S0
  isplitl [S1]; · iexact S1
  isplitl [S2]; · iexact S2
  iintro ⟨H0, S0, S1, S2⟩
  isplitl [S0 S1 S2 S3 S4 HR]
  · isplitl [S0]; · iexact S0
    isplitl [S1]; · iexact S1
    isplitl [S2]; · iexact S2
    isplitl [S3]; · iexact S3
    isplitl [S4]; · iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The eighth point: the last chunk is added, then the mixed matrix and the scaled keys are stored. -/
theorem sound_body_C (c : Dev nD) (t : Fin cfg0.N) (ht : t.val = 7) :
    bodyPre m c t ⊢ wp frame (wpE (defs₀ (F := F)) 𝒱₀ c none) Set.univ (bodyAt0 t) (fun _ => bodyPost m c t) := by
  have h1 : ¬ c1 (cfg0.grid.coords t) = 1#1 := fun h => by have := (hc1 t).mp h; omega
  have h2 : c2 (cfg0.grid.coords t) = 1#1 := (hc2 t).mpr (by omega)
  have h3 : c3 (cfg0.grid.coords t) = 1#1 := (hc3 t).mpr ht
  have h4 : ¬ k0_cond4 (cfg0.grid.coords t) = 1#1 := fun h => by have := (hc4 t).mp h; omega
  have hp : pt 7 = t := by rw [← ht]; exact pt_val t
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_true (show t.val < 8 by omega), decide_eq_false (show ¬ 8 ≤ t.val by omega)]
  simp only [if_pos (show 1 ≤ t.val ∧ t.val ≤ 8 by omega), if_neg (show ¬ 8 ≤ t.val by omega),
    if_pos (show 1 ≤ t.val + 1 ∧ t.val + 1 ≤ 8 by omega), if_pos (show 8 ≤ t.val + 1 by omega)]
  have hfx : fxAt m c 7 = fixBlk m c t := by unfold fxAt; rw [hp]
  have e7 : gramAt m c 7 = gramStep (fixBlk m c t) (gramAt m c 6) := by
    show gramStep (fxAt m c 7) (gramAt m c 6) = _
    rw [hfx]
  rw [show t.val + 1 - 1 = 7 by omega, show t.val - 1 = 6 by omega]
  unfold omAt ksAt
  rw [e7, hp]
  iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
  iapply (sound_C 𝒱₀ c (cfg0.grid.coords t) h1 h2 h3 h4 _ _ _ _ _ _ _ _ _ _ _ _ _ _ _ _ _ _ _ _ _ _ _ _ _ _ (fixBlk m c t) (otherBlk m c t) (wkBlk m c t) (bkBlk m c t)
    (gramAt m c 6).1 (gramAt m c 6).2.1 (gramAt m c 6).2.2 _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  iintro ⟨H0, H1, H2, H3, S0, S1, S2, S3, S4⟩
  isplitl [S0 S1 S2 S3 S4 HR]
  · isplitl [S0]; · iexact S0
    isplitl [S1]; · iexact S1
    isplitl [S2]; · iexact S2
    isplitl [S3]; · iexact S3
    isplitl [S4]; · iexact S4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The last five points: a block of output rows is stored; the scratch buffers are only read. -/
theorem sound_body_D (c : Dev nD) (t : Fin cfg0.N) (ht : 8 ≤ t.val) :
    bodyPre m c t ⊢ wp frame (wpE (defs₀ (F := F)) 𝒱₀ c none) Set.univ (bodyAt0 t) (fun _ => bodyPost m c t) := by
  have h1 : ¬ c1 (cfg0.grid.coords t) = 1#1 := fun h => by have := (hc1 t).mp h; omega
  have h2 : ¬ c2 (cfg0.grid.coords t) = 1#1 := fun h => by have := (hc2 t).mp h; omega
  have h3 : ¬ c3 (cfg0.grid.coords t) = 1#1 := fun h => by have := (hc3 t).mp h; omega
  have h4 : k0_cond4 (cfg0.grid.coords t) = 1#1 := (hc4 t).mpr ht
  have hlt : t.val < 13 := Nat.lt_of_lt_of_eq t.isLt N13
  unfold bodyPre bodyPost post7 bodyAt0
  rw [idle7, flush7]
  simp only [before0_0, before0_1, before0_2, before0_3, before0_4, before0_5, before0_6, after0_0, after0_1, after0_2, after0_3, after0_4, after0_5, after0_6, after0_7]
  rw [show (dats m 0 c).owesAt () t.succ = (dats m 0 c).owesAt () t.castSucc from rfl,
    show (dats m 0 c).Φ t.castSucc = Φt m c t.val from rfl, show (dats m 0 c).Φ t.succ = Φt m c (t.val + 1) from rfl]
  unfold Φt
  rw [decide_eq_false (show ¬ t.val < 8 by omega)]
  simp only [if_pos (show 8 ≤ t.val by omega), if_pos (show 8 ≤ t.val + 1 by omega)]
  by_cases h8 : t.val = 8
  · simp only [if_pos (show 1 ≤ t.val ∧ t.val ≤ 8 by omega), if_neg (show ¬ (1 ≤ t.val + 1 ∧ t.val + 1 ≤ 8) by omega)]
    iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
    iapply (sound_D 𝒱₀ c (cfg0.grid.coords t) h1 h2 h3 h4 _ _ _ _ _ _ _ _ _ _ _ _ _ _ _ _ _ _ _ _ _ _ _ _ _ _ (mainBlk m c t) (wqBlk m c t) (bqBlk m c t) (omAt m c) (ksAt m c) _)
    isplitl [H4]; · iexact H4
    isplitl [H5]; · iexact H5
    isplitl [H6]; · iexact H6
    isplitl [H7]; · icases H7 with ⟨%d7, H7⟩; iexists _; iexact H7
    isplitl [S3]; · iexact S3
    isplitl [S4]; · iexact S4
    iintro ⟨H4, H5, H6, H7, S3, S4⟩
    isplitl [S0 S1 S2 S3 S4 HR]
    · isplitl [S0]; · iexists _; iexact S0
      isplitl [S1]; · iexists _; iexact S1
      isplitl [S2]; · iexists _; iexact S2
      isplitl [S3]; · iexact S3
      isplitl [S4]; · iexact S4
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [if_neg (show ¬ (1 ≤ t.val ∧ t.val ≤ 8) by omega), if_neg (show ¬ (1 ≤ t.val + 1 ∧ t.val + 1 ≤ 8) by omega)]
    iintro ⟨⟨S0, S1, S2, S3, S4, HR⟩, Ho, ⟨%d0, H0⟩, ⟨%d1, H1⟩, ⟨%d2, H2⟩, ⟨%d3, H3⟩, ⟨%d4, H4⟩, ⟨%d5, H5⟩, ⟨%d6, H6⟩, H7⟩
    iapply (sound_D 𝒱₀ c (cfg0.grid.coords t) h1 h2 h3 h4 _ _ _ _ _ _ _ _ _ _ _ _ _ _ _ _ _ _ _ _ _ _ _ _ _ _ (mainBlk m c t) (wqBlk m c t) (bqBlk m c t) (omAt m c) (ksAt m c) _)
    isplitl [H4]; · iexact H4
    isplitl [H5]; · iexact H5
    isplitl [H6]; · iexact H6
    isplitl [H7]; · icases H7 with ⟨%d7, H7⟩; iexists _; iexact H7
    isplitl [S3]; · iexact S3
    isplitl [S4]; · iexact S4
    iintro ⟨H4, H5, H6, H7, S3, S4⟩
    isplitl [S0 S1 S2 S3 S4 HR]
    · isplitl [S0]; · iexact S0
      isplitl [S1]; · iexact S1
      isplitl [S2]; · iexact S2
      isplitl [S3]; · iexact S3
      isplitl [S4]; · iexact S4
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body at any point. -/
theorem sound_body (c : Dev nD) (t : Fin cfg0.N) :
    bodyPre m c t ⊢ wp frame (wpE (defs₀ (F := F)) 𝒱₀ c none) Set.univ (bodyAt0 t) (fun _ => bodyPost m c t) := by
  by_cases h0 : t.val = 0
  · exact sound_body_A m c t h0
  by_cases h7 : t.val = 7
  · exact sound_body_C m c t h7
  by_cases h8 : 8 ≤ t.val
  · exact sound_body_D m c t h8
  · exact sound_body_B m c t (by omega)

/-- The library's body obligation, at every point. -/
theorem body_obligation (c : Dev nD) : BodyObligation (dats (F := F) m 0 c) (defs₀ (F := F)) 𝒱₀ () Set.univ := fun t => by
  rw [bigSep_W0, bigSep_W0]
  exact sound_body m c t

set_option backward.isDefEq.respectTransparency.types false in
/-- Every weakly fair execution of the program terminates, faulting nowhere, with every array of the region at
    what the proof data computes and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := hin m) (hout := hout m)

end Cert.Proof.KI

end
-- ==== Proof.KI.PayIdxA.lean ====
/-
  The body's products and sums, read at an index over the extended reals: each Gram quadrant's product of a chunk's
  halves (a contraction over the chunk's 512 rows), the same added to what the quadrant held, the block of ones,
  and the scaled keys (a contraction over the 256 features, plus the bias, times the scale).
-/
import proofs.«128930_g52209622450808_cont_9to1_m_767_27_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KI.Pay

open Cert.KernelIdeal Cert.KernelIdeal.Gen
open Idealize.ShloMosaic Idealize.ShloMosaic.ValueIdx
open scoped BigOperators

/-! ### The Gram quadrants' dot: both operands contracted over their rows (axis 0) -/

/-- The left operand is read at the contraction position on its axis 0 … -/
theorem lhs_gram_0 (i : S512x512.Idx) (c : dot_S512x512_S512x512_S512x512_0_0_1_1_n_n.contr.Idx) :
    (dot_S512x512_S512x512_S512x512_0_0_1_1_n_n.lhsIdx i c 0).val = (c ⟨0, by decide⟩).val :=
  dot_S512x512_S512x512_S512x512_0_0_1_1_n_n.lhsIdx_val_of_single rfl i c
/-- … and at the result's row on its axis 1. -/
theorem lhs_gram_1 (i : S512x512.Idx) (c : dot_S512x512_S512x512_S512x512_0_0_1_1_n_n.contr.Idx) :
    (dot_S512x512_S512x512_S512x512_0_0_1_1_n_n.lhsIdx i c 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
/-- The right operand is read at the contraction position on its axis 0 … -/
theorem rhs_gram_0 (i : S512x512.Idx) (c : dot_S512x512_S512x512_S512x512_0_0_1_1_n_n.contr.Idx) :
    (dot_S512x512_S512x512_S512x512_0_0_1_1_n_n.rhsIdx i c 0).val = (c ⟨0, by decide⟩).val :=
  dot_S512x512_S512x512_S512x512_0_0_1_1_n_n.rhsIdx_val_of_single rfl i c
/-- … and at the result's column on its axis 1. -/
theorem rhs_gram_1 (i : S512x512.Idx) (c : dot_S512x512_S512x512_S512x512_0_0_1_1_n_n.contr.Idx) :
    (dot_S512x512_S512x512_S512x512_0_0_1_1_n_n.rhsIdx i c 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- The product onto a zero accumulator, read at (p, q): the sum over the 512 rows k of u[k, p] · v[k, q]. -/
theorem gram_apply {φ₁ φ₂ : FTy} (u : FVec Ideal S512x512 φ₁) (v : FVec Ideal S512x512 φ₂) (p q : Fin 512) :
    FloatOps.matmul dot_S512x512_S512x512_S512x512_0_0_1_1_n_n none u v (constant (F := Ideal) S512x512 .f32 0x00000000#32) (ix2 p q)
      = ∑ k : Fin 512, u (ix2 k p) * v (ix2 k q) := by
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 p q) ((contrEquiv1 dot_S512x512_S512x512_S512x512_0_0_1_1_n_n 512 rfl rfl).symm k) = ix2 k p := funext fun a => Fin.ext (by
    match a with
    | ⟨0, _⟩ => exact (lhs_gram_0 _ _).trans hk
    | ⟨1, _⟩ => exact lhs_gram_1 _ _)
  have er : dot_S512x512_S512x512_S512x512_0_0_1_1_n_n.rhsIdx (ix2 p q) ((contrEquiv1 dot_S512x512_S512x512_S512x512_0_0_1_1_n_n 512 rfl rfl).symm k) = ix2 k q := funext fun a => Fin.ext (by
    match a with
    | ⟨0, _⟩ => exact (rhs_gram_0 _ _).trans hk
    | ⟨1, _⟩ => exact rhs_gram_1 _ _)
  rw [el, er]

variable (x y g : Vec Ideal S512x512 .f32) (p q : Fin 512)

theorem pay3_apply : k0_pay3 (F := Ideal) x (ix2 p q) = ∑ k : Fin 512, x (ix2 k p) * x (ix2 k q) := by
  unfold k0_pay3 k0_pay1
  dsimp only
  rw [shapeCast_self]
  exact gram_apply _ _ p q
theorem pay4_apply : k0_pay4 (F := Ideal) x y (ix2 p q) = ∑ k : Fin 512, x (ix2 k p) * y (ix2 k q) := by
  unfold k0_pay4 k0_pay1 k0_pay2
  dsimp only
  rw [shapeCast_self]
  exact gram_apply _ _ p q
theorem pay5_apply : k0_pay5 (F := Ideal) y (ix2 p q) = ∑ k : Fin 512, y (ix2 k p) * y (ix2 k q) := by
  unfold k0_pay5 k0_pay2
  dsimp only
  rw [shapeCast_self]
  exact gram_apply _ _ p q
theorem pay8_apply : k0_pay8 (F := Ideal) x g (ix2 p q) = g (ix2 p q) + ∑ k : Fin 512, x (ix2 k p) * x (ix2 k q) := by
  unfold k0_pay8 k0_pay6
  dsimp only
  rw [shapeCast_self, addf_apply]
  exact congrArg (g (ix2 p q) + ·) (gram_apply _ _ p q)
theorem pay9_apply : k0_pay9 (F := Ideal) x y g (ix2 p q) = g (ix2 p q) + ∑ k : Fin 512, x (ix2 k p) * y (ix2 k q) := by
  unfold k0_pay9 k0_pay6 k0_pay7
  dsimp only
  rw [shapeCast_self, addf_apply]
  exact congrArg (g (ix2 p q) + ·) (gram_apply _ _ p q)
theorem pay10_apply : k0_pay10 (F := Ideal) y g (ix2 p q) = g (ix2 p q) + ∑ k : Fin 512, y (ix2 k p) * y (ix2 k q) := by
  unfold k0_pay10 k0_pay7
  dsimp only
  rw [shapeCast_self, addf_apply]
  exact congrArg (g (ix2 p q) + ·) (gram_apply _ _ p q)

theorem pay12_apply (j : Fin 1024) (d : Fin 128) : k0_pay12 (F := Ideal) (ix2 j d) = Ideal.ofBits .bf16 0x3F80#16 := by
  unfold k0_pay12
  rw [shapeCast_self]
  rfl

/-! ### The keys' dot: both operands contracted over their features (axis 1) -/

/-- The left operand is read at the result's row on its axis 0 … -/
theorem lhs_keys_0 (i : S1024x256.Idx) (c : dot_S1024x256_S256x256_S1024x256_1_1_0_0_n_n.contr.Idx) :
    (dot_S1024x256_S256x256_S1024x256_1_1_0_0_n_n.lhsIdx i c 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
/-- … and at the contraction position on its axis 1. -/
theorem lhs_keys_1 (i : S1024x256.Idx) (c : dot_S1024x256_S256x256_S1024x256_1_1_0_0_n_n.contr.Idx) :
    (dot_S1024x256_S256x256_S1024x256_1_1_0_0_n_n.lhsIdx i c 1).val = (c ⟨0, by decide⟩).val :=
  dot_S1024x256_S256x256_S1024x256_1_1_0_0_n_n.lhsIdx_val_of_single rfl i c
/-- The right operand is read at the result's column on its axis 0 … -/
theorem rhs_keys_0 (i : S1024x256.Idx) (c : dot_S1024x256_S256x256_S1024x256_1_1_0_0_n_n.contr.Idx) :
    (dot_S1024x256_S256x256_S1024x256_1_1_0_0_n_n.rhsIdx i c 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
/-- … and at the contraction position on its axis 1. -/
theorem rhs_keys_1 (i : S1024x256.Idx) (c : dot_S1024x256_S256x256_S1024x256_1_1_0_0_n_n.contr.Idx) :
    (dot_S1024x256_S256x256_S1024x256_1_1_0_0_n_n.rhsIdx i c 1).val = (c ⟨0, by decide⟩).val :=
  dot_S1024x256_S256x256_S1024x256_1_1_0_0_n_n.rhsIdx_val_of_single rfl i c

/-- The product onto a zero accumulator, read at (j, e): the sum over the 256 features a of u[j, a] · v[e, a]. -/
theorem keys_apply {φ₁ φ₂ : FTy} (u : FVec Ideal S1024x256 φ₁) (v : FVec Ideal S256x256 φ₂) (j : Fin 1024) (e : Fin 256) :
    FloatOps.matmul dot_S1024x256_S256x256_S1024x256_1_1_0_0_n_n none u v (constant (F := Ideal) S1024x256 .f32 0x00000000#32) (ix2 j e)
      = ∑ a : Fin 256, u (ix2 j a) * v (ix2 e a) := by
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 j e) ((contrEquiv1 dot_S1024x256_S256x256_S1024x256_1_1_0_0_n_n 256 rfl rfl).symm k) = ix2 j k := funext fun a => Fin.ext (by
    match a with
    | ⟨0, _⟩ => exact lhs_keys_0 _ _
    | ⟨1, _⟩ => exact (lhs_keys_1 _ _).trans hk)
  have er : dot_S1024x256_S256x256_S1024x256_1_1_0_0_n_n.rhsIdx (ix2 j e) ((contrEquiv1 dot_S1024x256_S256x256_S1024x256_1_1_0_0_n_n 256 rfl rfl).symm k) = ix2 e k := funext fun a => Fin.ext (by
    match a with
    | ⟨0, _⟩ => exact rhs_keys_0 _ _
    | ⟨1, _⟩ => exact (rhs_keys_1 _ _).trans hk)
  rw [el, er]

theorem pay13_apply (o : Vec Ideal S1024x256 .f32) (wk : Vec Ideal S256x256 .f32) (bk : Vec Ideal S1x256 .f32) (j : Fin 1024) (e : Fin 256) :
    k0_pay13 (F := Ideal) o wk bk (ix2 j e)
      = ((∑ a : Fin 256, o (ix2 j a) * wk (ix2 e a)) + bk (ix2 (0 : Fin 1) e)) * Ideal.ofBits .f32 0x3D800000#32 := by
  unfold k0_pay13
  rw [shapeCast_self, shapeCast_self, truncf_apply, mulf_apply, addf_apply, broadcast_apply, broadcastTo_1b_ab_apply]
  exact congrArg (fun t => (t + bk (ix2 (0 : Fin 1) e)) * Ideal.ofBits .f32 0x3D800000#32) (keys_apply _ _ j e)

end Cert.Proof.KI.Pay

end
-- ==== Proof.KI.PayIdxB.lean ====
/-
  The mixed matrix's two halves and a block of output rows, read at an index over the extended reals.
  With f = √ entrywise of the three Gram quadrants kept, the column sums of the full symmetric matrix are, for a
  left column j, Σ_i f00 i j + Σ_i f01 j i (the lower-left quadrant is the upper-right one transposed), and for a
  right column j, Σ_i f01 i j + Σ_i f11 i j; `other`'s rows are divided by them and the four quadrants applied.
-/
import proofs.«128930_g52209622450808_cont_9to1_m_767_27_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KI.Pay

open Cert.KernelIdeal Cert.KernelIdeal.Gen
open Idealize.ShloMosaic Idealize.ShloMosaic.ValueIdx
open scoped BigOperators

/-- Row `j` of the upper half and of the lower half of a 1024-row array. -/
def lo (j : Fin 512) : Fin 1024 := ⟨j.val, by omega⟩
def hi (j : Fin 512) : Fin 1024 := ⟨512 + j.val, by omega⟩
/-- Column `d` among the first 256 of 384, and the first appended column. -/
def c384 (d : Fin 256) : Fin 384 := ⟨d.val, by omega⟩
def col256 : Fin 384 := ⟨256, by omega⟩

/-! ### Each product of the body read at an index

A product's entry is the sum, over the one contracted axis, of the left factor's entry times the right factor's:
the left factor is read along a row or down a column, and the right one likewise, as the product's dimension
numbers say. -/

theorem lhs_A_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_A_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_A_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_A_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl
theorem mm_A_apply (l : FVec Ideal S512x512 .bf16) (r : FVec Ideal S512x256 .bf16) (p : Fin 512) (d : Fin 256) :
    matmul (F := Ideal) dot_S512x512_S512x256_S512x256_1_0_0_1_n_n none l r (constant (F := Ideal) S512x256 .f32 0x00000000#32) (ix2 p d)
      = ∑ k : Fin 512, l (ix2 p k) * r (ix2 k d) := by
  simp only [matmul]
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p d) ((ValueIdx.contrEquiv1 dot_S512x512_S512x256_S512x256_1_0_0_1_n_n 512 rfl rfl).symm k) = ix2 p k := funext fun a => Fin.ext (by
    match a with
    | ⟨0, _⟩ => exact lhs_A_0 _ _
    | ⟨1, _⟩ => exact (lhs_A_1 _ _).trans hk)
  have er : dot_S512x512_S512x256_S512x256_1_0_0_1_n_n.rhsIdx (ix2 p d) ((ValueIdx.contrEquiv1 dot_S512x512_S512x256_S512x256_1_0_0_1_n_n 512 rfl rfl).symm k) = ix2 k d := funext fun a => Fin.ext (by
    match a with
    | ⟨0, _⟩ => exact (rhs_A_0 _ _).trans hk
    | ⟨1, _⟩ => exact rhs_A_1 _ _)
  rw [el, er]

theorem lhs_B_0 (i : S512x256.Idx) (q : dot_S512x512_S512x256_S512x256_0_0_1_1_n_n.contr.Idx) :
    (dot_S512x512_S512x256_S512x256_0_0_1_1_n_n.lhsIdx i q 0).val = (q ⟨0, by decide⟩).val :=
  dot_S512x512_S512x256_S512x256_0_0_1_1_n_n.lhsIdx_val_of_single rfl i q
theorem lhs_B_1 (i : S512x256.Idx) (q : dot_S512x512_S512x256_S512x256_0_0_1_1_n_n.contr.Idx) :
    (dot_S512x512_S512x256_S512x256_0_0_1_1_n_n.lhsIdx i q 1).val = (i 0).val := by
  unfold DotDims.lhsIdx
  rw [dif_neg (show ¬(1 : Fin S512x512.rank) ∈ dot_S512x512_S512x256_S512x256_0_0_1_1_n_n.lhsBatch by decide), dif_pos (show (1 : Fin S512x512.rank) ∈ dot_S512x512_S512x256_S512x256_0_0_1_1_n_n.lhsNonContracting by decide)]
  rfl
theorem rhs_B_0 (i : S512x256.Idx) (q : dot_S512x512_S512x256_S512x256_0_0_1_1_n_n.contr.Idx) :
    (dot_S512x512_S512x256_S512x256_0_0_1_1_n_n.rhsIdx i q 0).val = (q ⟨0, by decide⟩).val :=
  dot_S512x512_S512x256_S512x256_0_0_1_1_n_n.rhsIdx_val_of_single rfl i q
theorem rhs_B_1 (i : S512x256.Idx) (q : dot_S512x512_S512x256_S512x256_0_0_1_1_n_n.contr.Idx) :
    (dot_S512x512_S512x256_S512x256_0_0_1_1_n_n.rhsIdx i q 1).val = (i 1).val := by
  unfold DotDims.rhsIdx
  rw [dif_neg (show ¬(1 : Fin S512x256.rank) ∈ dot_S512x512_S512x256_S512x256_0_0_1_1_n_n.rhsBatch by decide), dif_pos (show (1 : Fin S512x256.rank) ∈ dot_S512x512_S512x256_S512x256_0_0_1_1_n_n.rhsNonContracting by decide)]
  rfl
theorem mm_B_apply (l : FVec Ideal S512x512 .bf16) (r : FVec Ideal S512x256 .bf16) (p : Fin 512) (d : Fin 256) :
    matmul (F := Ideal) dot_S512x512_S512x256_S512x256_0_0_1_1_n_n none l r (constant (F := Ideal) S512x256 .f32 0x00000000#32) (ix2 p d)
      = ∑ k : Fin 512, l (ix2 k p) * r (ix2 k d) := by
  simp only [matmul]
  rw [Ideal.matmul_constant_zero_apply, ← Equiv.sum_comp (ValueIdx.contrEquiv1 dot_S512x512_S512x256_S512x256_0_0_1_1_n_n 512 rfl rfl).symm]
  refine Finset.sum_congr rfl fun k _ => ?_
  have hk := ValueIdx.contrEquiv1_symm_val dot_S512x512_S512x256_S512x256_0_0_1_1_n_n 512 rfl rfl k
  have el : dot_S512x512_S512x256_S512x256_0_0_1_1_n_n.lhsIdx (ix2 p d) ((ValueIdx.contrEquiv1 dot_S512x512_S512x256_S512x256_0_0_1_1_n_n 512 rfl rfl).symm k) = ix2 k p := funext fun a => Fin.ext (by
    match a with
    | ⟨0, _⟩ => exact (lhs_B_0 _ _).trans hk
    | ⟨1, _⟩ => exact lhs_B_1 _ _)
  have er : dot_S512x512_S512x256_S512x256_0_0_1_1_n_n.rhsIdx (ix2 p d) ((ValueIdx.contrEquiv1 dot_S512x512_S512x256_S512x256_0_0_1_1_n_n 512 rfl rfl).symm k) = ix2 k d := funext fun a => Fin.ext (by
    match a with
    | ⟨0, _⟩ => exact (rhs_B_0 _ _).trans hk
    | ⟨1, _⟩ => exact rhs_B_1 _ _)
  rw [el, er]

theorem lhs_C_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_C_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem rhs_C_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_C_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q
theorem mm_C_apply (l : FVec Ideal S2000x256 .bf16) (r : FVec Ideal S256x256 .bf16) (p : Fin 2000) (d : Fin 256) :
    matmul (F := Ideal) dot_S2000x256_S256x256_S2000x256_1_1_0_0_n_n none l r (constant (F := Ideal) S2000x256 .f32 0x00000000#32) (ix2 p d)
      = ∑ k : Fin 256, l (ix2 p k) * r (ix2 d k) := by
  simp only [matmul]
  rw [Ideal.matmul_constant_zero_apply, ← Equiv.sum_comp (ValueIdx.contrEquiv1 dot_S2000x256_S256x256_S2000x256_1_1_0_0_n_n 256 rfl rfl).symm]
  refine Finset.sum_congr rfl fun k _ => ?_
  have hk := ValueIdx.contrEquiv1_symm_val dot_S2000x256_S256x256_S2000x256_1_1_0_0_n_n 256 rfl rfl k
  have el : dot_S2000x256_S256x256_S2000x256_1_1_0_0_n_n.lhsIdx (ix2 p d) ((ValueIdx.contrEquiv1 dot_S2000x256_S256x256_S2000x256_1_1_0_0_n_n 256 rfl rfl).symm k) = ix2 p k := funext fun a => Fin.ext (by
    match a with
    | ⟨0, _⟩ => exact lhs_C_0 _ _
    | ⟨1, _⟩ => exact (lhs_C_1 _ _).trans hk)
  have er : dot_S2000x256_S256x256_S2000x256_1_1_0_0_n_n.rhsIdx (ix2 p d) ((ValueIdx.contrEquiv1 dot_S2000x256_S256x256_S2000x256_1_1_0_0_n_n 256 rfl rfl).symm k) = ix2 d k := funext fun a => Fin.ext (by
    match a with
    | ⟨0, _⟩ => exact rhs_C_0 _ _
    | ⟨1, _⟩ => exact (rhs_C_1 _ _).trans hk)
  rw [el, er]

theorem lhs_D_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem lhs_D_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem rhs_D_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem rhs_D_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q
theorem mm_D_apply (l : FVec Ideal S2000x256 .bf16) (r : FVec Ideal S1024x256 .bf16) (p : Fin 2000) (d : Fin 1024) :
    matmul (F := Ideal) dot_S2000x256_S1024x256_S2000x1024_1_1_0_0_n_n none l r (constant (F := Ideal) S2000x1024 .f32 0x00000000#32) (ix2 p d)
      = ∑ k : Fin 256, l (ix2 p k) * r (ix2 d k) := by
  simp only [matmul]
  rw [Ideal.matmul_constant_zero_apply, ← Equiv.sum_comp (ValueIdx.contrEquiv1 dot_S2000x256_S1024x256_S2000x1024_1_1_0_0_n_n 256 rfl rfl).symm]
  refine Finset.sum_congr rfl fun k _ => ?_
  have hk := ValueIdx.contrEquiv1_symm_val dot_S2000x256_S1024x256_S2000x1024_1_1_0_0_n_n 256 rfl rfl k
  have el : dot_S2000x256_S1024x256_S2000x1024_1_1_0_0_n_n.lhsIdx (ix2 p d) ((ValueIdx.contrEquiv1 dot_S2000x256_S1024x256_S2000x1024_1_1_0_0_n_n 256 rfl rfl).symm k) = ix2 p k := funext fun a => Fin.ext (by
    match a with
    | ⟨0, _⟩ => exact lhs_D_0 _ _
    | ⟨1, _⟩ => exact (lhs_D_1 _ _).trans hk)
  have er : dot_S2000x256_S1024x256_S2000x1024_1_1_0_0_n_n.rhsIdx (ix2 p d) ((ValueIdx.contrEquiv1 dot_S2000x256_S1024x256_S2000x1024_1_1_0_0_n_n 256 rfl rfl).symm k) = ix2 d k := funext fun a => Fin.ext (by
    match a with
    | ⟨0, _⟩ => exact rhs_D_0 _ _
    | ⟨1, _⟩ => exact (rhs_D_1 _ _).trans hk)
  rw [el, er]

theorem lhs_E_0 (i : S2000x384.Idx) (q : dot_S2000x1024_S1024x384_S2000x384_1_0_0_1_n_n.contr.Idx) :
    (dot_S2000x1024_S1024x384_S2000x384_1_0_0_1_n_n.lhsIdx i q 0).val = (i 0).val := by
  unfold DotDims.lhsIdx
  rw [dif_neg (show ¬(0 : Fin S2000x1024.rank) ∈ dot_S2000x1024_S1024x384_S2000x384_1_0_0_1_n_n.lhsBatch by decide), dif_pos (show (0 : Fin S2000x1024.rank) ∈ dot_S2000x1024_S1024x384_S2000x384_1_0_0_1_n_n.lhsNonContracting by decide)]
  rfl
theorem lhs_E_1 (i : S2000x384.Idx) (q : dot_S2000x1024_S1024x384_S2000x384_1_0_0_1_n_n.contr.Idx) :
    (dot_S2000x1024_S1024x384_S2000x384_1_0_0_1_n_n.lhsIdx i q 1).val = (q ⟨0, by decide⟩).val :=
  dot_S2000x1024_S1024x384_S2000x384_1_0_0_1_n_n.lhsIdx_val_of_single rfl i q
theorem rhs_E_0 (i : S2000x384.Idx) (q : dot_S2000x1024_S1024x384_S2000x384_1_0_0_1_n_n.contr.Idx) :
    (dot_S2000x1024_S1024x384_S2000x384_1_0_0_1_n_n.rhsIdx i q 0).val = (q ⟨0, by decide⟩).val :=
  dot_S2000x1024_S1024x384_S2000x384_1_0_0_1_n_n.rhsIdx_val_of_single rfl i q
theorem rhs_E_1 (i : S2000x384.Idx) (q : dot_S2000x1024_S1024x384_S2000x384_1_0_0_1_n_n.contr.Idx) :
    (dot_S2000x1024_S1024x384_S2000x384_1_0_0_1_n_n.rhsIdx i q 1).val = (i 1).val := by
  unfold DotDims.rhsIdx
  rw [dif_neg (show ¬(1 : Fin S1024x384.rank) ∈ dot_S2000x1024_S1024x384_S2000x384_1_0_0_1_n_n.rhsBatch by decide), dif_pos (show (1 : Fin S1024x384.rank) ∈ dot_S2000x1024_S1024x384_S2000x384_1_0_0_1_n_n.rhsNonContracting by decide)]
  rfl
theorem mm_E_apply (l : FVec Ideal S2000x1024 .bf16) (r : FVec Ideal S1024x384 .bf16) (p : Fin 2000) (d : Fin 384) :
    matmul (F := Ideal) dot_S2000x1024_S1024x384_S2000x384_1_0_0_1_n_n none l r (constant (F := Ideal) S2000x384 .f32 0x00000000#32) (ix2 p d)
      = ∑ k : Fin 1024, l (ix2 p k) * r (ix2 k d) := by
  simp only [matmul]
  rw [Ideal.matmul_constant_zero_apply, ← Equiv.sum_comp (ValueIdx.contrEquiv1 dot_S2000x1024_S1024x384_S2000x384_1_0_0_1_n_n 1024 rfl rfl).symm]
  refine Finset.sum_congr rfl fun k _ => ?_
  have hk := ValueIdx.contrEquiv1_symm_val dot_S2000x1024_S1024x384_S2000x384_1_0_0_1_n_n 1024 rfl rfl k
  have el : dot_S2000x1024_S1024x384_S2000x384_1_0_0_1_n_n.lhsIdx (ix2 p d) ((ValueIdx.contrEquiv1 dot_S2000x1024_S1024x384_S2000x384_1_0_0_1_n_n 1024 rfl rfl).symm k) = ix2 p k := funext fun a => Fin.ext (by
    match a with
    | ⟨0, _⟩ => exact lhs_E_0 _ _
    | ⟨1, _⟩ => exact (lhs_E_1 _ _).trans hk)
  have er : dot_S2000x1024_S1024x384_S2000x384_1_0_0_1_n_n.rhsIdx (ix2 p d) ((ValueIdx.contrEquiv1 dot_S2000x1024_S1024x384_S2000x384_1_0_0_1_n_n 1024 rfl rfl).symm k) = ix2 k d := funext fun a => Fin.ext (by
    match a with
    | ⟨0, _⟩ => exact (rhs_E_0 _ _).trans hk
    | ⟨1, _⟩ => exact rhs_E_1 _ _)
  rw [el, er]

/-! ### A column of per-row values, and the sums along one axis of a square array -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a 512 × 512 array, at column `j`. -/
theorem sum_axis0_apply (x : FVec Ideal S512x512 .f32) (h : S512x512.Reduces [0] S512) (hφ : FKind.Formats .f32)
    (hacc : (0x00000000#32 : BitVec 32) = FKind.add.neutral .f32 hφ) (j : Fin 512) :
    multiReduction (F := Ideal) .add [0] S512 x 0x00000000#32 h hφ hacc (ix1 j) = ∑ i : Fin 512, x (ix2 i j) :=
  (Ideal.multiReduction_add_single x _ h hφ hacc (ix1 j)).trans (Finset.sum_congr rfl fun k _ =>
    congrArg x (funext fun a => Fin.ext (by match a with | ⟨0, _⟩ => rfl | ⟨1, _⟩ => rfl)))

/-- The sum along the columns of a 512 × 512 array, at row `j`. -/
theorem sum_axis1_apply (x : FVec Ideal S512x512 .f32) (h : S512x512.Reduces [1] S512) (hφ : FKind.Formats .f32)
    (hacc : (0x00000000#32 : BitVec 32) = FKind.add.neutral .f32 hφ) (j : Fin 512) :
    multiReduction (F := Ideal) .add [1] S512 x 0x00000000#32 h hφ hacc (ix1 j) = ∑ i : Fin 512, x (ix2 j i) :=
  (Ideal.multiReduction_add_single x _ h hφ hacc (ix1 j)).trans (Finset.sum_congr rfl fun k _ =>
    congrArg x (funext fun a => Fin.ext (by match a with | ⟨0, _⟩ => rfl | ⟨1, _⟩ => rfl)))

variable (g00 g01 g11 : Vec Ideal S512x512 .f32) (o : Vec Ideal S1024x256 .f32)

/-- The column sums as the body forms them, for a column of the left half and of the right half. -/
def clK (j : Fin 512) : EReal := (∑ i : Fin 512, Ideal.sqrt (g00 (ix2 i j))) + (∑ i : Fin 512, Ideal.sqrt (g01 (ix2 j i)))
def crK (j : Fin 512) : EReal := (∑ i : Fin 512, Ideal.sqrt (g01 (ix2 i j))) + (∑ i : Fin 512, Ideal.sqrt (g11 (ix2 i j)))

/-- Row `j` of the upper half of `other`, divided by the left column sum `j`. -/
theorem pay18_apply (j : Fin 512) (d : Fin 256) :
    k0_pay18 (F := Ideal) g00 g01 o (ix2 j d) = Ideal.div (o (ix2 (lo j) d)) (clK g00 g01 j) := by
  unfold k0_pay18
  dsimp only
  refine (divf_apply _ _ _).trans (congrArg₂ Ideal.div ?_ ?_)
  · exact slice2_axis0_apply 0 o _ j d (lo j) (Nat.zero_add _).symm
  · refine (broadcastTo_a1_ab_apply _ _ j d).trans ?_
    refine (shapeCast_a_a1_apply _ _ j 0).trans ?_
    refine (addf_apply _ _ _).trans (congrArg₂ (· + ·) ?_ ?_)
    · exact sum_axis0_apply (k0_pay15 (F := Ideal) g00) _ _ _ j
    · exact sum_axis1_apply (k0_pay16 (F := Ideal) g01) _ _ _ j

/-- Row `j` of the lower half of `other`, divided by the right column sum `j`. -/
theorem pay19_apply (j : Fin 512) (d : Fin 256) :
    k0_pay19 (F := Ideal) g01 g11 o (ix2 j d) = Ideal.div (o (ix2 (hi j) d)) (crK g01 g11 j) := by
  unfold k0_pay19
  dsimp only
  refine (divf_apply _ _ _).trans (congrArg₂ Ideal.div ?_ ?_)
  · exact slice2_axis0_apply 512 o _ j d (hi j) rfl
  · refine (broadcastTo_a1_ab_apply _ _ j d).trans ?_
    refine (shapeCast_a_a1_apply _ _ j 0).trans ?_
    refine (addf_apply _ _ _).trans (congrArg₂ (· + ·) ?_ ?_)
    · exact sum_axis0_apply (k0_pay16 (F := Ideal) g01) _ _ _ j
    · exact sum_axis0_apply (k0_pay17 (F := Ideal) g11) _ _ _ j

/-- The upper half of the mixed matrix: the upper-left quadrant against the normalised upper rows of `other`, plus
    the upper-right quadrant against the normalised lower rows. -/
theorem pay20_apply (p : Fin 512) (d : Fin 256) :
    k0_pay20 (F := Ideal) g00 g01 g11 o (ix2 p d)
      = (∑ j : Fin 512, Ideal.sqrt (g00 (ix2 p j)) * Ideal.div (o (ix2 (lo j) d)) (clK g00 g01 j))
        + (∑ j : Fin 512, Ideal.sqrt (g01 (ix2 p j)) * Ideal.div (o (ix2 (hi j) d)) (crK g01 g11 j)) := by
  unfold k0_pay20
  refine (congrFun (shapeCast_self _ _) _).trans ?_
  refine (truncf_apply (φ := .f32) (ψ := .bf16) _ _ _).trans ?_
  refine (addf_apply _ _ _).trans (congrArg₂ (· + ·) ?_ ?_)
  · refine (mm_A_apply _ _ p d).trans (Finset.sum_congr rfl fun k _ => ?_)
    exact congrArg₂ (· * ·) rfl (pay18_apply g00 g01 o k d)
  · refine (mm_A_apply _ _ p d).trans (Finset.sum_congr rfl fun k _ => ?_)
    exact congrArg₂ (· * ·) rfl (pay19_apply g01 g11 o k d)

/-- The lower half: the upper-right quadrant transposed against the normalised upper rows, plus the lower-right
    quadrant against the normalised lower rows. -/
theorem pay21_apply (p : Fin 512) (d : Fin 256) :
    k0_pay11 (F := Ideal) (k0_pay21 (F := Ideal) g00 g01 g11 o) (ix2 p d)
      = (∑ j : Fin 512, Ideal.sqrt (g01 (ix2 j p)) * Ideal.div (o (ix2 (lo j) d)) (clK g00 g01 j))
        + (∑ j : Fin 512, Ideal.sqrt (g11 (ix2 p j)) * Ideal.div (o (ix2 (hi j) d)) (crK g01 g11 j)) := by
  unfold k0_pay11 k0_pay21
  refine (congrFun (shapeCast_self _ _) _).trans ?_
  refine (truncf_apply (φ := .f32) (ψ := .bf16) _ _ _).trans ?_
  refine (addf_apply _ _ _).trans (congrArg₂ (· + ·) ?_ ?_)
  · refine (mm_B_apply _ _ p d).trans (Finset.sum_congr rfl fun k _ => ?_)
    exact congrArg₂ (· * ·) rfl (pay18_apply g00 g01 o k d)
  · refine (mm_A_apply _ _ p d).trans (Finset.sum_congr rfl fun k _ => ?_)
    exact congrArg₂ (· * ·) rfl (pay19_apply g01 g11 o k d)

/-- A row's logit against key `j`: the projected, shifted query times the scaled key, summed over the features. -/
def logitV (mn : Vec Ideal S2000x256 .f32) (wq : Vec Ideal S256x256 .f32) (bq : Vec Ideal S1x256 .f32)
    (ks : Vec Ideal S1024x256 .bf16) (y : Fin 2000) (j : Fin 1024) : EReal :=
  ∑ e : Fin 256, ((∑ a : Fin 256, mn (ix2 y a) * wq (ix2 e a)) + bq (ix2 (0 : Fin 1) e)) * ks (ix2 j e)

/-- The exponentials of a row's logits against the 384 columns of the mixed matrix and its appended ones: whatever
    the facts about widths and shapes the operations carry, entry `(y, c)` is the sum over the keys. -/
theorem oaug_apply (hb : FTy.bits .bf16 < FTy.bits .f32) (hc : S1x256.ShapeCasts S1x256) (hbr : S1x256.Broadcasts S2000x256)
    (mn : FVec Ideal S2000x256 .f32) (wq : FVec Ideal S256x256 .f32) (bq : FVec Ideal S1x256 .f32)
    (ks : FVec Ideal S1024x256 .bf16) (om : FVec Ideal S1024x384 .bf16) (y : Fin 2000) (c : Fin 384) :
    matmul (F := Ideal) dot_S2000x1024_S1024x384_S2000x384_1_0_0_1_n_n none
        (truncf .bf16 (exp (matmul (F := Ideal) dot_S2000x256_S1024x256_S2000x1024_1_1_0_0_n_n none
          (truncf .bf16 (addf (matmul (F := Ideal) dot_S2000x256_S256x256_S2000x256_1_1_0_0_n_n none
              (truncf .bf16 mn hb) (truncf .bf16 wq hb) (constant (F := Ideal) S2000x256 .f32 0x00000000#32))
            (broadcastTo S2000x256 (shapeCast S1x256 bq hc) hbr)) hb)
          ks (constant (F := Ideal) S2000x1024 .f32 0x00000000#32))) hb)
        om (constant (F := Ideal) S2000x384 .f32 0x00000000#32) (ix2 y c)
      = ∑ j : Fin 1024, Ideal.exp (logitV mn wq bq ks y j) * om (ix2 j c) := by
  refine (mm_E_apply _ _ y c).trans (Finset.sum_congr rfl fun j _ => ?_)
  refine congrArg₂ (· * ·) ?_ rfl
  show Ideal.exp _ = _
  refine congrArg Ideal.exp ?_
  refine (mm_D_apply _ _ y j).trans (Finset.sum_congr rfl fun e _ => ?_)
  refine congrArg₂ (· * ·) ?_ rfl
  refine (addf_apply _ _ _).trans (congrArg₂ (· + ·) ?_ ?_)
  · exact mm_C_apply _ _ y e
  · refine (broadcastTo_1b_ab_apply _ _ y e).trans ?_
    exact congrFun (shapeCast_self _ _) _

theorem pay14_apply (mn : Vec Ideal S2000x256 .f32) (wq : Vec Ideal S256x256 .f32) (bq : Vec Ideal S1x256 .f32)
    (ks : Vec Ideal S1024x256 .bf16) (om : Vec Ideal S1024x384 .bf16) (y : Fin 2000) (d : Fin 256) :
    k0_pay14 (F := Ideal) mn wq bq ks om (ix2 y d)
      = (∑ j : Fin 1024, Ideal.exp (logitV mn wq bq ks y j) * om (ix2 j (c384 d)))
        * Ideal.div (Ideal.ofBits .f32 0x3F800000#32) (∑ j : Fin 1024, Ideal.exp (logitV mn wq bq ks y j) * om (ix2 j col256)) := by
  unfold k0_pay14
  refine (mulf_apply _ _ _).trans (congrArg₂ (· * ·) ?_ ?_)
  · refine (slice2_axis1_apply 0 _ _ y d (c384 d) (Nat.zero_add _).symm).trans ?_
    exact oaug_apply _ _ _ mn wq bq ks om y (c384 d)
  · refine (broadcastTo_a1_ab_apply _ _ y d).trans ?_
    refine (divf_apply _ _ _).trans (congrArg₂ Ideal.div rfl ?_)
    refine (slice2_axis1_apply 256 _ _ y (0 : Fin 1) col256 rfl).trans ?_
    exact oaug_apply _ _ _ mn wq bq ks om y col256

end Cert.Proof.KI.Pay

end
-- ==== Proof.Spec.lean ====
/-
  The mathematics of the claim, stated once over plain functions of coordinates, with no program in sight.

  Inputs: main (10000×256), other (1024×256), fix (4096×1024), Wq, Wk (256×256), bq, bk (256), all extended reals.
  Shared by both sides:
    gram i j   = Σ_k fix k i · fix k j                 (the Gram matrix of fix's columns)
    ff i j     = √(gram i j)                           (entrywise square root)
    colsum j   = Σ_i ff i j                            (column sums)
    kproj j e  = Σ_a other j a · Wk e a + bk e          (the key projection)
    qproj r e  = Σ_a main r a · Wq e a + bq e           (the query projection)
  The kernel normalises `other`'s rows by the column sums, folds the scale 1/16 into the keys, exponentiates the
  logits without subtracting a row maximum, and divides by the row's sum of exponentials at the end (`outK`).
  The reference normalises ff's columns, divides the logits by 16, and applies the shifted softmax (`outR`,
  for any finite shift `M r` per row: the value does not depend on it).
-/
import Idealize.ShloMosaic.PureOps.Ideal
import Idealize.ShloMosaic.Lib.ValueIdx

noncomputable section

namespace Cert.Spec

open Idealize.ShloMosaic Idealize.ShloMosaic.ValueIdx
open scoped BigOperators

/-- The seven argument arrays as functions of their coordinates. -/
structure Inputs where
  main : Fin 10000 → Fin 256 → EReal
  other : Fin 1024 → Fin 256 → EReal
  fix : Fin 4096 → Fin 1024 → EReal
  Wq : Fin 256 → Fin 256 → EReal
  bq : Fin 256 → EReal
  Wk : Fin 256 → Fin 256 → EReal
  bk : Fin 256 → EReal

/-- The argument arrays, indexed by their shapes' multi-indices, as `Inputs`. -/
def ofArrays (a0 : (⟨2, ![10000, 256]⟩ : Shape).Idx → EReal) (a1 : (⟨2, ![1024, 256]⟩ : Shape).Idx → EReal)
    (a2 : (⟨2, ![4096, 1024]⟩ : Shape).Idx → EReal) (a3 : (⟨2, ![256, 256]⟩ : Shape).Idx → EReal)
    (a4 : (⟨1, ![256]⟩ : Shape).Idx → EReal) (a5 : (⟨2, ![256, 256]⟩ : Shape).Idx → EReal)
    (a6 : (⟨1, ![256]⟩ : Shape).Idx → EReal) : Inputs where
  main r a := a0 (ix2 r a)
  other j a := a1 (ix2 j a)
  fix k j := a2 (ix2 k j)
  Wq e a := a3 (ix2 e a)
  bq e := a4 (ix1 e)
  Wk e a := a5 (ix2 e a)
  bk e := a6 (ix1 e)

/-- Every entry of every input is a real number. -/
structure Inputs.Finite (x : Inputs) : Prop where
  main : ∀ r a, ∃ v : ℝ, x.main r a = v
  other : ∀ j a, ∃ v : ℝ, x.other j a = v
  fix : ∀ k j, ∃ v : ℝ, x.fix k j = v
  Wq : ∀ e a, ∃ v : ℝ, x.Wq e a = v
  bq : ∀ e, ∃ v : ℝ, x.bq e = v
  Wk : ∀ e a, ∃ v : ℝ, x.Wk e a = v
  bk : ∀ e, ∃ v : ℝ, x.bk e = v

/-- No column of `fix` is entirely zero: where one is, the reference divides zero by zero. -/
def Inputs.ColsNonzero (x : Inputs) : Prop := ∀ j : Fin 1024, ∃ k : Fin 4096, x.fix k j ≠ 0

variable (x : Inputs)

def gram (i j : Fin 1024) : EReal := ∑ k : Fin 4096, x.fix k i * x.fix k j
def ff (i j : Fin 1024) : EReal := Ideal.sqrt (gram x i j)
def colsum (j : Fin 1024) : EReal := ∑ i : Fin 1024, ff x i j
def kproj (j : Fin 1024) (e : Fin 256) : EReal := (∑ a : Fin 256, x.other j a * x.Wk e a) + x.bk e
def qproj (r : Fin 10000) (e : Fin 256) : EReal := (∑ a : Fin 256, x.main r a * x.Wq e a) + x.bq e

/-! ### The kernel's form -/

/-- The kernel's scale literal, the f32 word of 1/16. -/
def sixteenth : EReal := Ideal.ofBits .f32 0x3D800000#32
/-- The kernel's two unit literals: the f32 one it divides, the bf16 one in the appended column. -/
def oneF32 : EReal := Ideal.ofBits .f32 0x3F800000#32
def oneBf16 : EReal := Ideal.ofBits .bf16 0x3F80#16

def omK (i : Fin 1024) (d : Fin 256) : EReal := ∑ j : Fin 1024, ff x i j * Ideal.div (x.other j d) (colsum x j)
def logitK (r : Fin 10000) (j : Fin 1024) : EReal := ∑ e : Fin 256, qproj x r e * (kproj x j e * sixteenth)
def expK (r : Fin 10000) (j : Fin 1024) : EReal := Ideal.exp (logitK x r j)
def outK (r : Fin 10000) (d : Fin 256) : EReal :=
  (∑ j : Fin 1024, expK x r j * omK x j d) * Ideal.div oneF32 (∑ j : Fin 1024, expK x r j * oneBf16)

/-! ### The reference's form -/

/-- The reference's divisor literal, the f32 word of 16. -/
def sixteen : EReal := Ideal.ofBits .f32 0x41800000#32

def omR (i : Fin 1024) (d : Fin 256) : EReal := ∑ j : Fin 1024, Ideal.div (ff x i j) (colsum x j) * x.other j d
def logitR (r : Fin 10000) (j : Fin 1024) : EReal := Ideal.div (∑ e : Fin 256, qproj x r e * kproj x j e) sixteen
def expR (M : Fin 10000 → EReal) (r : Fin 10000) (j : Fin 1024) : EReal := Ideal.exp (logitR x r j - M r)
def outR (M : Fin 10000 → EReal) (r : Fin 10000) (d : Fin 256) : EReal :=
  ∑ j : Fin 1024, Ideal.div (expR x M r j) (∑ j' : Fin 1024, expR x M r j') * omR x j d

end Cert.Spec

end
-- ==== Proof.KI.KernelValue.lean ====
/-
  The block of output rows the body stores, entry by entry, is the kernel's form of the specification: the Gram
  matrix accumulated over eight chunks of 512 rows is the full contraction over 4096 rows; its three kept quadrants
  with the transposed fourth give every entry's square root and every column's sum; the two halves of the mixed
  matrix are its rows `[0, 512)` and `[512, 1024)`.
-/
import proofs.«128930_g52209622450808_cont_9to1_m_767_27_alg».proof.Proof.KI.Vals
import proofs.«128930_g52209622450808_cont_9to1_m_767_27_alg».proof.Proof.KI.PayIdxA
import proofs.«128930_g52209622450808_cont_9to1_m_767_27_alg».proof.Proof.KI.PayIdxB
import proofs.«128930_g52209622450808_cont_9to1_m_767_27_alg».proof.Proof.Spec

noncomputable section

namespace Cert.Proof.KI

open Cert.KernelIdeal Cert.KernelIdeal.Gen
open Idealize.ShloMosaic Idealize.ShloMosaic.ValueIdx
open scoped BigOperators

/-- Row `k` of chunk `n` of `fix`, and row `y` of block `b` of `main`, as rows of the whole arrays. -/
def fixRow (n : Fin 8) (k : Fin 512) : Fin 4096 := ⟨512 * n.val + k.val, by omega⟩
def mainRow (b : Fin 5) (y : Fin 2000) : Fin 10000 := ⟨2000 * b.val + y.val, by omega⟩

namespace KV

open Pay

/-! ### Indices: the halves of a chunk, the halves of 1024 rows, the eight chunks of 4096 rows -/

/-- The left half of a chunk of rows, read at `(k, p)`, is the chunk at column `p`. -/
theorem ld_rL (X : Vec Ideal S512x1024 .f32) (k p : Fin 512) : View.ld X rL (ix2 k p) = X (ix2 k (lo p)) := by
  refine congrArg X (funext fun a => Fin.ext ?_)
  match a with
  | ⟨0, _⟩ => show 0 + 1 * k.val = k.val; omega
  | ⟨1, _⟩ => show 0 + 1 * p.val = p.val; omega

/-- The right half, read at `(k, q)`, is the chunk at column `512 + q`. -/
theorem ld_rR (X : Vec Ideal S512x1024 .f32) (k q : Fin 512) : View.ld X rR (ix2 k q) = X (ix2 k (hi q)) := by
  refine congrArg X (funext fun a => Fin.ext ?_)
  match a with
  | ⟨0, _⟩ => show 0 + 1 * k.val = k.val; omega
  | ⟨1, _⟩ => show 512 + 1 * q.val = 512 + q.val; omega

/-- A sum over 1024 rows is the sum over the upper half plus the sum over the lower half. -/
theorem sum_lo_hi {M : Type*} [AddCommMonoid M] (f : Fin 1024 → M) :
    ∑ i : Fin 1024, f i = (∑ i : Fin 512, f (lo i)) + ∑ i : Fin 512, f (hi i) :=
  Fin.sum_univ_add (a := 512) (b := 512) f

/-- Every row of 1024 is in the upper half or in the lower half. -/
theorem lo_or_hi (j : Fin 1024) : (∃ p : Fin 512, j = lo p) ∨ ∃ p : Fin 512, j = hi p := by
  by_cases h : j.val < 512
  · exact Or.inl ⟨⟨j.val, h⟩, Fin.ext rfl⟩
  · exact Or.inr ⟨⟨j.val - 512, by omega⟩, Fin.ext (by show j.val = 512 + (j.val - 512); omega)⟩

/-- A sum over 4096 rows is the sum over the eight chunks of 512 rows. -/
theorem sum_chunks {M : Type*} [AddCommMonoid M] (f : Fin 4096 → M) :
    ∑ k : Fin 4096, f k = ∑ m : Fin 8, ∑ k : Fin 512, f (fixRow m k) := by
  rw [← Equiv.sum_comp (finProdFinEquiv (m := 8) (n := 512)) f, Fintype.sum_prod_type]
  refine Finset.sum_congr rfl fun m _ => Finset.sum_congr rfl fun k _ => ?_
  refine congrArg f (Fin.ext ?_)
  show k.val + 512 * m.val = 512 * m.val + k.val
  omega

/-! ### The Gram state after the chunks `0 … n` -/

/-- The partial contraction over the chunks `0 … n` of a family of chunks, at columns `i` and `j`. -/
def gsum (fx : ℕ → Vec Ideal S512x1024 .f32) (n : ℕ) (i j : Fin 1024) : EReal :=
  ∑ m ∈ Finset.range (n + 1), ∑ k : Fin 512, fx m (ix2 k i) * fx m (ix2 k j)

theorem gsum_zero (fx : ℕ → Vec Ideal S512x1024 .f32) (i j : Fin 1024) :
    gsum fx 0 i j = ∑ k : Fin 512, fx 0 (ix2 k i) * fx 0 (ix2 k j) := by
  unfold gsum; rw [Finset.sum_range_one]

theorem gsum_succ (fx : ℕ → Vec Ideal S512x1024 .f32) (n : ℕ) (i j : Fin 1024) :
    gsum fx (n + 1) i j = gsum fx n i j + ∑ k : Fin 512, fx (n + 1) (ix2 k i) * fx (n + 1) (ix2 k j) := by
  unfold gsum; rw [Finset.sum_range_succ]

/-- Each kept quadrant of the Gram state after the chunks `0 … n` is the partial contraction at its columns. -/
theorem gramFold_apply (fx : ℕ → Vec Ideal S512x1024 .f32) (n : ℕ) (p q : Fin 512) :
    (gramFold fx n).1 (ix2 p q) = gsum fx n (lo p) (lo q)
      ∧ (gramFold fx n).2.1 (ix2 p q) = gsum fx n (lo p) (hi q)
      ∧ (gramFold fx n).2.2 (ix2 p q) = gsum fx n (hi p) (hi q) := by
  induction n with
  | zero =>
    refine ⟨?_, ?_, ?_⟩
    · show k0_pay3 (F := Ideal) (View.ld (fx 0) rL) (ix2 p q) = _
      rw [pay3_apply, gsum_zero]
      exact Finset.sum_congr rfl fun k _ => by rw [ld_rL, ld_rL]
    · show k0_pay4 (F := Ideal) (View.ld (fx 0) rL) (View.ld (fx 0) rR) (ix2 p q) = _
      rw [pay4_apply, gsum_zero]
      exact Finset.sum_congr rfl fun k _ => by rw [ld_rL, ld_rR]
    · show k0_pay5 (F := Ideal) (View.ld (fx 0) rR) (ix2 p q) = _
      rw [pay5_apply, gsum_zero]
      exact Finset.sum_congr rfl fun k _ => by rw [ld_rR, ld_rR]
  | succ n ih =>
    obtain ⟨ih1, ih2, ih3⟩ := ih
    refine ⟨?_, ?_, ?_⟩
    · show k0_pay8 (F := Ideal) (View.ld (fx (n + 1)) rL) (gramFold fx n).1 (ix2 p q) = _
      rw [pay8_apply, gsum_succ, ih1]
      exact congrArg _ (Finset.sum_congr rfl fun k _ => by rw [ld_rL, ld_rL])
    · show k0_pay9 (F := Ideal) (View.ld (fx (n + 1)) rL) (View.ld (fx (n + 1)) rR) (gramFold fx n).2.1 (ix2 p q) = _
      rw [pay9_apply, gsum_succ, ih2]
      exact congrArg _ (Finset.sum_congr rfl fun k _ => by rw [ld_rL, ld_rR])
    · show k0_pay10 (F := Ideal) (View.ld (fx (n + 1)) rR) (gramFold fx n).2.2 (ix2 p q) = _
      rw [pay10_apply, gsum_succ, ih3]
      exact congrArg _ (Finset.sum_congr rfl fun k _ => by rw [ld_rR, ld_rR])

end KV

namespace KV

open Pay

section Whole

variable (a0 : Vec Ideal S10000x256 .f32) (a1 : Vec Ideal S1024x256 .f32) (a2 : Vec Ideal S4096x1024 .f32)
    (a3 : Vec Ideal S256x256 .f32) (a4 : Vec Ideal S256 .f32) (a5 : Vec Ideal S256x256 .f32) (a6 : Vec Ideal S256 .f32)

local notation "𝕏" => Cert.Spec.ofArrays a0 a1 a2 a3 a4 a5 a6

/-! ### The full contraction, its symmetry, the square roots and the column sums -/

/-- The Gram matrix is symmetric: its terms commute. -/
theorem gram_symm (i j : Fin 1024) : Cert.Spec.gram 𝕏 i j = Cert.Spec.gram 𝕏 j i := by
  unfold Cert.Spec.gram
  exact Finset.sum_congr rfl fun k _ => mul_comm _ _

theorem ff_symm (i j : Fin 1024) : Cert.Spec.ff 𝕏 i j = Cert.Spec.ff 𝕏 j i := by
  unfold Cert.Spec.ff; rw [gram_symm]

variable (fx : ℕ → Vec Ideal S512x1024 .f32)
    (hfx : ∀ (n : Fin 8) (k : Fin 512) (j : Fin 1024), fx n.val (ix2 k j) = a2 (ix2 (fixRow n k) j))
include hfx

/-- Over all eight chunks the partial contraction is the contraction over the 4096 rows. -/
theorem gsum_seven (i j : Fin 1024) : gsum fx 7 i j = Cert.Spec.gram 𝕏 i j := by
  show ∑ m ∈ Finset.range 8, ∑ k : Fin 512, fx m (ix2 k i) * fx m (ix2 k j)
    = ∑ k : Fin 4096, a2 (ix2 k i) * a2 (ix2 k j)
  rw [Finset.sum_range, sum_chunks]
  exact Finset.sum_congr rfl fun m _ => Finset.sum_congr rfl fun k _ => by rw [hfx, hfx]

theorem sqrt_g00 (p q : Fin 512) :
    Ideal.sqrt ((gramFold fx 7).1 (ix2 p q)) = Cert.Spec.ff 𝕏 (lo p) (lo q) := by
  rw [(gramFold_apply fx 7 p q).1, gsum_seven a0 a1 a2 a3 a4 a5 a6 fx hfx]; rfl

theorem sqrt_g01 (p q : Fin 512) :
    Ideal.sqrt ((gramFold fx 7).2.1 (ix2 p q)) = Cert.Spec.ff 𝕏 (lo p) (hi q) := by
  rw [(gramFold_apply fx 7 p q).2.1, gsum_seven a0 a1 a2 a3 a4 a5 a6 fx hfx]; rfl

theorem sqrt_g11 (p q : Fin 512) :
    Ideal.sqrt ((gramFold fx 7).2.2 (ix2 p q)) = Cert.Spec.ff 𝕏 (hi p) (hi q) := by
  rw [(gramFold_apply fx 7 p q).2.2, gsum_seven a0 a1 a2 a3 a4 a5 a6 fx hfx]; rfl

/-- A left column's sum: the upper-left quadrant's column, and the upper-right quadrant's row for the lower-left
    quadrant's column. -/
theorem clK_eq (j : Fin 512) :
    clK (gramFold fx 7).1 (gramFold fx 7).2.1 j = Cert.Spec.colsum 𝕏 (lo j) := by
  unfold clK Cert.Spec.colsum
  rw [sum_lo_hi]
  congr 1
  · exact Finset.sum_congr rfl fun i _ => sqrt_g00 a0 a1 a2 a3 a4 a5 a6 fx hfx i j
  · exact Finset.sum_congr rfl fun i _ => by rw [sqrt_g01 a0 a1 a2 a3 a4 a5 a6 fx hfx j i, ff_symm]

/-- A right column's sum: the upper-right and the lower-right quadrants' columns. -/
theorem crK_eq (j : Fin 512) :
    crK (gramFold fx 7).2.1 (gramFold fx 7).2.2 j = Cert.Spec.colsum 𝕏 (hi j) := by
  unfold crK Cert.Spec.colsum
  rw [sum_lo_hi]
  congr 1
  · exact Finset.sum_congr rfl fun i _ => sqrt_g01 a0 a1 a2 a3 a4 a5 a6 fx hfx i j
  · exact Finset.sum_congr rfl fun i _ => sqrt_g11 a0 a1 a2 a3 a4 a5 a6 fx hfx i j

end Whole

end KV

namespace KV

open Pay

/-! ### The mixed matrix's buffer read at an index

The buffer is three stored pieces, the last store listed first: an index reads the first listed piece that holds
it. -/

/-- An upper row at one of the first 256 columns reads the upper half's payload. -/
theorem omVal_lo (g : G3 Ideal) (o : Vec Ideal S1024x256 .f32) (p : Fin 512) (d : Fin 256) :
    omVal g o (ix2 (lo p) (c384 d)) = k0_pay20 (F := Ideal) g.1 g.2.1 g.2.2 o (ix2 p d) := by
  have e : (ix2 (lo p) (c384 d) : S1024x384.Idx) = rOmTL.emb (ix2 p d) := by
    funext a; refine Fin.ext ?_
    match a with
    | ⟨0, _⟩ => show p.val = 0 + 1 * p.val; omega
    | ⟨1, _⟩ => show d.val = 0 + 1 * d.val; omega
  have h1 : (ix2 (lo p) (c384 d) : S1024x384.Idx) ∉ rOmR.set := by
    intro h
    rw [Rect.mem_set_unit] at h
    have h' := h ⟨1, Nat.one_lt_two⟩
    change 256 ≤ d.val ∧ d.val < 256 + 128 at h'
    have := d.isLt
    omega
  have h2 : (ix2 (lo p) (c384 d) : S1024x384.Idx) ∉ rOmBL.set := by
    intro h
    rw [Rect.mem_set_unit] at h
    have h' := h ⟨0, Nat.zero_lt_two⟩
    change 512 ≤ p.val ∧ p.val < 512 + 512 at h'
    have := p.isLt
    omega
  unfold omVal
  refine Eq.trans (View.canon_cons_of_not_mem _ _ h1) ?_
  refine Eq.trans (View.canon_cons_of_not_mem _ _ h2) ?_
  rw [e]
  exact View.canon_cons_emb rOmTL _ _ (ix2 p d)

/-- A lower row at one of the first 256 columns reads the lower half's payload. -/
theorem omVal_hi (g : G3 Ideal) (o : Vec Ideal S1024x256 .f32) (p : Fin 512) (d : Fin 256) :
    omVal g o (ix2 (hi p) (c384 d))
      = k0_pay11 (F := Ideal) (k0_pay21 (F := Ideal) g.1 g.2.1 g.2.2 o) (ix2 p d) := by
  have e : (ix2 (hi p) (c384 d) : S1024x384.Idx) = rOmBL.emb (ix2 p d) := by
    funext a; refine Fin.ext ?_
    match a with
    | ⟨0, _⟩ => show 512 + p.val = 512 + 1 * p.val; omega
    | ⟨1, _⟩ => show d.val = 0 + 1 * d.val; omega
  have h1 : (ix2 (hi p) (c384 d) : S1024x384.Idx) ∉ rOmR.set := by
    intro h
    rw [Rect.mem_set_unit] at h
    have h' := h ⟨1, Nat.one_lt_two⟩
    change 256 ≤ d.val ∧ d.val < 256 + 128 at h'
    have := d.isLt
    omega
  unfold omVal
  refine Eq.trans (View.canon_cons_of_not_mem _ _ h1) ?_
  rw [e]
  exact View.canon_cons_emb rOmBL _ _ (ix2 p d)

/-- The first appended column reads the block of ones. -/
theorem omVal_col256 (g : G3 Ideal) (o : Vec Ideal S1024x256 .f32) (j : Fin 1024) :
    omVal g o (ix2 j col256) = Cert.Spec.oneBf16 := by
  have e : (ix2 j col256 : S1024x384.Idx) = rOmR.emb (ix2 j (⟨0, by omega⟩ : Fin 128)) := by
    funext a; refine Fin.ext ?_
    match a with
    | ⟨0, _⟩ => show j.val = 0 + 1 * j.val; omega
    | ⟨1, _⟩ => show 256 = 256 + 1 * 0; omega
  unfold omVal
  rw [e]
  refine Eq.trans (View.canon_cons_emb rOmR _ _ _) ?_
  rw [pay12_apply]
  rfl

section Whole

variable (a0 : Vec Ideal S10000x256 .f32) (a1 : Vec Ideal S1024x256 .f32) (a2 : Vec Ideal S4096x1024 .f32)
    (a3 : Vec Ideal S256x256 .f32) (a4 : Vec Ideal S256 .f32) (a5 : Vec Ideal S256x256 .f32) (a6 : Vec Ideal S256 .f32)

local notation "𝕏" => Cert.Spec.ofArrays a0 a1 a2 a3 a4 a5 a6

/-- The buffer's first 256 columns are the mixed matrix: its sum over 1024 columns is the two halves' sums, the
    lower-left quadrant read from the upper-right one. -/
theorem omVal_eq_omK (fx : ℕ → Vec Ideal S512x1024 .f32)
    (hfx : ∀ (n : Fin 8) (k : Fin 512) (j : Fin 1024), fx n.val (ix2 k j) = a2 (ix2 (fixRow n k) j))
    (j : Fin 1024) (d : Fin 256) :
    omVal (gramFold fx 7) a1 (ix2 j (c384 d)) = Cert.Spec.omK 𝕏 j d := by
  rcases lo_or_hi j with ⟨p, rfl⟩ | ⟨p, rfl⟩
  · rw [omVal_lo, pay20_apply]
    unfold Cert.Spec.omK
    rw [sum_lo_hi]
    congr 1
    · refine Finset.sum_congr rfl fun j _ => ?_
      rw [sqrt_g00 a0 a1 a2 a3 a4 a5 a6 fx hfx, clK_eq a0 a1 a2 a3 a4 a5 a6 fx hfx]; rfl
    · refine Finset.sum_congr rfl fun j _ => ?_
      rw [sqrt_g01 a0 a1 a2 a3 a4 a5 a6 fx hfx, crK_eq a0 a1 a2 a3 a4 a5 a6 fx hfx]; rfl
  · rw [omVal_hi, pay21_apply]
    unfold Cert.Spec.omK
    rw [sum_lo_hi]
    congr 1
    · refine Finset.sum_congr rfl fun j _ => ?_
      rw [sqrt_g01 a0 a1 a2 a3 a4 a5 a6 fx hfx, ff_symm, clK_eq a0 a1 a2 a3 a4 a5 a6 fx hfx]; rfl
    · refine Finset.sum_congr rfl fun j _ => ?_
      rw [sqrt_g11 a0 a1 a2 a3 a4 a5 a6 fx hfx, crK_eq a0 a1 a2 a3 a4 a5 a6 fx hfx]; rfl

/-! ### The scaled keys and the logits -/

variable (bk2 bq2 : Vec Ideal S1x256 .f32)
    (hbk : ∀ e : Fin 256, bk2 (ix2 (0 : Fin 1) e) = a6 (ix1 e)) (hbq : ∀ e : Fin 256, bq2 (ix2 (0 : Fin 1) e) = a4 (ix1 e))

include hbk in
/-- The stored keys are the key projection times the scale. -/
theorem ksVal_apply (j : Fin 1024) (e : Fin 256) :
    ksVal a1 a5 bk2 (ix2 j e) = Cert.Spec.kproj 𝕏 j e * Cert.Spec.sixteenth := by
  unfold ksVal
  rw [pay13_apply, hbk]
  rfl

include hbk hbq in
/-- A row's logit against the stored keys is the kernel's logit of that row of `main`. -/
theorem logitV_eq (b : Fin 5) (mb : Vec Ideal S2000x256 .f32)
    (hmb : ∀ (y : Fin 2000) (a : Fin 256), mb (ix2 y a) = a0 (ix2 (mainRow b y) a)) (y : Fin 2000) (j : Fin 1024) :
    logitV mb a3 bq2 (ksVal a1 a5 bk2) y j = Cert.Spec.logitK 𝕏 (mainRow b y) j := by
  unfold logitV Cert.Spec.logitK
  refine Finset.sum_congr rfl fun e _ => ?_
  rw [ksVal_apply a0 a1 a2 a3 a4 a5 a6 bk2 hbk, hbq]
  simp only [hmb]
  rfl

end Whole

end KV

theorem outVal_eq_outK (a0 : Vec Ideal S10000x256 .f32) (a1 : Vec Ideal S1024x256 .f32) (a2 : Vec Ideal S4096x1024 .f32)
    (a3 : Vec Ideal S256x256 .f32) (a4 : Vec Ideal S256 .f32) (a5 : Vec Ideal S256x256 .f32) (a6 : Vec Ideal S256 .f32)
    (fx : ℕ → Vec Ideal S512x1024 .f32)
    (hfx : ∀ (n : Fin 8) (k : Fin 512) (j : Fin 1024), fx n.val (ix2 k j) = a2 (ix2 (fixRow n k) j))
    (bk2 bq2 : Vec Ideal S1x256 .f32)
    (hbk : ∀ e : Fin 256, bk2 (ix2 (0 : Fin 1) e) = a6 (ix1 e)) (hbq : ∀ e : Fin 256, bq2 (ix2 (0 : Fin 1) e) = a4 (ix1 e))
    (b : Fin 5) (mb : Vec Ideal S2000x256 .f32)
    (hmb : ∀ (y : Fin 2000) (a : Fin 256), mb (ix2 y a) = a0 (ix2 (mainRow b y) a))
    (y : Fin 2000) (d : Fin 256) :
    outVal (F := Ideal) mb a3 bq2 (ksVal a1 a5 bk2) (omVal (gramFold fx 7) a1) (ix2 y d)
      = Cert.Spec.outK (Cert.Spec.ofArrays a0 a1 a2 a3 a4 a5 a6) (mainRow b y) d := by
  unfold outVal
  rw [Pay.pay14_apply]
  unfold Cert.Spec.outK Cert.Spec.expK
  simp only [KV.logitV_eq a0 a1 a2 a3 a4 a5 a6 bk2 bq2 hbk hbq b mb hmb, KV.omVal_eq_omK a0 a1 a2 a3 a4 a5 a6 fx hfx, KV.omVal_col256]
  rfl

end Cert.Proof.KI

end
-- ==== Proof.KI.Final.lean ====
/-
  The output array after the run, as one function of the argument arrays. Points 8 to 12 write back blocks 0 to 4
  of 2000 rows each, which together are all 10000 rows; what point `t` writes back is the block of output rows
  computed from the block of `main` with the same rows, the whole weight and bias arrays, and the mixed matrix and
  scaled keys stored at point 7 from the whole of `fix` and `other`. Over the extended reals.
-/
import proofs.«128930_g52209622450808_cont_9to1_m_767_27_alg».proof.Proof.KI.Body
import proofs.«128930_g52209622450808_cont_9to1_m_767_27_alg».proof.Proof.KI.KernelValue
import Idealize.ShloMosaic.Lib.ValueIdx
import Idealize.ShloMosaic.Lib.ValueLayout
import Idealize.ShloMosaic.Lib.StableHlo.Run

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

open Idealize.ShloMosaic.ValueIdx

variable (m : (ℓ : Loc nD τ sig) → Buf (Elt Ideal) ℓ) (ρ : Dev nD → PrngReg)

/-! ## The printed index maps, decided over the grid -/

theorem idx0 : ∀ t : Fin cfg0.N, win0_0.index t (0 : Fin 2) = min t.val 7 ∧ win0_0.index t (1 : Fin 2) = 0 :=
  (by decide +kernel : ∀ t : Fin grid0.N, win0_0.index t (0 : Fin 2) = min t.val 7 ∧ win0_0.index t (1 : Fin 2) = 0)
theorem idx4 : ∀ t : Fin cfg0.N, win0_4.index t (0 : Fin 2) = t.val - 8 ∧ win0_4.index t (1 : Fin 2) = 0 :=
  (by decide +kernel : ∀ t : Fin grid0.N, win0_4.index t (0 : Fin 2) = t.val - 8 ∧ win0_4.index t (1 : Fin 2) = 0)
theorem idx7 : ∀ t : Fin cfg0.N, win0_7.index t (0 : Fin 2) = t.val - 8 ∧ win0_7.index t (1 : Fin 2) = 0 :=
  (by decide +kernel : ∀ t : Fin grid0.N, win0_7.index t (0 : Fin 2) = t.val - 8 ∧ win0_7.index t (1 : Fin 2) = 0)
theorem idx1 : ∀ (t : Fin cfg0.N) (a : Fin 2), win0_1.index t a = 0 :=
  (by decide +kernel : ∀ (t : Fin grid0.N) (a : Fin 2), win0_1.index t a = 0)
theorem idx2 : ∀ (t : Fin cfg0.N) (a : Fin 2), win0_2.index t a = 0 :=
  (by decide +kernel : ∀ (t : Fin grid0.N) (a : Fin 2), win0_2.index t a = 0)
theorem idx3 : ∀ (t : Fin cfg0.N) (a : Fin 2), win0_3.index t a = 0 :=
  (by decide +kernel : ∀ (t : Fin grid0.N) (a : Fin 2), win0_3.index t a = 0)
theorem idx5 : ∀ (t : Fin cfg0.N) (a : Fin 2), win0_5.index t a = 0 :=
  (by decide +kernel : ∀ (t : Fin grid0.N) (a : Fin 2), win0_5.index t a = 0)
theorem idx6 : ∀ (t : Fin cfg0.N) (a : Fin 2), win0_6.index t a = 0 :=
  (by decide +kernel : ∀ (t : Fin grid0.N) (a : Fin 2), win0_6.index t a = 0)

/-! ## The blocks, read off the argument arrays -/

/-- A chunk of `fix` holds 512 consecutive rows of it. -/
theorem fix_read (c : Dev nD) (t : Fin cfg0.N) (k : Fin 512) (j : Fin 1024) :
    fixBlk m c t (ix2 k j) = (m ((c : Thread nD τ).loc main_arg2)) (ix2 ⟨512 * min t.val 7 + k.val, by omega⟩ j) := by
  obtain ⟨e0, e1⟩ := idx0 t
  show V m c main_arg2 (((cfg0.win 0).blk t).view.emb (ix2 k j)) = _
  rw [V_main_arg2]
  congr 1
  funext a; apply Fin.ext
  match a with
  | ⟨0, _⟩ => show win0_0.index t (0 : Fin 2) * 512 + 1 * k.val = 512 * min t.val 7 + k.val; omega
  | ⟨1, _⟩ => show win0_0.index t (1 : Fin 2) * 1024 + 1 * j.val = j.val; omega

/-- A block of `main` holds 2000 consecutive rows of it. -/
theorem main_read (c : Dev nD) (t : Fin cfg0.N) (y : Fin 2000) (a : Fin 256) :
    mainBlk m c t (ix2 y a) = (m ((c : Thread nD τ).loc main_arg0)) (ix2 ⟨2000 * (t.val - 8) + y.val, by have := Nat.lt_of_lt_of_eq t.isLt N13; omega⟩ a) := by
  obtain ⟨e0, e1⟩ := idx4 t
  show V m c main_arg0 (((cfg0.win 4).blk t).view.emb (ix2 y a)) = _
  rw [V_main_arg0]
  congr 1
  funext b; apply Fin.ext
  match b with
  | ⟨0, _⟩ => show win0_4.index t (0 : Fin 2) * 2000 + 1 * y.val = 2000 * (t.val - 8) + y.val; omega
  | ⟨1, _⟩ => show win0_4.index t (1 : Fin 2) * 256 + 1 * a.val = a.val; omega

/-- The blocks of `other` and of the two weight matrices are the arrays themselves. -/
theorem other_read (c : Dev nD) (t : Fin cfg0.N) : otherBlk m c t = (m ((c : Thread nD τ).loc main_arg1)) := by
  funext y
  show V m c main_arg1 (((cfg0.win 1).blk t).view.emb y) = _
  rw [V_main_arg1]
  congr 1
  funext a; apply Fin.ext
  match a with
  | ⟨0, _⟩ => show win0_1.index t (0 : Fin 2) * 1024 + 1 * (y 0).val = (y 0).val; have := idx1 t 0; omega
  | ⟨1, _⟩ => show win0_1.index t (1 : Fin 2) * 256 + 1 * (y 1).val = (y 1).val; have := idx1 t 1; omega

theorem wk_read (c : Dev nD) (t : Fin cfg0.N) : wkBlk m c t = (m ((c : Thread nD τ).loc main_arg5)) := by
  funext y
  show V m c main_arg5 (((cfg0.win 2).blk t).view.emb y) = _
  rw [V_main_arg5]
  congr 1
  funext a; apply Fin.ext
  match a with
  | ⟨0, _⟩ => show win0_2.index t (0 : Fin 2) * 256 + 1 * (y 0).val = (y 0).val; have := idx2 t 0; omega
  | ⟨1, _⟩ => show win0_2.index t (1 : Fin 2) * 256 + 1 * (y 1).val = (y 1).val; have := idx2 t 1; omega

theorem wq_read (c : Dev nD) (t : Fin cfg0.N) : wqBlk m c t = (m ((c : Thread nD τ).loc main_arg3)) := by
  funext y
  show V m c main_arg3 (((cfg0.win 5).blk t).view.emb y) = _
  rw [V_main_arg3]
  congr 1
  funext a; apply Fin.ext
  match a with
  | ⟨0, _⟩ => show win0_5.index t (0 : Fin 2) * 256 + 1 * (y 0).val = (y 0).val; have := idx5 t 0; omega
  | ⟨1, _⟩ => show win0_5.index t (1 : Fin 2) * 256 + 1 * (y 1).val = (y 1).val; have := idx5 t 1; omega

/-- The two biases reach the region as 1 × 256 arrays: the host reshapes them. -/
theorem v0_eq (c : Dev nD) : (V m c main_v0 : S1x256.Idx → Elt Ideal .f32)
    = shapeCast S1x256 (m ((c : Thread nD τ).loc main_arg4)) shapeCasts_S256_S1x256 := by
  dsimp only [V, hostOps0]; after_results; rfl
theorem v1_eq (c : Dev nD) : (V m c main_v1 : S1x256.Idx → Elt Ideal .f32)
    = shapeCast S1x256 (m ((c : Thread nD τ).loc main_arg6)) shapeCasts_S256_S1x256 := by
  dsimp only [V, hostOps0]; after_results; rfl

theorem bk_read (c : Dev nD) (t : Fin cfg0.N) (e : Fin 256) : bkBlk m c t (ix2 (0 : Fin 1) e) = (m ((c : Thread nD τ).loc main_arg6)) (ix1 e) := by
  show V m c main_v1 (((cfg0.win 3).blk t).view.emb (ix2 (0 : Fin 1) e)) = _
  have he : ((cfg0.win 3).blk t).view.emb (ix2 (0 : Fin 1) e) = ix2 (0 : Fin 1) e := by
    funext a; apply Fin.ext
    match a with
    | ⟨0, _⟩ => show win0_3.index t (0 : Fin 2) * 1 + 1 * 0 = 0; have := idx3 t 0; omega
    | ⟨1, _⟩ => show win0_3.index t (1 : Fin 2) * 256 + 1 * e.val = e.val; have := idx3 t 1; omega
  rw [he, v1_eq]
  exact shapeCast_a_1a_apply _ _ (0 : Fin 1) e

theorem bq_read (c : Dev nD) (t : Fin cfg0.N) (e : Fin 256) : bqBlk m c t (ix2 (0 : Fin 1) e) = (m ((c : Thread nD τ).loc main_arg4)) (ix1 e) := by
  show V m c main_v0 (((cfg0.win 6).blk t).view.emb (ix2 (0 : Fin 1) e)) = _
  have he : ((cfg0.win 6).blk t).view.emb (ix2 (0 : Fin 1) e) = ix2 (0 : Fin 1) e := by
    funext a; apply Fin.ext
    match a with
    | ⟨0, _⟩ => show win0_6.index t (0 : Fin 2) * 1 + 1 * 0 = 0; have := idx6 t 0; omega
    | ⟨1, _⟩ => show win0_6.index t (1 : Fin 2) * 256 + 1 * e.val = e.val; have := idx6 t 1; omega
  rw [he, v0_eq]
  exact shapeCast_a_1a_apply _ _ (0 : Fin 1) e

/-! ## The output array -/

/-- The argument arrays of core `c`, as the specification's inputs. -/
def inputs (c : Dev nD) : Cert.Spec.Inputs := Cert.Spec.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The whole output array: the kernel's form of the specification at every row and column. -/
def Gout (c : Dev nD) : Buf (Elt Ideal) ((c.tc : Thread nD τ).loc main_v2) :=
  fun i => Cert.Spec.outK (inputs m c) (i 0) (i 1)

/-- What a point from 8 on writes back is its block of the whole output array. -/
theorem flushed7_eq (c : Dev nD) (t : Fin cfg0.N) (ht : (cfg0.win 7).flush t = true) :
    (dats m 0 c).flushed 7 t = ((cfg0.win 7).blk t).view.read (Elt Ideal) (Gout m c) := by
  have h8 : 8 ≤ t.val := by
    have := flush7 t; rw [ht] at this; exact of_decide_eq_true this.symm
  have hlt : t.val < 13 := Nat.lt_of_lt_of_eq t.isLt N13
  obtain ⟨e0, e1⟩ := idx7 t
  show (cfg0.win 7).cut (grid0.coords t) ((dats m 0 c).after 7 t) = _
  rw [after0_7]
  funext y
  rw [eq_ix2 y]
  show outAt m c t (ix2 (y 0) (y 1)) = Gout m c (((cfg0.win 7).blk t).view.emb (ix2 (y 0) (y 1)))
  unfold outAt omAt ksAt gramAt
  rw [other_read, wk_read, wq_read]
  have hfx : ∀ (n : Fin 8) (k : Fin 512) (j : Fin 1024), fxAt m c n.val (ix2 k j) = (m ((c : Thread nD τ).loc main_arg2)) (ix2 (fixRow n k) j) := by
    intro n k j
    unfold fxAt
    rw [fix_read]
    congr 2
    apply Fin.ext
    show 512 * min (n.val % 13) 7 + k.val = 512 * n.val + k.val
    have := n.isLt
    omega
  have hmb : ∀ (y' : Fin 2000) (a : Fin 256), mainBlk m c t (ix2 y' a) = (m ((c : Thread nD τ).loc main_arg0)) (ix2 (mainRow ⟨t.val - 8, by omega⟩ y') a) := by
    intro y' a
    rw [main_read]
    rfl
  rw [outVal_eq_outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (fxAt m c) hfx (bkBlk m c (pt 7)) (bqBlk m c t)
    (fun e => bk_read m c (pt 7) e) (fun e => bq_read m c t e) ⟨t.val - 8, by omega⟩ (mainBlk m c t) hmb (y 0) (y 1)]
  unfold Gout inputs
  congr 1
  · apply Fin.ext
    show 2000 * (t.val - 8) + (y 0).val = win0_7.index t (0 : Fin 2) * 2000 + 1 * (y 0).val
    omega
  · apply Fin.ext
    show (y 1).val = win0_7.index t (1 : Fin 2) * 256 + 1 * (y 1).val
    omega

/-- An index of the output array is in point `t`'s block iff each coordinate is in the block's range. -/
theorem mem_blk7 (t : Fin cfg0.N) (i : S10000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v2).slice (win0_7.rect t)).set ↔ _
  rw [View.set_slice_whole, Rect.mem_set_unit]
  exact Iff.rfl

/-- Every row of the output is in the block some point from 8 on writes back: row `r` in that of point `8 + r / 2000`. -/
theorem cover7 (i : S10000x256.Idx) : ∃ t : Fin cfg0.N, (cfg0.win 7).flush t = true ∧ i ∈ ((cfg0.win 7).blk t).view.set := by
  have hi0 : (i 0).val < 10000 := (i 0).isLt
  have hi1 : (i 1).val < 256 := (i 1).isLt
  refine ⟨⟨8 + (i 0).val / 2000, by rw [N13]; omega⟩, ?_, ?_⟩
  · rw [flush7]; exact decide_eq_true (by show 8 ≤ 8 + (i 0).val / 2000; omega)
  · rw [mem_blk7]
    obtain ⟨e0, e1⟩ := idx7 ⟨8 + (i 0).val / 2000, by rw [N13]; omega⟩
    intro a
    match a with
    | ⟨0, _⟩ =>
      show win0_7.index _ (0 : Fin 2) * 2000 ≤ (i 0).val ∧ (i 0).val < win0_7.index _ (0 : Fin 2) * 2000 + 2000
      rw [e0]
      show (8 + (i 0).val / 2000 - 8) * 2000 ≤ (i 0).val ∧ (i 0).val < (8 + (i 0).val / 2000 - 8) * 2000 + 2000
      omega
    | ⟨1, _⟩ =>
      show win0_7.index _ (1 : Fin 2) * 256 ≤ (i 1).val ∧ (i 1).val < win0_7.index _ (1 : Fin 2) * 256 + 256
      rw [e1]; omega

/-- The output array after the run. -/
theorem final7 (c : Dev nD) : (dats m 0 c).arrAt 7 cfg0.N = Gout m c :=
  (dats m 0 c).arrAt_eq_of_cover 7 (Gout m c) (fun t ht => flushed7_eq m c t ht) (cover7)

/-- The run, re-posted: the output array at the kernel's form of the specification, the arguments unchanged. -/
theorem run_value : θ_run defs (onTc (τ := τ) (main (F := Ideal))) ⟨m, fun _ => 0, ρ⟩ (fun r => ∀ c : Dev nD,
      r.2.mem ((c.tc : Thread nD τ).loc main_v2) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).1 4).trans (((dats m 0 c).arrAt_in 4 rfl _).trans ((A_eq m c 4).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c)⟩)
    (run_main m ρ)

end Cert.Proof.KI

end
-- ==== Proof.RefImports.lean ====
/-
  The reference program's run and its read-at-an-index lemmas, gathered in one place for the modules that
  compare the reference's result with the kernel's, index by index.
-/
import proofs.«128930_g52209622450808_cont_9to1_m_767_27_alg».proof.Proof.Gen.ReferenceIdeal.Run
import proofs.«128930_g52209622450808_cont_9to1_m_767_27_alg».proof.Proof.Gen.ReferenceIdeal.Read
-- ==== Proof.RefValue.lean ====
/-
  The reference's result, entry by entry, is the reference's form of the specification: the shifted softmax of the
  scaled logits, applied to the column-normalised square-rooted Gram matrix times `other`; the shift of row `r` is
  that row's largest logit, a real number when the inputs are.
-/
import proofs.«128930_g52209622450808_cont_9to1_m_767_27_alg».proof.Proof.RefImports
import proofs.«128930_g52209622450808_cont_9to1_m_767_27_alg».proof.Proof.Spec

noncomputable section

namespace Cert.RefValue

open Cert.ReferenceIdeal Cert.ReferenceIdeal.Read Idealize.ShloMosaic Idealize.ShloMosaic.ValueIdx
open Cert.ReferenceIdeal.Gen
open scoped BigOperators

/-! ### Real numbers among the extended reals

Sums and products of real numbers are real, and so is the largest of finitely many of them, at least one. -/

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_real {ι : Type*} (s : Finset ι) (f : ι → EReal) (hf : ∀ k, ∃ v : ℝ, f k = v) : ∃ v : ℝ, ∑ k ∈ s, f k = v := by
  choose g hg using hf
  exact ⟨∑ k ∈ s, g k, by rw [coe_sum]; exact Finset.sum_congr rfl fun k _ => hg k⟩

theorem mul_real {a b : EReal} (ha : ∃ v : ℝ, a = v) (hb : ∃ v : ℝ, b = v) : ∃ v : ℝ, a * b = v := by
  obtain ⟨u, rfl⟩ := ha
  obtain ⟨w, rfl⟩ := hb
  exact ⟨u * w, (EReal.coe_mul u w).symm⟩

theorem add_real {a b : EReal} (ha : ∃ v : ℝ, a = v) (hb : ∃ v : ℝ, b = v) : ∃ v : ℝ, a + b = v := by
  obtain ⟨u, rfl⟩ := ha
  obtain ⟨w, rfl⟩ := hb
  exact ⟨u + w, (EReal.coe_add u w).symm⟩

/-- The largest of finitely many real numbers, at least one, taken from minus infinity, is a real number:
    it is above minus infinity because one of them is, and below plus infinity because all of them are. -/
theorem fold_max_real {ι : Type*} (s : Finset ι) (hs : s.Nonempty) (f : ι → EReal) (hf : ∀ k, ∃ v : ℝ, f k = v) :
    ∃ v : ℝ, s.fold max ⊥ f = v := by
  obtain ⟨k0, hk0⟩ := hs
  have h1 : ⊥ < s.fold max ⊥ f := by
    rw [Finset.lt_fold_max]
    obtain ⟨v, hv⟩ := hf k0
    exact Or.inr ⟨k0, hk0, hv ▸ EReal.bot_lt_coe v⟩
  have h2 : s.fold max ⊥ f < ⊤ := by
    rw [Finset.fold_max_lt]
    refine ⟨bot_lt_top, fun k _ => ?_⟩
    obtain ⟨v, hv⟩ := hf k
    exact hv ▸ EReal.coe_lt_top v
  exact ⟨(s.fold max ⊥ f).toReal, (EReal.coe_toReal h2.ne h1.ne').symm⟩

/-- The literal the row maximum starts from is minus infinity. -/
theorem negInf : Ideal.ofBits .f32 0xFF800000#32 = ⊥ := by simp [Ideal.ofBits, Ideal.ieee]

/-- The literal the logits are divided by is the real number sixteen. -/
theorem sixteen_eq : Ideal.ofBits .f32 0x41800000#32 = ((16 : ℝ) : EReal) := by
  simp [Ideal.ofBits, Ideal.ieee, -EReal.coe_mul]; norm_num

section Stages

/-! ### Indices by coordinates

Every index function met below sends an index to one whose coordinates are coordinates of its argument; two
indices with the same coordinates are equal, axis by axis. -/

/-- Two rank-2 indices whose coordinates agree are equal. -/
local macro "idx2" : tactic =>
  `(tactic| exact funext fun a => Fin.ext (by match a with | ⟨0, _⟩ => rfl | ⟨1, _⟩ => rfl))
/-- Two rank-1 indices whose coordinate agrees are equal. -/
local macro "idx1" : tactic =>
  `(tactic| exact funext fun a => Fin.ext (by match a with | ⟨0, _⟩ => rfl))

variable (x0 : (⟨S10000x256, .f32⟩ : BufTy).Contents (Elt Ideal)) (x1 : (⟨S1024x256, .f32⟩ : BufTy).Contents (Elt Ideal))
    (x2 : (⟨S4096x1024, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal))

/-- The seven argument arrays as the specification's inputs. -/
local notation "𝒳" => Cert.Spec.ofArrays x0 x1 x2 x3 x4 x5 x6

/-! ### The two projections and the scaled logits -/

/-- The query projection: `main` times the transpose of `Wq`, plus the bias along the columns. -/
theorem qproj_eq (r : Fin 10000) (e : Fin 256) :
    val_main_v4 (F := Ideal) x0 x3 x4 (ix2 r e) = Cert.Spec.qproj 𝒳 r e := by
  show _ = (∑ a : Fin 256, x0 (ix2 r a) * x3 (ix2 e a)) + x4 (ix1 e)
  have eb : idx_main_v2 (idx_main_v3 (ix2 r e)) = ix1 e := by idx1
  rw [val_main_v4_apply, val_main_v1_apply, val_main_v3_apply, val_main_v2_apply, Ideal.addf_def, eb]
  refine congrArg (· + _) (Finset.sum_congr rfl fun k _ => ?_)
  have e1 : lidx_main_v1 (ix2 r e) k = ix2 r k := by idx2
  have e2 : idx_main_v0 (ridx_main_v1 (ix2 r e) k) = ix2 e k := by idx2
  rw [val_main_v0_apply, e1, e2]

/-- The key projection: `other` times the transpose of `Wk`, plus the bias along the columns. -/
theorem kproj_eq (j : Fin 1024) (e : Fin 256) :
    val_main_v9 (F := Ideal) x1 x5 x6 (ix2 j e) = Cert.Spec.kproj 𝒳 j e := by
  show _ = (∑ a : Fin 256, x1 (ix2 j a) * x5 (ix2 e a)) + x6 (ix1 e)
  have eb : idx_main_v7 (idx_main_v8 (ix2 j e)) = ix1 e := by idx1
  rw [val_main_v9_apply, val_main_v6_apply, val_main_v8_apply, val_main_v7_apply, Ideal.addf_def, eb]
  refine congrArg (· + _) (Finset.sum_congr rfl fun k _ => ?_)
  have e1 : lidx_main_v6 (ix2 j e) k = ix2 j k := by idx2
  have e2 : idx_main_v5 (ridx_main_v6 (ix2 j e) k) = ix2 e k := by idx2
  rw [val_main_v5_apply, e1, e2]

/-- The logits: the queries against the keys, divided by the literal sixteen. -/
theorem logit_eq (r : Fin 10000) (j : Fin 1024) :
    val_main_v13 (F := Ideal) x0 x1 x3 x4 x5 x6 (ix2 r j) = Cert.Spec.logitR 𝒳 r j := by
  show _ = Ideal.div (∑ e : Fin 256, Cert.Spec.qproj 𝒳 r e * Cert.Spec.kproj 𝒳 j e) (Ideal.ofBits .f32 0x41800000#32)
  rw [val_main_v13_apply, val_main_v11_apply, val_main_v12_apply, val_main_cst_apply, Ideal.hostDivf_def, Ideal.ofBits_def]
  refine congrArg (Ideal.div · _) (Finset.sum_congr rfl fun k _ => ?_)
  have e1 : lidx_main_v11 (ix2 r j) k = ix2 r k := by idx2
  have e2 : idx_main_v10 (ridx_main_v11 (ix2 r j) k) = ix2 j k := by idx2
  rw [val_main_v10_apply, e1, e2, qproj_eq x0 x1 x2 x3 x4 x5 x6, kproj_eq x0 x1 x2 x3 x4 x5 x6]

/-! ### The Gram matrix of `fix`'s columns, its entrywise root, the column sums, and the normalised product -/

/-- The Gram matrix: the transpose of `fix` times `fix`. -/
theorem gram_eq (i j : Fin 1024) :
    val_main_v26 (F := Ideal) x2 (ix2 i j) = Cert.Spec.gram 𝒳 i j := by
  show _ = ∑ k : Fin 4096, x2 (ix2 k i) * x2 (ix2 k j)
  rw [val_main_v26_apply]
  refine Finset.sum_congr rfl fun k _ => ?_
  have e1 : idx_main_v25 (lidx_main_v26 (ix2 i j) k) = ix2 k i := by idx2
  have e2 : ridx_main_v26 (ix2 i j) k = ix2 k j := by idx2
  rw [val_main_v25_apply, e1, e2]

/-- Its entrywise square root. -/
theorem ff_eq (i j : Fin 1024) :
    val_main_v27 (F := Ideal) x2 (ix2 i j) = Cert.Spec.ff 𝒳 i j := by
  show _ = Ideal.sqrt (Cert.Spec.gram 𝒳 i j)
  rw [val_main_v27_apply, Ideal.hostUnary_sqrt_def, gram_eq x0 x1 x2 x3 x4 x5 x6]

/-- The column sums: a sum down the rows that starts from the literal zero. -/
theorem colsum_eq (j : Fin 1024) :
    val_main_v28 (F := Ideal) x2 (ix1 j) = Cert.Spec.colsum 𝒳 j := by
  show _ = ∑ i : Fin 1024, Cert.Spec.ff 𝒳 i j
  rw [val_main_v28_apply, val_main_cst_3_apply, Ideal.ofBits_def, Ideal.ofBits_zero_f32, zero_add]
  refine Finset.sum_congr rfl fun k _ => ?_
  have e1 : idx_main_v28 (ix1 j) k = ix2 k j := by idx2
  rw [e1, ff_eq x0 x1 x2 x3 x4 x5 x6]

/-- The root of the Gram matrix with each column divided by its sum, times `other`. -/
theorem omR_eq (i : Fin 1024) (d : Fin 256) :
    val_main_v32 (F := Ideal) x1 x2 (ix2 i d) = Cert.Spec.omR 𝒳 i d := by
  show _ = ∑ j : Fin 1024, Ideal.div (Cert.Spec.ff 𝒳 i j) (Cert.Spec.colsum 𝒳 j) * x1 (ix2 j d)
  rw [val_main_v32_apply]
  refine Finset.sum_congr rfl fun k _ => ?_
  have e1 : lidx_main_v32 (ix2 i d) k = ix2 i k := by idx2
  have e2 : ridx_main_v32 (ix2 i d) k = ix2 k d := by idx2
  have e3 : idx_main_v29 (idx_main_v30 (ix2 i k)) = ix1 k := by idx1
  rw [e1, e2, val_main_v31_apply, val_main_v30_apply, val_main_v29_apply, e3, Ideal.hostDivf_def,
    ff_eq x0 x1 x2 x3 x4 x5 x6, colsum_eq x0 x1 x2 x3 x4 x5 x6]

/-! ### Every logit is a real number, and so is each row's largest -/

theorem qproj_real (hfin : Cert.Spec.Inputs.Finite 𝒳) (r : Fin 10000) (e : Fin 256) :
    ∃ v : ℝ, Cert.Spec.qproj 𝒳 r e = v :=
  add_real (sum_real _ _ fun a => mul_real (hfin.main r a) (hfin.Wq e a)) (hfin.bq e)

theorem kproj_real (hfin : Cert.Spec.Inputs.Finite 𝒳) (j : Fin 1024) (e : Fin 256) :
    ∃ v : ℝ, Cert.Spec.kproj 𝒳 j e = v :=
  add_real (sum_real _ _ fun a => mul_real (hfin.other j a) (hfin.Wk e a)) (hfin.bk e)

/-- A logit is a real sum times the real number one sixteenth. -/
theorem logit_real (hfin : Cert.Spec.Inputs.Finite 𝒳) (r : Fin 10000) (j : Fin 1024) :
    ∃ v : ℝ, Cert.Spec.logitR 𝒳 r j = v := by
  show ∃ v : ℝ, Ideal.div (∑ e : Fin 256, Cert.Spec.qproj 𝒳 r e * Cert.Spec.kproj 𝒳 j e)
    (Ideal.ofBits .f32 0x41800000#32) = v
  rw [sixteen_eq, Ideal.div_coe (by norm_num : (16 : ℝ) ≠ 0)]
  exact mul_real (sum_real _ _ fun e =>
    mul_real (qproj_real x0 x1 x2 x3 x4 x5 x6 hfin r e) (kproj_real x0 x1 x2 x3 x4 x5 x6 hfin j e)) ⟨_, rfl⟩

/-- The reference's shift of row `r`: the larger of minus infinity and the row's largest logit, itself taken from
    minus infinity. The largest logit is a maximum over the 1024 entries of the row, all real, so the shift is a
    real number. -/
theorem rowmax_real (hfin : Cert.Spec.Inputs.Finite 𝒳) (r : Fin 10000) :
    ∃ v : ℝ, val_main_v16 (F := Ideal) x0 x1 x3 x4 x5 x6 (ix1 r) = v := by
  have h : S10000x1024.Reduces [1] S10000 := by decide
  have hne : (Finset.univ : Finset (Fin (S10000x1024.size 1))).Nonempty := ⟨⟨0, by decide⟩, Finset.mem_univ _⟩
  have hreal : ∀ k : Fin (S10000x1024.size 1), ∃ v : ℝ,
      (val_main_v13 (F := Ideal) x0 x1 x3 x4 x5 x6 ∘ h.lift (ix1 r)) k = v := fun k => by
    show ∃ v : ℝ, val_main_v13 (F := Ideal) x0 x1 x3 x4 x5 x6 (h.lift (ix1 r) k) = v
    obtain ⟨a, b, hab⟩ : ∃ (a : Fin 10000) (b : Fin 1024), h.lift (ix1 r) k = ix2 a b := ⟨_, _, eq_ix2 _⟩
    rw [hab, logit_eq x0 x1 x2 x3 x4 x5 x6]
    exact logit_real x0 x1 x2 x3 x4 x5 x6 hfin a b
  obtain ⟨v, hv⟩ := fold_max_real _ hne _ hreal
  refine ⟨v, ?_⟩
  rw [val_main_v16_apply, val_main_v15_apply, val_main_cst_1_apply, Ideal.maximumf_def, Ideal.ofBits_def, negInf,
    max_eq_right bot_le]
  unfold val_main_v14
  rw [Host.reduce_eq_fold_single FloatOps.maximumf _ _ reducesTo_S10000x1024_S10000_d1 h h_S_ (ix1 r),
    val_main_cst_0_apply, Ideal.ofBits_def, negInf]
  exact hv

/-! ### The shifted softmax and the result, for a shift that is the reference's -/

section Shift
variable (M : Fin 10000 → ℝ) (hM : ∀ r, val_main_v16 (F := Ideal) x0 x1 x3 x4 x5 x6 (ix1 r) = (M r : EReal))
include hM

/-- The exponential of a logit less its row's shift. -/
theorem expR_eq (r : Fin 10000) (j : Fin 1024) :
    val_main_v20 (F := Ideal) x0 x1 x3 x4 x5 x6 (ix2 r j) = Cert.Spec.expR 𝒳 (fun r => (M r : EReal)) r j := by
  show _ = Ideal.exp (Cert.Spec.logitR 𝒳 r j - (M r : EReal))
  have e1 : idx_main_v17 (idx_main_v18 (ix2 r j)) = ix1 r := by idx1
  rw [val_main_v20_apply, val_main_v19_apply, val_main_v18_apply, val_main_v17_apply, e1, hM,
    logit_eq x0 x1 x2 x3 x4 x5 x6, Ideal.hostUnary_exp_def, Ideal.subf_def]

/-- A row's sum of exponentials: a sum along the row that starts from the literal zero. -/
theorem expsum_eq (r : Fin 10000) :
    val_main_v21 (F := Ideal) x0 x1 x3 x4 x5 x6 (ix1 r)
      = ∑ j' : Fin 1024, Cert.Spec.expR 𝒳 (fun r => (M r : EReal)) r j' := by
  rw [val_main_v21_apply, val_main_cst_2_apply, Ideal.ofBits_def, Ideal.ofBits_zero_f32, zero_add]
  refine Finset.sum_congr rfl fun k _ => ?_
  have e1 : idx_main_v21 (ix1 r) k = ix2 r k := by idx2
  rw [e1, expR_eq x0 x1 x2 x3 x4 x5 x6 M hM]

/-- The softmax weight: an exponential over its row's sum. -/
theorem softmax_eq (r : Fin 10000) (j : Fin 1024) :
    val_main_v24 (F := Ideal) x0 x1 x3 x4 x5 x6 (ix2 r j)
      = Ideal.div (Cert.Spec.expR 𝒳 (fun r => (M r : EReal)) r j)
          (∑ j' : Fin 1024, Cert.Spec.expR 𝒳 (fun r => (M r : EReal)) r j') := by
  have e1 : idx_main_v22 (idx_main_v23 (ix2 r j)) = ix1 r := by idx1
  rw [val_main_v24_apply, val_main_v23_apply, val_main_v22_apply, e1, Ideal.hostDivf_def,
    expR_eq x0 x1 x2 x3 x4 x5 x6 M hM, expsum_eq x0 x1 x2 x3 x4 x5 x6 M hM]

/-- The result: the softmax weights of row `r` against column `d` of the normalised product. -/
theorem out_eq (r : Fin 10000) (d : Fin 256) :
    val_main_v33 (F := Ideal) x0 x1 x2 x3 x4 x5 x6 (ix2 r d) = Cert.Spec.outR 𝒳 (fun r => (M r : EReal)) r d := by
  show _ = ∑ j : Fin 1024, Ideal.div (Cert.Spec.expR 𝒳 (fun r => (M r : EReal)) r j)
    (∑ j' : Fin 1024, Cert.Spec.expR 𝒳 (fun r => (M r : EReal)) r j') * Cert.Spec.omR 𝒳 j d
  rw [val_main_v33_apply]
  refine Finset.sum_congr rfl fun k _ => ?_
  have e1 : lidx_main_v33 (ix2 r d) k = ix2 r k := by idx2
  have e2 : ridx_main_v33 (ix2 r d) k = ix2 k d := by idx2
  rw [e1, e2, softmax_eq x0 x1 x2 x3 x4 x5 x6 M hM, omR_eq x0 x1 x2 x3 x4 x5 x6]

end Shift

end Stages

/-- The reference's result at row `r`, column `d` is `Spec.outR` of the argument arrays at some real shift per row. -/
theorem result_eq (x0 : (⟨S10000x256, .f32⟩ : BufTy).Contents (Elt Ideal)) (x1 : (⟨S1024x256, .f32⟩ : BufTy).Contents (Elt Ideal))
    (x2 : (⟨S4096x1024, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal))
    (hfin : (Cert.Spec.ofArrays x0 x1 x2 x3 x4 x5 x6).Finite) :
    ∃ M : Fin 10000 → ℝ, ∀ (r : Fin 10000) (d : Fin 256),
      val_main_v33 (F := Ideal) x0 x1 x2 x3 x4 x5 x6 (ix2 r d)
        = Cert.Spec.outR (Cert.Spec.ofArrays x0 x1 x2 x3 x4 x5 x6) (fun r => (M r : EReal)) r d := by
  choose M hM using rowmax_real x0 x1 x2 x3 x4 x5 x6 hfin
  exact ⟨M, fun r d => out_eq x0 x1 x2 x3 x4 x5 x6 M hM r d⟩

end Cert.RefValue

end
-- ==== Proof.PreFacts.lean ====
/-
  What the precondition says of the argument arrays, read at the extended reals: every entry is a real number,
  and every column of `fix` has a nonzero entry.
-/
import proofs.«128930_g52209622450808_cont_9to1_m_767_27_alg».proof.Pre_finite_inputs
import proofs.«128930_g52209622450808_cont_9to1_m_767_27_alg».proof.Proof.Gen.Pre_finite_inputs
import proofs.«128930_g52209622450808_cont_9to1_m_767_27_alg».proof.Proof.Spec
import Idealize.ShloMosaic.Lib.ReduceAll

noncomputable section

namespace Cert.PreFacts

open Idealize.ShloMosaic Idealize.ShloMosaic.ValueIdx Cert.Pre_finite_inputs

/-- The rank-zero shape has one index. -/
instance : Subsingleton S_.Idx := ⟨fun a b => funext fun d => d.elim0⟩

/-- A one-bit word made from a truth value is 1 exactly when the value is true. -/
theorem ofBool_eq_one (b : Bool) : BitVec.ofBool b = 1#1 ↔ b = true := by cases b <;> decide

/-- The f32 pattern 0x7F800000 denotes +∞. -/
theorem inf_bits : Ideal.ofBits .f32 0x7F800000#32 = (⊤ : EReal) := by simp [Ideal.ofBits, Ideal.ieee]

/-- The f32 pattern 0 denotes 0. -/
theorem zero_bits : Ideal.ofBits .f32 0x00000000#32 = (0 : EReal) := by simp [Ideal.ofBits, Ideal.ieee]

/-- An extended real whose absolute value max x (-x) is below +∞ is neither +∞ nor -∞: it is a real. -/
theorem real_of_abs_lt_top (x : EReal) (h : max x (-x) < ⊤) : ∃ v : ℝ, x = v := by
  induction x using EReal.rec with
  | bot => simp at h
  | coe v => exact ⟨v, rfl⟩
  | top => simp at h

/-- The element fact: where the printed comparison |x i| < +∞ answers 1, x i is a real. -/
theorem real_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ v : ℝ, x i = v := by
  have h' : BitVec.ofBool (decide (max (x i) (-(x i)) < Ideal.ofBits .f32 0x7F800000#32)) = 1#1 := h
  rw [ofBool_eq_one, decide_eq_true_eq, inf_bits] at h'
  exact real_of_abs_lt_top _ h'

/-- The conjunction of |x i| < +∞ over every index: where the reduce by `and` of the printed comparison is 1, every
    entry of x is a real. -/
theorem real_of_all {s : Shape} {axes : List (Fin s.rank)} (x : FVec Ideal s .f32)
    (hb : S_.BroadcastsInDim s (![] : Fin 0 → Fin s.rank)) (hr : s.ReducesTo axes S_) (hu : 0 < S_.numel) (c : IVec S_ 1)
    (h : Host.reduce IntOp.andi (cmpf .olt (Host.absf x) (broadcastInDim s ![] hb (constant S_ .f32 0x7F800000#32))) c hr hu ix0
      = 1#1) (i : s.Idx) : ∃ v : ℝ, x i = v :=
  real_of_cmp x hb i (Host.reduce_andi_all _ c hr hu ix0 h i)

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A disjunction along some axes: a reduce by `or` from 0 that is 1 at j had a 1 at some operand index that reduces
    into j. -/
theorem reduce_ori_eq_one {s t u : Shape} {axes : List (Fin s.rank)} (x : s.Idx → BitVec 1) (init : u.Idx → BitVec 1)
    (h : s.ReducesTo axes t) (hu : 0 < u.numel) (h0 : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with hi | ⟨i, hi, hx⟩
  · rw [h0] at hi; exact absurd hi (by decide)
  · rw [List.mem_filter] at hi
    exact ⟨i, by simpa using hi.2, hx⟩

/-- The element fact of the eighth conjunct: where the printed comparison x i ≠ 0 answers 1, x i is not zero. -/
theorem ne_zero_of_cmp {s : Shape} (x : FVec Ideal s .f32) (hb : S_.BroadcastsInDim s (![] : Fin 0 → Fin s.rank)) (i : s.Idx)
    (h : cmpf .une x (broadcastInDim s ![] hb (constant S_ .f32 0x00000000#32)) i = 1#1) : x i ≠ (0 : EReal) := by
  have h' : BitVec.ofBool (decide (x i ≠ Ideal.ofBits .f32 0x00000000#32)) = 1#1 := h
  rw [ofBool_eq_one, decide_eq_true_eq, zero_bits] at h'
  exact h'

/-- For a matrix x, the conjunction over the columns j of the disjunction over the rows k of x k j ≠ 0: every column has
    a nonzero entry. The index the disjunction finds drops to j, so its second coordinate is j. -/
theorem col_nonzero {m n : Nat} (x : FVec Ideal ⟨2, ![m, n]⟩ .f32)
    (hb : S_.BroadcastsInDim ⟨2, ![m, n]⟩ (![] : Fin 0 → Fin 2))
    (hr : (⟨2, ![m, n]⟩ : Shape).ReducesTo [0] ⟨1, ![n]⟩) (hr' : (⟨1, ![n]⟩ : Shape).ReducesTo [0] S_) (hu : 0 < S_.numel)
    (h : Host.reduce IntOp.andi
        (Host.reduce IntOp.ori (cmpf .une x (broadcastInDim ⟨2, ![m, n]⟩ ![] hb (constant S_ .f32 0x00000000#32)))
          (constantI S_ 1 0#1) hr hu) (constantI S_ 1 1#1) hr' hu ix0 = 1#1) (j : Fin n) :
    ∃ k : Fin m, x (ix2 k j) ≠ (0 : EReal) := by
  have hj := Host.reduce_andi_all _ _ hr' hu ix0 h (ix1 j)
  obtain ⟨i, hd, hx⟩ := reduce_ori_eq_one _ _ hr hu rfl (ix1 j) hj
  have h1 : ((hr.drop i ⟨0, Nat.one_pos⟩ : Fin _) : Nat) = i 1 :=
    Shape.ReducesTo.drop_apply_val_of_eq hr i ⟨0, Nat.one_pos⟩ 1 (by show (0 : Nat) < 1; exact Nat.one_pos) rfl
  rw [hd] at h1
  have hi1 : i 1 = j := Fin.ext h1.symm
  refine ⟨i 0, ?_⟩
  have hne := ne_zero_of_cmp x hb i hx
  rwa [eq_ix2 i, hi1] at hne

/-- The printed precondition, all ones at the extended reals, gives finiteness of every input and a nonzero
    entry in every column of `fix`. -/
theorem of_pre [Cert.Pre_finite_inputs.Facts]
    (a0 : FVec Ideal S10000x256 .f32) (a1 : FVec Ideal S1024x256 .f32) (a2 : FVec Ideal S4096x1024 .f32)
    (a3 : FVec Ideal S256x256 .f32) (a4 : FVec Ideal S256 .f32) (a5 : FVec Ideal S256x256 .f32) (a6 : FVec Ideal S256 .f32)
    (h : Cert.Pre_finite_inputs.fn (F := Ideal) a0 a1 a2 a3 a4 a5 a6 = fun _ => 1#1) :
    (Cert.Spec.ofArrays a0 a1 a2 a3 a4 a5 a6).Finite ∧ (Cert.Spec.ofArrays a0 a1 a2 a3 a4 a5 a6).ColsNonzero := by
  -- the result at its one index, the chain of `let`s opened, the chain of `and`s split into its eight conjuncts
  have e := congrFun h ix0
  dsimp only [fn, fn_part1, fn_part2, andi] at e
  simp only [IntOp.andi_eq_one] at e
  obtain ⟨⟨⟨⟨⟨⟨⟨h0, h1⟩, h2⟩, h3⟩, h4⟩, h5⟩, h6⟩, h7⟩ := e
  refine ⟨⟨fun r a => ?_, fun j a => ?_, fun k j => ?_, fun e a => ?_, fun e => ?_, fun e a => ?_, fun e => ?_⟩, fun j => ?_⟩
  · exact real_of_all a0 _ _ _ _ h0 (ix2 r a)
  · exact real_of_all a1 _ _ _ _ h1 (ix2 j a)
  · exact real_of_all a2 _ _ _ _ h2 (ix2 k j)
  · exact real_of_all a3 _ _ _ _ h3 (ix2 e a)
  · exact real_of_all a4 _ _ _ _ h4 (ix1 e)
  · exact real_of_all a5 _ _ _ _ h5 (ix2 e a)
  · exact real_of_all a6 _ _ _ _ h6 (ix1 e)
  · exact col_nonzero a2 _ _ _ _ h7 j

end Cert.PreFacts

end
-- ==== Proof.Algebra.lean ====
/-
  The two forms of the result are one function, wherever every input is a real number and no column of `fix`
  vanishes.
-/
import proofs.«128930_g52209622450808_cont_9to1_m_767_27_alg».proof.Proof.Spec

noncomputable section

namespace Cert.Spec

open Idealize.ShloMosaic
open scoped BigOperators

namespace Alg

/-! ### The four literals -/

/-- The word `0x3D800000` is `2⁻⁴`. -/
theorem sixteenth_eq : sixteenth = ((1 / 16 : ℝ) : EReal) := by
  unfold sixteenth
  simp [Ideal.ofBits, Ideal.ieee, -EReal.coe_mul]; norm_num

/-- The word `0x41800000` is `2⁴`. -/
theorem sixteen_eq : sixteen = ((16 : ℝ) : EReal) := by
  unfold sixteen
  simp [Ideal.ofBits, Ideal.ieee, -EReal.coe_mul]; norm_num

theorem oneF32_eq : oneF32 = 1 := by
  unfold oneF32
  simp [Ideal.ofBits, Ideal.ieee, -EReal.coe_mul]; norm_num

theorem oneBf16_eq : oneBf16 = 1 := by
  unfold oneBf16
  simp [Ideal.ofBits, Ideal.ieee, -EReal.coe_mul]; norm_num

/-! ### Finite sums of extended reals -/

section General

variable {ι : Type*}

/-- The coercion of the reals commutes with finite sums. -/
theorem coe_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite factor distributes over a finite sum of arbitrary extended reals. -/
theorem sum_mul_nonneg (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A sum with a term `⊥` is `⊥`. -/
theorem sum_eq_bot (s : Finset ι) (f : ι → EReal) {a : ι} (ha : a ∈ s) (hf : f a = ⊥) :
    ∑ i ∈ s, f i = ⊥ := by
  classical
  rw [← Finset.add_sum_erase s f ha, hf, EReal.bot_add]

/-- A sum whose terms are each `⊥` or nonnegative, one of them positive, is not zero: it is `⊥`, or at
    least the positive term. -/
theorem sum_ne_zero (s : Finset ι) (f : ι → EReal) (h : ∀ i ∈ s, f i = ⊥ ∨ 0 ≤ f i) {a : ι} (ha : a ∈ s)
    (hpos : 0 < f a) : ∑ i ∈ s, f i ≠ 0 := by
  by_cases hb : ∃ i ∈ s, f i = ⊥
  · obtain ⟨i, hi, hfi⟩ := hb
    rw [sum_eq_bot s f hi hfi]
    exact EReal.bot_ne_zero
  · have h' : ∀ i ∈ s, 0 ≤ f i := fun i hi => (h i hi).resolve_left fun e => hb ⟨i, hi, e⟩
    have hle : f a ≤ ∑ i ∈ s, f i := Finset.single_le_sum h' ha
    exact (lt_of_lt_of_le hpos hle).ne'

end General

/-! ### The column sums do not vanish -/

section Cols

variable (x : Inputs) (fx : Fin 4096 → Fin 1024 → ℝ) (hfx : ∀ k j, x.fix k j = fx k j)
include hfx

/-- With `fix` real the Gram matrix is real. -/
theorem gram_coe (i j : Fin 1024) : gram x i j = ((∑ k, fx k i * fx k j : ℝ) : EReal) := by
  unfold gram
  rw [coe_sum]
  refine Finset.sum_congr rfl fun k _ => ?_
  rw [hfx, hfx, EReal.coe_mul]

/-- An entry of the square root of the Gram matrix is `⊥` (under a negative entry) or a nonnegative real. -/
theorem ff_cases (i j : Fin 1024) : ff x i j = ⊥ ∨ 0 ≤ ff x i j := by
  unfold ff
  rw [gram_coe x fx hfx, Ideal.sqrt_coe]
  split_ifs
  · exact Or.inl rfl
  · exact Or.inr (by exact_mod_cast Real.sqrt_nonneg _)

/-- A diagonal entry is the norm of a column, positive when the column is not zero. -/
theorem ff_diag_pos (hcol : x.ColsNonzero) (j : Fin 1024) : 0 < ff x j j := by
  obtain ⟨k, hk⟩ := hcol j
  have hk' : fx k j ≠ 0 := by
    intro h
    apply hk
    rw [hfx, h, EReal.coe_zero]
  have hpos : 0 < ∑ k, fx k j * fx k j :=
    Finset.sum_pos' (fun k _ => mul_self_nonneg _) ⟨k, Finset.mem_univ _, mul_self_pos.mpr hk'⟩
  unfold ff
  rw [gram_coe x fx hfx, Ideal.sqrt_coe, if_neg (not_lt.mpr hpos.le)]
  exact_mod_cast Real.sqrt_pos.mpr hpos

end Cols

/-- A column sum is `⊥` or at least its diagonal term: never zero. -/
theorem colsum_ne_zero (x : Inputs) (hfin : x.Finite) (hcol : x.ColsNonzero) (j : Fin 1024) :
    colsum x j ≠ 0 := by
  choose fx hfx using hfin.fix
  unfold colsum
  exact sum_ne_zero _ _ (fun i _ => ff_cases x fx hfx i j) (Finset.mem_univ j) (ff_diag_pos x fx hfx hcol j)

/-- Dividing the left factor or the right factor by a nonzero column sum is the same product. -/
theorem omR_eq_omK (x : Inputs) (hfin : x.Finite) (hcol : x.ColsNonzero) (i : Fin 1024) (d : Fin 256) :
    omR x i d = omK x i d := by
  unfold omR omK
  refine Finset.sum_congr rfl fun j _ => ?_
  have hc := colsum_ne_zero x hfin hcol j
  rw [Ideal.div, Ideal.div, if_neg hc, if_neg hc, mul_right_comm, mul_assoc]

/-! ### The logits -/

/-- With real inputs both projections are real. -/
theorem exists_proj (x : Inputs) (hfin : x.Finite) :
    ∃ (Q : Fin 10000 → Fin 256 → ℝ) (K : Fin 1024 → Fin 256 → ℝ),
      (∀ r e, qproj x r e = Q r e) ∧ (∀ j e, kproj x j e = K j e) := by
  choose m hm using hfin.main
  choose o ho using hfin.other
  choose wq hwq using hfin.Wq
  choose bq hbq using hfin.bq
  choose wk hwk using hfin.Wk
  choose bk hbk using hfin.bk
  refine ⟨fun r e => (∑ a, m r a * wq e a) + bq e, fun j e => (∑ a, o j a * wk e a) + bk e, ?_, ?_⟩
  · intro r e
    show qproj x r e = (((∑ a, m r a * wq e a) + bq e : ℝ) : EReal)
    unfold qproj
    rw [EReal.coe_add, coe_sum, hbq]
    congr 1
    refine Finset.sum_congr rfl fun a _ => ?_
    rw [hm, hwq, EReal.coe_mul]
  · intro j e
    show kproj x j e = (((∑ a, o j a * wk e a) + bk e : ℝ) : EReal)
    unfold kproj
    rw [EReal.coe_add, coe_sum, hbk]
    congr 1
    refine Finset.sum_congr rfl fun a _ => ?_
    rw [ho, hwk, EReal.coe_mul]

section Logits

variable (x : Inputs) (Q : Fin 10000 → Fin 256 → ℝ) (K : Fin 1024 → Fin 256 → ℝ)
  (hQ : ∀ r e, qproj x r e = Q r e) (hK : ∀ j e, kproj x j e = K j e)
include hQ hK

/-- The kernel's logit, the scale folded into the keys. -/
theorem logitK_coe (r : Fin 10000) (j : Fin 1024) :
    logitK x r j = (((∑ e, Q r e * K j e) * (1 / 16) : ℝ) : EReal) := by
  unfold logitK
  rw [sixteenth_eq, Finset.sum_mul, coe_sum]
  refine Finset.sum_congr rfl fun e _ => ?_
  rw [hQ, hK, ← EReal.coe_mul, ← EReal.coe_mul, mul_assoc]

/-- The reference's logit, the inner product divided by sixteen. -/
theorem logitR_coe (r : Fin 10000) (j : Fin 1024) :
    logitR x r j = (((∑ e, Q r e * K j e) * (1 / 16) : ℝ) : EReal) := by
  unfold logitR
  rw [sixteen_eq, Ideal.div_coe (by norm_num), EReal.coe_mul, coe_sum]
  congr 1
  refine Finset.sum_congr rfl fun e _ => ?_
  rw [hQ, hK, EReal.coe_mul]

end Logits

/-! ### The softmax step -/

/-- The shifted softmax weights applied to arbitrary extended reals are the unshifted exponentials applied to
    them, divided once by their sum: the shift cancels between numerator and denominator, and the reciprocal
    of the sum, a nonnegative finite factor, distributes over the sum whatever its terms are. -/
theorem softmax_step {ι : Type*} [Fintype ι] [Nonempty ι] (a : ι → ℝ) (m : ℝ) (om : ι → EReal) :
    ∑ j, Ideal.div (Ideal.exp ((a j : EReal) - (m : EReal)))
        (∑ j', Ideal.exp ((a j' : EReal) - (m : EReal))) * om j
      = (∑ j, Ideal.exp (a j : EReal) * om j) * Ideal.div 1 (∑ j, Ideal.exp (a j : EReal) * 1) := by
  have hS : 0 < ∑ j, Real.exp (a j) := Finset.sum_pos (fun j _ => Real.exp_pos _) Finset.univ_nonempty
  have hE : 0 < ∑ j, Real.exp (a j - m) := Finset.sum_pos (fun j _ => Real.exp_pos _) Finset.univ_nonempty
  have hden : (∑ j', Ideal.exp ((a j' : EReal) - (m : EReal))) = ((∑ j', Real.exp (a j' - m) : ℝ) : EReal) := by
    rw [coe_sum]
    refine Finset.sum_congr rfl fun j _ => ?_
    rw [← EReal.coe_sub, Ideal.exp_coe]
  have hdenK : (∑ j, Ideal.exp (a j : EReal) * 1) = ((∑ j, Real.exp (a j) : ℝ) : EReal) := by
    rw [coe_sum]
    refine Finset.sum_congr rfl fun j _ => ?_
    rw [mul_one, Ideal.exp_coe]
  have hinv : (0 : EReal) ≤ ((1 / ∑ j, Real.exp (a j) : ℝ) : EReal) := by
    exact_mod_cast (one_div_pos.mpr hS).le
  rw [hden, hdenK, Ideal.div_coe hS.ne', one_mul, sum_mul_nonneg _ _ hinv (EReal.coe_ne_top _)]
  refine Finset.sum_congr rfl fun j _ => ?_
  rw [Ideal.div_coe hE.ne', ← EReal.coe_sub, Ideal.exp_coe, Ideal.exp_coe, ← EReal.coe_mul, mul_right_comm,
    ← EReal.coe_mul]
  congr 2
  have hm : Real.exp m ≠ 0 := (Real.exp_pos m).ne'
  simp only [Real.exp_sub, ← Finset.sum_div]
  field_simp

end Alg

/-! ### The claim -/

open Alg in
/-- The reference's form, at any finite shift of each row's logits, is the kernel's form. -/
theorem outR_eq_outK (x : Inputs) (hfin : x.Finite) (hcol : x.ColsNonzero) (M : Fin 10000 → ℝ)
    (r : Fin 10000) (d : Fin 256) : outR x (fun r => (M r : EReal)) r d = outK x r d := by
  obtain ⟨Q, K, hQ, hK⟩ := exists_proj x hfin
  haveI : Nonempty (Fin 1024) := ⟨0⟩
  unfold outR outK expR expK
  simp only [logitK_coe x Q K hQ hK, logitR_coe x Q K hQ hK, omR_eq_omK x hfin hcol, oneF32_eq, oneBf16_eq]
  exact softmax_step (fun j => (∑ e, Q r e * K j e) * (1 / 16)) (M r) (fun j => omK x j d)

end Cert.Spec

end
-- ==== Proof.lean ====
/-
  The claim: the kernel as printed and as idealized run to the end without fault and leave their arguments
  unchanged, the reference does too, the idealization changes nothing, and over the extended reals the idealized
  kernel and the reference end with the same output array.

  The output is softmax(Q Kᵀ / 16) · (N · other), where Q and K are the projected queries and keys and N is the
  entrywise square root of the Gram matrix of `fix`'s columns with each column divided by its sum. The kernel
  accumulates the Gram matrix over eight chunks of rows, keeps three of its four quadrants (it is symmetric), divides
  the rows of `other` by the column sums instead of the columns of N, folds the scale 1/16 into the keys, leaves out
  the subtraction of each row's largest logit, and normalises by the row's sum of exponentials, computed as one more
  column of the last product, at the end. These agree wherever every input is a real number and no column of `fix`
  vanishes (a vanishing column makes a column sum zero, where the reference divides zero by zero): the quotient by a
  nonzero column sum is a product with its inverse, which commutes; the scaled logits are the same real numbers; the
  shift cancels between numerator and denominator; and multiplying a sum of extended reals by the positive real
  1/(sum of exponentials) distributes.
-/
import proofs.«128930_g52209622450808_cont_9to1_m_767_27_alg».proof.Defs
import proofs.«128930_g52209622450808_cont_9to1_m_767_27_alg».proof.Proof.Gen.Kernel
import proofs.«128930_g52209622450808_cont_9to1_m_767_27_alg».proof.Proof.Gen.Kernel.Skeleton
import proofs.«128930_g52209622450808_cont_9to1_m_767_27_alg».proof.Proof.Gen.Kernel.Launch
import proofs.«128930_g52209622450808_cont_9to1_m_767_27_alg».proof.Proof.Gen.Kernel.Points
import proofs.«128930_g52209622450808_cont_9to1_m_767_27_alg».proof.Proof.Gen.Kernel.Frame
import proofs.«128930_g52209622450808_cont_9to1_m_767_27_alg».proof.Proof.Gen.KernelIdeal
import proofs.«128930_g52209622450808_cont_9to1_m_767_27_alg».proof.Proof.Gen.KernelIdeal.Skeleton
import proofs.«128930_g52209622450808_cont_9to1_m_767_27_alg».proof.Proof.Gen.KernelIdeal.Launch
import proofs.«128930_g52209622450808_cont_9to1_m_767_27_alg».proof.Proof.Gen.KernelIdeal.Points
import proofs.«128930_g52209622450808_cont_9to1_m_767_27_alg».proof.Proof.Gen.KernelIdeal.Frame
import proofs.«128930_g52209622450808_cont_9to1_m_767_27_alg».proof.Proof.Gen.ReferenceIdeal
import proofs.«128930_g52209622450808_cont_9to1_m_767_27_alg».proof.Proof.Gen.Pre_finite_inputs
import proofs.«128930_g52209622450808_cont_9to1_m_767_27_alg».proof.Proof.K.Body
import proofs.«128930_g52209622450808_cont_9to1_m_767_27_alg».proof.Proof.KI.Final
import proofs.«128930_g52209622450808_cont_9to1_m_767_27_alg».proof.Proof.RefValue
import proofs.«128930_g52209622450808_cont_9to1_m_767_27_alg».proof.Proof.PreFacts
import proofs.«128930_g52209622450808_cont_9to1_m_767_27_alg».proof.Proof.Algebra
import Idealize.ShloMosaic.Adequacy
import Idealize.ShloMosaic.Init

noncomputable section

namespace Cert.Proof

open Idealize.ShloMosaic Idealize.ShloMosaic.ValueIdx Idealize.SL.Sem

/-- The kernel as printed: the frame of its run. -/
theorem frame_k : Cert.frame_Kernel := fun m ρ _ =>
  Cert.Kernel.Gen.frame_of m ρ (Cert.Proof.K.dats m) (Cert.Proof.K.A_eq m) (Cert.Proof.K.run_main (F := Bits) m ρ)

/-- The idealized kernel: the same run read over the extended reals. -/
theorem frame_ki : Cert.frame_KernelIdeal := fun m ρ _ =>
  Cert.KernelIdeal.Gen.frame_of m ρ (Cert.Proof.KI.dats m) (Cert.Proof.KI.A_eq m) (Cert.Proof.KI.run_main (F := Ideal) m ρ)

/-- The reference: its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the kernel's form of the specification in their result: the kernel by its run, the
    reference because its form equals the kernel's where the precondition holds. -/
theorem algebraic : Cert.algebraic_KernelIdeal_ReferenceIdeal := by
  intro m ρ m' ρ' hpre hagree
  refine ⟨fun c => Cert.Proof.KI.Gout m c, Cert.Proof.KI.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  obtain ⟨ha0, ha1, ha2, ha3, ha4, ha5, ha6⟩ := hagree c
  rw [ha0, ha1, ha2, ha3, ha4, ha5, ha6]
  obtain ⟨hfin, hcol⟩ := Cert.PreFacts.of_pre _ _ _ _ _ _ _ (hpre c)
  obtain ⟨M, hM⟩ := Cert.RefValue.result_eq _ _ _ _ _ _ _ hfin
  funext i
  obtain ⟨p, q, rfl⟩ : ∃ (p : Fin 10000) (q : Fin 256), i = ix2 p q := ⟨i 0, i 1, eq_ix2 i⟩
  exact (hM p q).trans (Cert.Spec.outR_eq_outK _ hfin hcol M p q)

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
